-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S3x8192x512 : Shape := ⟨3, ![3, 8192, 512]⟩
abbrev S128x128 : Shape := ⟨2, ![128, 128]⟩
abbrev S2048x128 : Shape := ⟨2, ![2048, 128]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩

class Facts : Prop where
  bcast_S_S3x8192x512 : S_.BroadcastsInDim S3x8192x512 (![] : Fin 0 → Fin S3x8192x512.rank)
  reducesTo_S3x8192x512_S_d0_1_2 : S3x8192x512.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S2048x128 : S_.BroadcastsInDim S2048x128 (![] : Fin 0 → Fin S2048x128.rank)
  reducesTo_S2048x128_S_d0_1 : S2048x128.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part5 {F : FTy → Type} [FloatOps F] (main_arg0 : IVec S8192 32) (main_v83 : IVec S_ 1) (main_v84 : IVec S8192 32) : IVec S_ 1 :=
  let main_v85 : IVec S8192 1 := cmpi .sge main_arg0 main_v84
  let main_c_33 : IVec S_ 32 := constantI S_ 32 128#32
  let main_v86 : IVec S8192 32 := broadcastInDim S8192 ![] bcast_S_S8192 main_c_33
  let main_v87 : IVec S8192 1 := cmpi .slt main_arg0 main_v86
  let main_v88 : IVec S8192 1 := andi main_v85 main_v87
  let main_c_34 : IVec S_ 1 := constantI S_ 1 1#1
  let main_v89 : IVec S_ 1 := (fun x v => Host.reduce IntOp.andi x v reducesTo_S8192_S_d0 h_S_) main_v88 main_c_34
  let main_v90 : IVec S_ 1 := andi main_v83 main_v89
  main_v90

def fn_part4 {F : FTy → Type} [FloatOps F] (main_arg0 : IVec S8192 32) (main_arg15 : FVec F S2048 .f32) (main_arg16 : FVec F S128x512 .f32) (main_arg17 : FVec F S128 .f32) (main_v63 : IVec S_ 1) (main_v67 : IVec S_ 1) : IVec S_ 1 :=
  let main_v68 : IVec S_ 1 := andi main_v63 main_v67
  let main_v69 : FVec F S2048 .f32 := Host.absf main_arg15
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S128x512 .f32 := Host.absf main_arg16
  let main_cst_28 : FVec F S_ .f32 := constant S_ .f32 0x7F800000#32
  let main_v75 : FVec F S128x512 .f32 := broadcastInDim S128x512 ![] bcast_S_S128x512 main_cst_28
  let main_v76 : IVec S128x512 1 := cmpf .olt main_v74 main_v75
  let main_c_29 : IVec S_ 1 := constantI S_ 1 1#1
  let main_v77 : IVec S_ 1 := (fun x v => Host.reduce IntOp.andi x v reducesTo_S128x512_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_c_32 : IVec S_ 32 := constantI S_ 32 0#32
  let main_v84 : IVec S8192 32 := broadcastInDim S8192 ![] bcast_S_S8192 main_c_32
  fn_part5 (F := F) main_arg0 main_v83 main_v84

def fn_part3 {F : FTy → Type} [FloatOps F] (main_arg0 : IVec S8192 32) (main_arg12 : FVec F S2048x512 .f32) (main_arg13 : FVec F S2048x512 .f32) (main_arg14 : FVec F S2048 .f32) (main_arg15 : FVec F S2048 .f32) (main_arg16 : FVec F S128x512 .f32) (main_arg17 : FVec F S128 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x512 .f32 := Host.absf main_arg12
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048x512 .f32 := Host.absf main_arg13
  let main_cst_22 : FVec F S_ .f32 := constant S_ .f32 0x7F800000#32
  let main_v60 : FVec F S2048x512 .f32 := broadcastInDim S2048x512 ![] bcast_S_S2048x512 main_cst_22
  let main_v61 : IVec S2048x512 1 := cmpf .olt main_v59 main_v60
  let main_c_23 : IVec S_ 1 := constantI S_ 1 1#1
  let main_v62 : IVec S_ 1 := (fun x v => Host.reduce IntOp.andi x v reducesTo_S2048x512_S_d0_1 h_S_) main_v61 main_c_23
  let main_v63 : IVec S_ 1 := andi main_v58 main_v62
  let main_v64 : FVec F S2048 .f32 := Host.absf main_arg14
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg0 main_arg15 main_arg16 main_arg17 main_v63 main_v67

def fn_part2 {F : FTy → Type} [FloatOps F] (main_arg0 : IVec S8192 32) (main_arg8 : FVec F S2048x512 .f32) (main_arg9 : FVec F S2048x512 .f32) (main_arg10 : FVec F S2048 .f32) (main_arg11 : FVec F S2048 .f32) (main_arg12 : FVec F S2048x512 .f32) (main_arg13 : FVec F S2048x512 .f32) (main_arg14 : FVec F S2048 .f32) (main_arg15 : FVec F S2048 .f32) (main_arg16 : FVec F S128x512 .f32) (main_arg17 : FVec F S128 .f32) (main_v33 : IVec S_ 1) : IVec S_ 1 :=
  let main_v34 : FVec F S2048x512 .f32 := Host.absf main_arg8
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048x512 .f32 := Host.absf main_arg9
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg11
  let main_cst_18 : FVec F S_ .f32 := constant S_ .f32 0x7F800000#32
  let main_v50 : FVec F S2048 .f32 := broadcastInDim S2048 ![] bcast_S_S2048 main_cst_18
  fn_part3 (F := F) main_arg0 main_arg12 main_arg13 main_arg14 main_arg15 main_arg16 main_arg17 main_v48 main_v49 main_v50

def fn_part1 {F : FTy → Type} [FloatOps F] (main_arg0 : IVec S8192 32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) (main_arg12 : FVec F S2048x512 .f32) (main_arg13 : FVec F S2048x512 .f32) (main_arg14 : FVec F S2048 .f32) (main_arg15 : FVec F S2048 .f32) (main_arg16 : FVec F S128x512 .f32) (main_arg17 : FVec F S128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_v33

def fn {F : FTy → Type} [FloatOps F] (main_arg0 : IVec S8192 32) (main_arg1 : FVec F S3x8192x512 .f32) (main_arg2 : FVec F S3x8192x512 .f32) (main_arg3 : FVec F S128x128 .f32) (main_arg4 : FVec F S2048x128 .f32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) (main_arg12 : FVec F S2048x512 .f32) (main_arg13 : FVec F S2048x512 .f32) (main_arg14 : FVec F S2048 .f32) (main_arg15 : FVec F S2048 .f32) (main_arg16 : FVec F S128x512 .f32) (main_arg17 : FVec F S128 .f32) : IVec S_ 1 :=
  let main_v0 : FVec F S3x8192x512 .f32 := Host.absf main_arg1
  let main_cst : FVec F S_ .f32 := constant S_ .f32 0x7F800000#32
  let main_v1 : FVec F S3x8192x512 .f32 := broadcastInDim S3x8192x512 ![] bcast_S_S3x8192x512 main_cst
  let main_v2 : IVec S3x8192x512 1 := cmpf .olt main_v0 main_v1
  let main_c : IVec S_ 1 := constantI S_ 1 1#1
  let main_v3 : IVec S_ 1 := (fun x v => Host.reduce IntOp.andi x v reducesTo_S3x8192x512_S_d0_1_2 h_S_) main_v2 main_c
  let main_v4 : FVec F S3x8192x512 .f32 := Host.absf main_arg2
  let main_cst_0 : FVec F S_ .f32 := constant S_ .f32 0x7F800000#32
  let main_v5 : FVec F S3x8192x512 .f32 := broadcastInDim S3x8192x512 ![] bcast_S_S3x8192x512 main_cst_0
  let main_v6 : IVec S3x8192x512 1 := cmpf .olt main_v4 main_v5
  let main_c_1 : IVec S_ 1 := constantI S_ 1 1#1
  let main_v7 : IVec S_ 1 := (fun x v => Host.reduce IntOp.andi x v reducesTo_S3x8192x512_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2048x128 .f32 := Host.absf main_arg4
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg0 main_arg5 main_arg6 main_arg7 main_arg8 main_arg9 main_arg10 main_arg11 main_arg12 main_arg13 main_arg14 main_arg15 main_arg16 main_arg17 main_v13 main_v16
-- ==== Kernel.lean ====
abbrev S8192 : Shape := ⟨1, ![8192]⟩
abbrev S3x8192x512 : Shape := ⟨3, ![3, 8192, 512]⟩
abbrev S128x128 : Shape := ⟨2, ![128, 128]⟩
abbrev S2048x128 : Shape := ⟨2, ![2048, 128]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S8192x1 : Shape := ⟨2, ![8192, 1]⟩
abbrev S128x2048 : Shape := ⟨2, ![128, 2048]⟩
abbrev S512x2048 : Shape := ⟨2, ![512, 2048]⟩
abbrev S640x2048 : Shape := ⟨2, ![640, 2048]⟩
abbrev S1024x2048 : Shape := ⟨2, ![1024, 2048]⟩
abbrev S512x128 : Shape := ⟨2, ![512, 128]⟩
abbrev S8192x128 : Shape := ⟨2, ![8192, 128]⟩
abbrev S256x1 : Shape := ⟨2, ![256, 1]⟩
abbrev S3x256x512 : Shape := ⟨3, ![3, 256, 512]⟩
abbrev S256x128 : Shape := ⟨2, ![256, 128]⟩
abbrev S1x256x512 : Shape := ⟨3, ![1, 256, 512]⟩
abbrev S256x512 : Shape := ⟨2, ![256, 512]⟩
abbrev S256x640 : Shape := ⟨2, ![256, 640]⟩
abbrev S256x2048 : Shape := ⟨2, ![256, 2048]⟩
abbrev S1x2048 : Shape := ⟨2, ![1, 2048]⟩
abbrev S256x1024 : Shape := ⟨2, ![256, 1024]⟩
abbrev S1x128 : Shape := ⟨2, ![1, 128]⟩

abbrev nBuf : Space → Nat
  | .hbm => 40
  | .vmem => 21
  | .smem => 0
  | _ => 0

abbrev bufTy : (tb : Table) → Fin (tcTables nBuf tb) → BufTy
  | .hbm, ⟨0, _⟩ => ⟨S8192, .i32⟩
  | .hbm, ⟨1, _⟩ => ⟨S3x8192x512, .f32⟩
  | .hbm, ⟨2, _⟩ => ⟨S3x8192x512, .f32⟩
  | .hbm, ⟨3, _⟩ => ⟨S128x128, .f32⟩
  | .hbm, ⟨4, _⟩ => ⟨S2048x128, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S2048x512, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S2048x512, .f32⟩
  | .hbm, ⟨13, _⟩ => ⟨S2048x512, .f32⟩
  | .hbm, ⟨14, _⟩ => ⟨S2048, .f32⟩
  | .hbm, ⟨15, _⟩ => ⟨S2048, .f32⟩
  | .hbm, ⟨16, _⟩ => ⟨S128x512, .f32⟩
  | .hbm, ⟨17, _⟩ => ⟨S128, .f32⟩
  | .hbm, ⟨18, _⟩ => ⟨S8192x1, .i32⟩
  | .hbm, ⟨19, _⟩ => ⟨S128x128, .bf16⟩
  | .hbm, ⟨20, _⟩ => ⟨S128x2048, .f32⟩
  | .hbm, ⟨21, _⟩ => ⟨S512x2048, .f32⟩
  | .hbm, ⟨22, _⟩ => ⟨S640x2048, .f32⟩
  | .hbm, ⟨23, _⟩ => ⟨S640x2048, .bf16⟩
  | .hbm, ⟨24, _⟩ => ⟨S2048, .f32⟩
  | .hbm, ⟨25, _⟩ => ⟨S512x2048, .f32⟩
  | .hbm, ⟨26, _⟩ => ⟨S512x2048, .f32⟩
  | .hbm, ⟨27, _⟩ => ⟨S1024x2048, .f32⟩
  | .hbm, ⟨28, _⟩ => ⟨S1024x2048, .bf16⟩
  | .hbm, ⟨29, _⟩ => ⟨S2048, .f32⟩
  | .hbm, ⟨30, _⟩ => ⟨S512x2048, .f32⟩
  | .hbm, ⟨31, _⟩ => ⟨S512x2048, .f32⟩
  | .hbm, ⟨32, _⟩ => ⟨S1024x2048, .f32⟩
  | .hbm, ⟨33, _⟩ => ⟨S1024x2048, .bf16⟩
  | .hbm, ⟨34, _⟩ => ⟨S2048, .f32⟩
  | .hbm, ⟨35, _⟩ => ⟨S512x128, .f32⟩
  | .hbm, ⟨36, _⟩ => ⟨S512x128, .bf16⟩
  | .hbm, ⟨37, _⟩ => ⟨S8192x128, .f32⟩
  | .hbm, ⟨38, _⟩ => ⟨S3x8192x512, .f32⟩
  | .hbm, ⟨39, _⟩ => ⟨S3x8192x512, .f32⟩
  | .local _ .vmem, ⟨0, _⟩ => ⟨S256x1, .i32⟩
  | .local _ .vmem, ⟨1, _⟩ => ⟨S256x1, .i32⟩
  | .local _ .vmem, ⟨2, _⟩ => ⟨S3x256x512, .f32⟩
  | .local _ .vmem, ⟨3, _⟩ => ⟨S3x256x512, .f32⟩
  | .local _ .vmem, ⟨4, _⟩ => ⟨S3x256x512, .f32⟩
  | .local _ .vmem, ⟨5, _⟩ => ⟨S3x256x512, .f32⟩
  | .local _ .vmem, ⟨6, _⟩ => ⟨S128x128, .bf16⟩
  | .local _ .vmem, ⟨7, _⟩ => ⟨S640x2048, .bf16⟩
  | .local _ .vmem, ⟨8, _⟩ => ⟨S2048, .f32⟩
  | .local _ .vmem, ⟨9, _⟩ => ⟨S1024x2048, .bf16⟩
  | .local _ .vmem, ⟨10, _⟩ => ⟨S2048, .f32⟩
  | .local _ .vmem, ⟨11, _⟩ => ⟨S1024x2048, .bf16⟩
  | .local _ .vmem, ⟨12, _⟩ => ⟨S2048, .f32⟩
  | .local _ .vmem, ⟨13, _⟩ => ⟨S512x128, .bf16⟩
  | .local _ .vmem, ⟨14, _⟩ => ⟨S128, .f32⟩
  | .local _ .vmem, ⟨15, _⟩ => ⟨S256x128, .f32⟩
  | .local _ .vmem, ⟨16, _⟩ => ⟨S256x128, .f32⟩
  | .local _ .vmem, ⟨17, _⟩ => ⟨S3x256x512, .f32⟩
  | .local _ .vmem, ⟨18, _⟩ => ⟨S3x256x512, .f32⟩
  | .local _ .vmem, ⟨19, _⟩ => ⟨S3x256x512, .f32⟩
  | .local _ .vmem, ⟨20, _⟩ => ⟨S3x256x512, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S8192_S8192x1 : S8192.ShapeCasts S8192x1
  bitsLt_bf16_f32 : FTy.bits .bf16 < FTy.bits .f32
  transposes_S2048x128_S128x2048_1_0 : S2048x128.Transposes [1, 0] S128x2048
  transposes_S2048x512_S512x2048_1_0 : S2048x512.Transposes [1, 0] S512x2048
  concatenates_S128x2048_S512x2048_S640x2048_d0 : Shape.Concatenates [S128x2048, S512x2048] S640x2048 0
  concatenates_S512x2048_S512x2048_S1024x2048_d0 : Shape.Concatenates [S512x2048, S512x2048] S1024x2048 0
  transposes_S128x512_S512x128_1_0 : S128x512.Transposes [1, 0] S512x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x128_d1_w32 : S256x128.Iotas .tc 32 [1]
  broadcasts_S256x1_S256x128 : S256x1.Broadcasts S256x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  concatenates_S256x128_S256x512_S256x640_d1 : Shape.Concatenates [S256x128, S256x512] S256x640 1
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  shapeCasts_S256x512_S1x256x512 : S256x512.ShapeCasts S1x256x512
  inb_S3x256x512_S1x256x512_1_0_0 : ∀ a, (![1, 0, 0] : Fin 3 → Nat) a + S1x256x512.size a ≤ S3x256x512.size a
  concatenates_S256x512_S256x512_S256x1024_d1 : Shape.Concatenates [S256x512, S256x512] S256x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S3x256x512_S1x256x512_2_0_0 : ∀ a, (![2, 0, 0] : Fin 3 → Nat) a + S1x256x512.size a ≤ S3x256x512.size a
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x128_S128x128_S256x128_1_0_0_1_n_n_wf : DotDims.WF S256x128 S128x128 S256x128 [1] [0] [0] [1] [] []
  dot_S256x640_S640x2048_S256x2048_1_0_0_1_n_n_wf : DotDims.WF S256x640 S640x2048 S256x2048 [1] [0] [0] [1] [] []
  dot_S256x1024_S1024x2048_S256x2048_1_0_0_1_n_n_wf : DotDims.WF S256x1024 S1024x2048 S256x2048 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .i32 = 32 ∨ (Rect.block (s := S8192x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256x512.size a ≤ S3x8192x512.size a
  hwx0_1 : ∀ i : grid0.Coords, EltTy.bits .f32 = 32 ∨ (Rect.block (s := S3x8192x512) S3x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x512.size a ≤ S3x8192x512.size a
  hwx0_2 : ∀ i : grid0.Coords, EltTy.bits .f32 = 32 ∨ (Rect.block (s := S3x8192x512) S3x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x2048.size a ≤ S640x2048.size a
  hwx0_4 : ∀ i : grid0.Coords, EltTy.bits .bf16 = 32 ∨ (Rect.block (s := S640x2048) S640x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S512x128.size a
  hwx0_10 : ∀ i : grid0.Coords, EltTy.bits .bf16 = 32 ∨ (Rect.block (s := S512x128) S512x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S8192x128.size a
  hwx0_12 : ∀ i : grid0.Coords, EltTy.bits .f32 = 32 ∨ (Rect.block (s := S8192x128) S256x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3x256x512.size a ≤ S3x8192x512.size a
  hwx0_13 : ∀ i : grid0.Coords, EltTy.bits .f32 = 32 ∨ (Rect.block (s := S3x8192x512) S3x256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3x256x512.size a ≤ S3x8192x512.size a
  hwx0_14 : ∀ i : grid0.Coords, EltTy.bits .f32 = 32 ∨ (Rect.block (s := S3x8192x512) S3x256x512.size (cc0_transform_14 i) (hinb0_14 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x640_S640x2048_S256x2048_1_0_0_1_n_n : DotDims S256x640 S640x2048 S256x2048 where
  lhsContracting := [1]
  rhsContracting := [0]
  lhsNonContracting := [0]
  rhsNonContracting := [1]
  lhsBatch := []
  rhsBatch := []
  wf := dot_S256x640_S640x2048_S256x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S640x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S512x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19_0) S256x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v19_1) S3x256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19_2) S3x256x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192 : Shape := ⟨1, ![8192]⟩
abbrev S3x8192x512 : Shape := ⟨3, ![3, 8192, 512]⟩
abbrev S128x128 : Shape := ⟨2, ![128, 128]⟩
abbrev S2048x128 : Shape := ⟨2, ![2048, 128]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩
abbrev S8192x1 : Shape := ⟨2, ![8192, 1]⟩
abbrev S8192x128 : Shape := ⟨2, ![8192, 128]⟩
abbrev S1x8192x512 : Shape := ⟨3, ![1, 8192, 512]⟩
abbrev S8192x512 : Shape := ⟨2, ![8192, 512]⟩
abbrev S128x2048 : Shape := ⟨2, ![128, 2048]⟩
abbrev S8192x2048 : Shape := ⟨2, ![8192, 2048]⟩
abbrev S1x2048 : Shape := ⟨2, ![1, 2048]⟩
abbrev S512x2048 : Shape := ⟨2, ![512, 2048]⟩
abbrev S512x128 : Shape := ⟨2, ![512, 128]⟩
abbrev S1x128 : Shape := ⟨2, ![1, 128]⟩

abbrev nBuf : Space → Nat
  | .hbm => 187
  | .vmem => 0
  | .smem => 0
  | _ => 0

abbrev hbmTy0_0 (i : Nat) : BufTy := match i % 128 with
  | 0 => ⟨S8192, .i32⟩
  | 1 => ⟨S3x8192x512, .f32⟩
  | 2 => ⟨S3x8192x512, .f32⟩
  | 3 => ⟨S128x128, .f32⟩
  | 4 => ⟨S2048x128, .f32⟩
  | 5 => ⟨S2048x512, .f32⟩
  | 6 => ⟨S2048, .f32⟩
  | 7 => ⟨S2048, .f32⟩
  | 8 => ⟨S2048x512, .f32⟩
  | 9 => ⟨S2048x512, .f32⟩
  | 10 => ⟨S2048, .f32⟩
  | 11 => ⟨S2048, .f32⟩
  | 12 => ⟨S2048x512, .f32⟩
  | 13 => ⟨S2048x512, .f32⟩
  | 14 => ⟨S2048, .f32⟩
  | 15 => ⟨S2048, .f32⟩
  | 16 => ⟨S128x512, .f32⟩
  | 17 => ⟨S128, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x128, .f32⟩
  | 27 => ⟨S1x8192x512, .f32⟩
  | 28 => ⟨S8192x512, .f32⟩
  | 29 => ⟨S1x8192x512, .f32⟩
  | 30 => ⟨S8192x512, .f32⟩
  | 31 => ⟨S128x2048, .f32⟩
  | 32 => ⟨S8192x2048, .f32⟩
  | 33 => ⟨S1x2048, .f32⟩
  | 34 => ⟨S8192x2048, .f32⟩
  | 35 => ⟨S8192x2048, .f32⟩
  | 36 => ⟨S512x2048, .f32⟩
  | 37 => ⟨S8192x2048, .f32⟩
  | 38 => ⟨S8192x2048, .f32⟩
  | 39 => ⟨S1x2048, .f32⟩
  | 40 => ⟨S8192x2048, .f32⟩
  | 41 => ⟨S8192x2048, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S1x8192x512, .f32⟩
  | 77 => ⟨S8192x512, .f32⟩
  | 78 => ⟨S1x8192x512, .f32⟩
  | 79 => ⟨S8192x512, .f32⟩
  | 80 => ⟨S512x2048, .f32⟩
  | 81 => ⟨S8192x2048, .f32⟩
  | 82 => ⟨S1x2048, .f32⟩
  | 83 => ⟨S8192x2048, .f32⟩
  | 84 => ⟨S8192x2048, .f32⟩
  | 85 => ⟨S512x2048, .f32⟩
  | 86 => ⟨S8192x2048, .f32⟩
  | 87 => ⟨S8192x2048, .f32⟩
  | 88 => ⟨S1x2048, .f32⟩
  | 89 => ⟨S8192x2048, .f32⟩
  | 90 => ⟨S8192x2048, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S8192x512, .f32⟩
  | 104 => ⟨S8192x512, .f32⟩
  | 105 => ⟨S_, .f32⟩
  | 106 => ⟨S8192x512, .f32⟩
  | 107 => ⟨S8192x512, .f32⟩
  | 108 => ⟨S_, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S1x8192x512, .f32⟩
  | 126 => ⟨S8192x512, .f32⟩
  | 127 => ⟨S1x8192x512, .f32⟩
  | _ => ⟨S8192, .i32⟩

abbrev hbmTy0_1 (i : Nat) : BufTy := match i % 128 with
  | 0 => ⟨S8192x512, .f32⟩
  | 1 => ⟨S512x2048, .f32⟩
  | 2 => ⟨S8192x2048, .f32⟩
  | 3 => ⟨S1x2048, .f32⟩
  | 4 => ⟨S8192x2048, .f32⟩
  | 5 => ⟨S8192x2048, .f32⟩
  | 6 => ⟨S512x2048, .f32⟩
  | 7 => ⟨S8192x2048, .f32⟩
  | 8 => ⟨S8192x2048, .f32⟩
  | 9 => ⟨S1x2048, .f32⟩
  | 10 => ⟨S8192x2048, .f32⟩
  | 11 => ⟨S8192x2048, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S512x128, .f32⟩
  | 47 => ⟨S8192x128, .f32⟩
  | 48 => ⟨S1x128, .f32⟩
  | 49 => ⟨S8192x128, .f32⟩
  | 50 => ⟨S8192x128, .f32⟩
  | 51 => ⟨S1x8192x512, .f32⟩
  | 52 => ⟨S1x8192x512, .f32⟩
  | 53 => ⟨S1x8192x512, .f32⟩
  | 54 => ⟨S3x8192x512, .f32⟩
  | 55 => ⟨S1x8192x512, .f32⟩
  | 56 => ⟨S1x8192x512, .f32⟩
  | 57 => ⟨S1x8192x512, .f32⟩
  | 58 => ⟨S3x8192x512, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_8 : Ref sig .tc := ⟨.hbm, 105, rfl⟩
abbrev main_v77 : Ref sig .tc := ⟨.hbm, 106, rfl⟩
abbrev main_v78 : Ref sig .tc := ⟨.hbm, 107, rfl⟩
abbrev main_cst_9 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_10 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_12 : Ref sig .tc := ⟨.hbm, 146, rfl⟩
abbrev main_v114 : Ref sig .tc := ⟨.hbm, 147, rfl⟩
abbrev main_v115 : Ref sig .tc := ⟨.hbm, 148, rfl⟩
abbrev main_cst_13 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_14 : Ref sig .tc := ⟨.hbm, 154, rfl⟩
abbrev main_v120 : Ref sig .tc := ⟨.hbm, 155, rfl⟩
abbrev main_v121 : Ref sig .tc := ⟨.hbm, 156, rfl⟩
abbrev main_cst_15 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_16 : Ref sig .tc := ⟨.hbm, 163, rfl⟩
abbrev main_v127 : Ref sig .tc := ⟨.hbm, 164, rfl⟩
abbrev main_v128 : Ref sig .tc := ⟨.hbm, 165, rfl⟩
abbrev main_cst_17 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x8192x512_S1x8192x512_0_0_0 : S3x8192x512.Slices ![0, 0, 0] S1x8192x512
  shapeCasts_S1x8192x512_S8192x512 : S1x8192x512.ShapeCasts S8192x512
  transposes_S2048x128_S128x2048_1_0 : S2048x128.Transposes [1, 0] S128x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x512_S512x2048_1_0 : S2048x512.Transposes [1, 0] S512x2048
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  slices_S3x8192x512_S1x8192x512_1_0_0 : S3x8192x512.Slices ![1, 0, 0] S1x8192x512
  slices_S3x8192x512_S1x8192x512_2_0_0 : S3x8192x512.Slices ![2, 0, 0] S1x8192x512
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S8192x512_S1x8192x512_1_2 : S8192x512.BroadcastsInDim S1x8192x512 (![1, 2] : Fin 2 → Fin S1x8192x512.rank)
  concatenates_S1x8192x512_S1x8192x512_S1x8192x512_S3x8192x512_d0 : Shape.Concatenates [S1x8192x512, S1x8192x512, S1x8192x512] S3x8192x512 0
  gather_S128x128_S8192x1_S8192x128_1_0_n_n_0_1_1128_wf : GatherDims.WF S128x128 S8192x1 S8192x128 [1] [0] [] [0] [] 1 ![1, 128]
  dot_S8192x128_S128x2048_S8192x2048_1_0_0_1_n_n_wf : DotDims.WF S8192x128 S128x2048 S8192x2048 [1] [0] [0] [1] [] []
  dot_S8192x512_S512x2048_S8192x2048_1_0_0_1_n_n_wf : DotDims.WF S8192x512 S512x2048 S8192x2048 [1] [0] [0] [1] [] []
  dot_S8192x512_S512x128_S8192x128_1_0_0_1_n_n_wf : DotDims.WF S8192x512 S512x128 S8192x128 [1] [0] [0] [1] [] []

variable [Facts₀]

def gather_S128x128_S8192x1_S8192x128_1_0_n_n_0_1_1128 : GatherDims S128x128 S8192x1 S8192x128 where
  offsetDims := [1]
  collapsedSliceDims := [0]
  operandBatchingDims := []
  startIndicesBatchingDims := []
  startIndexMap := [0]
  indexVectorDim := 1
  sliceSizes := ![1, 128]
  wf := gather_S128x128_S8192x1_S8192x128_1_0_n_n_0_1_1128_wf
def dot_S8192x128_S128x2048_S8192x2048_1_0_0_1_n_n : DotDims S8192x128 S128x2048 S8192x2048 where
  lhsContracting := [1]
  rhsContracting := [0]
  lhsNonContracting := [0]
  rhsNonContracting := [1]
  lhsBatch := []
  rhsBatch := []
  wf := dot_S8192x128_S128x2048_S8192x2048_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

class Facts : Prop extends Facts₀ where

variable [Facts]
-- ==== Proof.Spec.lean ====
/-
  The three-layer LSTM step with an embedding lookup in front and a linear read-out behind, written ONE BATCH ROW
  at a time over the extended reals, in two spellings:

  * the reference's: every gate pre-activation is ((x·Wihᵀ + b_ih) + h·Whhᵀ) + b_hh, a logistic gate is
    1 / (1 + e^{-g}), and the layer's input row is a row of the embedding table (layer 0) or the previous layer's
    new hidden row;
  * the kernel's: the two products are ONE product of the row [x, h] with the stacked matrix [Wihᵀ; Whhᵀ], the
    two biases are added to each other first, a logistic gate is ½ · (tanh (½ g) + 1), and the embedding row is
    the product of a one-hot row with the table.

  Both spellings share the cell update c' = f ∘ c + i ∘ tanh g, h' = o ∘ tanh c' (gate order i, f, g, o along the
  2048 pre-activations), so they are written once over the gate function σ.
-/
import Idealize.ShloMosaic.PureOps.Ideal
import Mathlib.Algebra.BigOperators.Fin

noncomputable section

namespace Cert.Lstm

open Idealize.ShloMosaic

/-- The literal 1.0. -/
abbrev one : EReal := Ideal.ofBits .f32 0x3F800000#32
/-- The literal 0.5. -/
abbrev half : EReal := Ideal.ofBits .f32 0x3F000000#32

/-- The logistic function as the reference spells it: 1 / (1 + e^{-g}). -/
def sigm (g : EReal) : EReal := Ideal.div one (one + Ideal.exp (-g))
/-- The logistic function as the kernel spells it: ½ · (tanh (½ · g) + 1). -/
def sigk (g : EReal) : EReal := half * (Ideal.tanh (half * g) + one)

/-- Coordinate j of the q-th quarter (q = 0, 1, 2, 3: input, forget, cell, output gate) of the 2048
    pre-activations. -/
def quarter (q : Fin 4) (j : Fin 512) : Fin 2048 := ⟨q.val * 512 + j.val, by omega⟩

/-- The new cell row: σ(f) · c + σ(i) · tanh g. -/
def cNew (σ : EReal → EReal) (g : Fin 2048 → EReal) (c : Fin 512 → EReal) (j : Fin 512) : EReal :=
  σ (g (quarter 1 j)) * c j + σ (g (quarter 0 j)) * Ideal.tanh (g (quarter 2 j))
/-- The new hidden row: σ(o) · tanh c'. -/
def hNew (σ : EReal → EReal) (g : Fin 2048 → EReal) (c : Fin 512 → EReal) (j : Fin 512) : EReal :=
  σ (g (quarter 3 j)) * Ideal.tanh (cNew σ g c j)

/-- A layer's 2048 pre-activations for one row, the reference's association:
    ((x·Wihᵀ + b_ih) + h·Whhᵀ) + b_hh. -/
def gatesR {K : ℕ} (x : Fin K → EReal) (h : Fin 512 → EReal) (Wih : Fin 2048 → Fin K → EReal)
    (Whh : Fin 2048 → Fin 512 → EReal) (bih bhh : Fin 2048 → EReal) (n : Fin 2048) : EReal :=
  (((∑ k, x k * Wih n k) + bih n) + ∑ k, h k * Whh n k) + bhh n

/-- Two rows laid end to end: the first K entries a, the next 512 entries b. -/
def catRow {α : Type} {K N : ℕ} (hN : N = K + 512) (a : Fin K → α) (b : Fin 512 → α) (k : Fin N) : α :=
  if hk : k.val < K then a ⟨k.val, hk⟩ else b ⟨k.val - K, by omega⟩

/-- The stacked matrix [Wihᵀ; Whhᵀ]: row k is column k of Wih for k < K, column k - K of Whh after. -/
def catW {K N : ℕ} (hN : N = K + 512) (Wih : Fin 2048 → Fin K → EReal) (Whh : Fin 2048 → Fin 512 → EReal)
    (k : Fin N) (n : Fin 2048) : EReal :=
  if hk : k.val < K then Wih n ⟨k.val, hk⟩ else Whh n ⟨k.val - K, by omega⟩

/-- A layer's pre-activations, the kernel's association: the row [x, h] against a stacked matrix W, plus ONE
    bias row. -/
def gatesK {N : ℕ} (xh : Fin N → EReal) (W : Fin N → Fin 2048 → EReal) (b : Fin 2048 → EReal) (n : Fin 2048) : EReal :=
  (∑ k, xh k * W k n) + b n

/-- The embedding row of a token as a one-hot product: ∑_v [w = v] · E v e. -/
def embK (w : BitVec 32) (E : Fin 128 → Fin 128 → EReal) (e : Fin 128) : EReal :=
  ∑ v : Fin 128, (if w = BitVec.ofNat 32 v.val then (1 : EReal) else 0) * E v e

/-- The table row a token in range names. -/
def tok (w : BitVec 32) : Fin 128 := ⟨w.toNat % 128, Nat.mod_lt _ (by norm_num)⟩

/-- One batch row's share of the eighteen arguments: its token, its three hidden and three cell rows, and the
    weights (which every row shares). -/
structure Row where
  x : BitVec 32
  h : Fin 3 → Fin 512 → EReal
  c : Fin 3 → Fin 512 → EReal
  E : Fin 128 → Fin 128 → EReal
  Wih0 : Fin 2048 → Fin 128 → EReal
  Whh0 : Fin 2048 → Fin 512 → EReal
  bih0 : Fin 2048 → EReal
  bhh0 : Fin 2048 → EReal
  Wih1 : Fin 2048 → Fin 512 → EReal
  Whh1 : Fin 2048 → Fin 512 → EReal
  bih1 : Fin 2048 → EReal
  bhh1 : Fin 2048 → EReal
  Wih2 : Fin 2048 → Fin 512 → EReal
  Whh2 : Fin 2048 → Fin 512 → EReal
  bih2 : Fin 2048 → EReal
  bhh2 : Fin 2048 → EReal
  linW : Fin 128 → Fin 512 → EReal
  linb : Fin 128 → EReal

namespace Row

variable (A : Row)

/-! ### The reference's spelling -/

def g0 : Fin 2048 → EReal := gatesR (fun e => A.E (tok A.x) e) (A.h 0) A.Wih0 A.Whh0 A.bih0 A.bhh0
def c0 : Fin 512 → EReal := cNew sigm A.g0 (A.c 0)
def h0 : Fin 512 → EReal := hNew sigm A.g0 (A.c 0)
def g1 : Fin 2048 → EReal := gatesR A.h0 (A.h 1) A.Wih1 A.Whh1 A.bih1 A.bhh1
def c1 : Fin 512 → EReal := cNew sigm A.g1 (A.c 1)
def h1 : Fin 512 → EReal := hNew sigm A.g1 (A.c 1)
def g2 : Fin 2048 → EReal := gatesR A.h1 (A.h 2) A.Wih2 A.Whh2 A.bih2 A.bhh2
def c2 : Fin 512 → EReal := cNew sigm A.g2 (A.c 2)
def h2 : Fin 512 → EReal := hNew sigm A.g2 (A.c 2)
/-- The read-out h₂ · lin_Wᵀ + lin_b. -/
def logits (v : Fin 128) : EReal := (∑ k, A.h2 k * A.linW v k) + A.linb v
/-- The three new hidden rows, by layer. -/
def hs : Fin 3 → Fin 512 → EReal := fun | 0 => A.h0 | 1 => A.h1 | 2 => A.h2
/-- The three new cell rows, by layer. -/
def cs : Fin 3 → Fin 512 → EReal := fun | 0 => A.c0 | 1 => A.c1 | 2 => A.c2

end Row

/-! ### The kernel's spelling

The kernel's operands are the reference's after the host's plumbing: per layer ONE stacked matrix [Wihᵀ; Whhᵀ]
(640 or 1024 rows by 2048 columns) and ONE bias row b_ih + b_hh, and the read-out matrix transposed. -/

/-- One batch row's share of the kernel call's twelve operands. -/
structure KRow where
  x : BitVec 32
  h : Fin 3 → Fin 512 → EReal
  c : Fin 3 → Fin 512 → EReal
  E : Fin 128 → Fin 128 → EReal
  W0 : Fin 640 → Fin 2048 → EReal
  b0 : Fin 2048 → EReal
  W1 : Fin 1024 → Fin 2048 → EReal
  b1 : Fin 2048 → EReal
  W2 : Fin 1024 → Fin 2048 → EReal
  b2 : Fin 2048 → EReal
  WL : Fin 512 → Fin 128 → EReal
  bL : Fin 128 → EReal

namespace KRow

variable (B : KRow)

def g0 : Fin 2048 → EReal := gatesK (catRow (N := 640) rfl (embK B.x B.E) (B.h 0)) B.W0 B.b0
def c0 : Fin 512 → EReal := cNew sigk B.g0 (B.c 0)
def h0 : Fin 512 → EReal := hNew sigk B.g0 (B.c 0)
def g1 : Fin 2048 → EReal := gatesK (catRow (N := 1024) rfl B.h0 (B.h 1)) B.W1 B.b1
def c1 : Fin 512 → EReal := cNew sigk B.g1 (B.c 1)
def h1 : Fin 512 → EReal := hNew sigk B.g1 (B.c 1)
def g2 : Fin 2048 → EReal := gatesK (catRow (N := 1024) rfl B.h1 (B.h 2)) B.W2 B.b2
def c2 : Fin 512 → EReal := cNew sigk B.g2 (B.c 2)
def h2 : Fin 512 → EReal := hNew sigk B.g2 (B.c 2)
/-- The read-out h₂ · WL + bL. -/
def logits (v : Fin 128) : EReal := (∑ k, B.h2 k * B.WL k v) + B.bL v
/-- The three new hidden rows, by layer. -/
def hs : Fin 3 → Fin 512 → EReal := fun | 0 => B.h0 | 1 => B.h1 | 2 => B.h2
/-- The three new cell rows, by layer. -/
def cs : Fin 3 → Fin 512 → EReal := fun | 0 => B.c0 | 1 => B.c1 | 2 => B.c2

end KRow

/-- The host's plumbing, row by row: what the kernel call is handed for a row of the arguments. -/
def Row.toK (A : Row) : KRow where
  x := A.x
  h := A.h
  c := A.c
  E := A.E
  W0 := catW (N := 640) rfl A.Wih0 A.Whh0
  b0 := fun n => A.bih0 n + A.bhh0 n
  W1 := catW (N := 1024) rfl A.Wih1 A.Whh1
  b1 := fun n => A.bih1 n + A.bhh1 n
  W2 := catW (N := 1024) rfl A.Wih2 A.Whh2
  b2 := fun n => A.bih2 n + A.bhh2 n
  WL := fun k v => A.linW v k
  bL := A.linb

end Cert.Lstm

end
-- ==== Proof.Rows.lean ====
/-
  The eighteen argument arrays, and the three result arrays as functions of them: entry (b, v) of the logits,
  entry (l, b, j) of the new hidden and cell states are row b's values (Spec.lean), in the reference's spelling and,
  through the host's plumbing, in the kernel's.
-/
import proofs.«409252_j3470333575609_2_alg».proof.Proof.Spec
import Idealize.ShloMosaic.Lib.ValueIdx

noncomputable section

namespace Cert.Lstm

open Idealize.ShloMosaic Idealize.ShloMosaic.ValueIdx

/-- The eighteen argument arrays at the ideal instance, by their literal shapes. -/
@[ext] structure Args where
  x : (⟨1, ![8192]⟩ : Shape).Idx → BitVec 32
  h : (⟨3, ![3, 8192, 512]⟩ : Shape).Idx → EReal
  c : (⟨3, ![3, 8192, 512]⟩ : Shape).Idx → EReal
  E : (⟨2, ![128, 128]⟩ : Shape).Idx → EReal
  Wih0 : (⟨2, ![2048, 128]⟩ : Shape).Idx → EReal
  Whh0 : (⟨2, ![2048, 512]⟩ : Shape).Idx → EReal
  bih0 : (⟨1, ![2048]⟩ : Shape).Idx → EReal
  bhh0 : (⟨1, ![2048]⟩ : Shape).Idx → EReal
  Wih1 : (⟨2, ![2048, 512]⟩ : Shape).Idx → EReal
  Whh1 : (⟨2, ![2048, 512]⟩ : Shape).Idx → EReal
  bih1 : (⟨1, ![2048]⟩ : Shape).Idx → EReal
  bhh1 : (⟨1, ![2048]⟩ : Shape).Idx → EReal
  Wih2 : (⟨2, ![2048, 512]⟩ : Shape).Idx → EReal
  Whh2 : (⟨2, ![2048, 512]⟩ : Shape).Idx → EReal
  bih2 : (⟨1, ![2048]⟩ : Shape).Idx → EReal
  bhh2 : (⟨1, ![2048]⟩ : Shape).Idx → EReal
  linW : (⟨2, ![128, 512]⟩ : Shape).Idx → EReal
  linb : (⟨1, ![128]⟩ : Shape).Idx → EReal

namespace Args

variable (P : Args)

/-- Batch row b's share of the arguments. -/
def row (b : Fin 8192) : Row where
  x := P.x (ix1 b)
  h := fun l k => P.h (ix3 l b k)
  c := fun l k => P.c (ix3 l b k)
  E := fun v e => P.E (ix2 v e)
  Wih0 := fun n k => P.Wih0 (ix2 n k)
  Whh0 := fun n k => P.Whh0 (ix2 n k)
  bih0 := fun n => P.bih0 (ix1 n)
  bhh0 := fun n => P.bhh0 (ix1 n)
  Wih1 := fun n k => P.Wih1 (ix2 n k)
  Whh1 := fun n k => P.Whh1 (ix2 n k)
  bih1 := fun n => P.bih1 (ix1 n)
  bhh1 := fun n => P.bhh1 (ix1 n)
  Wih2 := fun n k => P.Wih2 (ix2 n k)
  Whh2 := fun n k => P.Whh2 (ix2 n k)
  bih2 := fun n => P.bih2 (ix1 n)
  bhh2 := fun n => P.bhh2 (ix1 n)
  linW := fun v k => P.linW (ix2 v k)
  linb := fun v => P.linb (ix1 v)

/-- Every token names a row of the embedding table. -/
def InRange : Prop := ∀ b : Fin 8192, (P.x (ix1 b)).toNat < 128

/-- The logits array [8192, 128], the reference's spelling. -/
def logitsArr : (⟨2, ![8192, 128]⟩ : Shape).Idx → EReal := fun i => (P.row (i 0)).logits (i 1)
/-- The new hidden states [3, 8192, 512], the reference's spelling. -/
def hsArr : (⟨3, ![3, 8192, 512]⟩ : Shape).Idx → EReal := fun i => (P.row (i 1)).hs (i 0) (i 2)
/-- The new cell states [3, 8192, 512], the reference's spelling. -/
def csArr : (⟨3, ![3, 8192, 512]⟩ : Shape).Idx → EReal := fun i => (P.row (i 1)).cs (i 0) (i 2)

/-- The logits array, the kernel's spelling. -/
def klogitsArr : (⟨2, ![8192, 128]⟩ : Shape).Idx → EReal := fun i => (P.row (i 0)).toK.logits (i 1)
/-- The new hidden states, the kernel's spelling. -/
def khsArr : (⟨3, ![3, 8192, 512]⟩ : Shape).Idx → EReal := fun i => (P.row (i 1)).toK.hs (i 0) (i 2)
/-- The new cell states, the kernel's spelling. -/
def kcsArr : (⟨3, ![3, 8192, 512]⟩ : Shape).Idx → EReal := fun i => (P.row (i 1)).toK.cs (i 0) (i 2)

end Args

end Cert.Lstm

end
-- ==== Proof.LstmMath.lean ====
/-
  The laws that join the kernel's spelling of the LSTM step to the reference's, on the extended reals:
  the two spellings of the logistic function agree everywhere (at the infinities by the conventions of exp and
  tanh there); a product with the row [x, h] against the stacked matrix is the sum of the two products, and the
  biases may be added in either grouping; a one-hot row times the table is the table's row.
-/
import proofs.«409252_j3470333575609_2_alg».proof.Proof.Spec

noncomputable section

namespace Cert.Lstm

open Idealize.ShloMosaic

/-! ### The logistic function -/

/-- The literal 1.0 denotes 1. -/
theorem one_eq : one = 1 := by
  simp [one, Ideal.ofBits, Ideal.ieee, -EReal.coe_mul]; norm_num

/-- The literal 0.5 denotes the real 1/2. -/
theorem half_eq : half = ((1 / 2 : ℝ) : EReal) := by
  simp [half, Ideal.ofBits, Ideal.ieee, -EReal.coe_mul]; norm_num

/-- On the reals, ½ (tanh (½ x) + 1) = 1 / (1 + e^{-x}): with a = e^{x/2}, tanh (x/2) + 1 = 2a / (a + a⁻¹)
    and e^{-x} = a⁻¹ · a⁻¹. -/
theorem real_half_tanh (x : ℝ) : (1 / 2 : ℝ) * (Real.tanh ((1 / 2) * x) + 1) = (1 + Real.exp (-x))⁻¹ := by
  have hx : Real.exp (-x) = Real.exp (-((1 / 2) * x)) * Real.exp (-((1 / 2) * x)) := by
    rw [← Real.exp_add]; congr 1; ring
  have hpos : 0 < Real.exp ((1 / 2) * x) := Real.exp_pos _
  rw [Real.tanh_eq_sinh_div_cosh, Real.sinh_eq, Real.cosh_eq, hx, Real.exp_neg]
  field_simp
  ring

/-- The reference's spelling is the library's logistic function. -/
theorem sigm_eq_logistic (g : EReal) : sigm g = Ideal.logistic g := by
  rw [sigm, one_eq, Ideal.logistic]

/-- At -∞: ½ · (tanh (-∞) + 1) = ½ · (-1 + 1) = 0. -/
theorem sigk_bot : sigk ⊥ = 0 := by
  have h0 : (-1 : EReal) + 1 = 0 := by
    rw [← EReal.coe_one, ← EReal.coe_neg, ← EReal.coe_add]; norm_num
  rw [sigk, one_eq, half_eq, EReal.coe_mul_bot_of_pos (by norm_num), Ideal.tanh_bot, h0, mul_zero]

/-- At +∞: ½ · (tanh (+∞) + 1) = ½ · (1 + 1) = 1. -/
theorem sigk_top : sigk ⊤ = 1 := by
  have h2 : ((1 / 2 : ℝ) : EReal) * ((1 : EReal) + 1) = 1 := by
    rw [← EReal.coe_one, ← EReal.coe_add, ← EReal.coe_mul]; norm_num
  rw [sigk, one_eq, half_eq, EReal.coe_mul_top_of_pos (by norm_num), Ideal.tanh_top, h2]

/-- At a real x both spellings are the real logistic function of x. -/
theorem sigk_coe (x : ℝ) : sigk (x : EReal) = (((1 + Real.exp (-x))⁻¹ : ℝ) : EReal) := by
  rw [sigk, one_eq, half_eq, ← EReal.coe_mul, Ideal.tanh_coe, ← EReal.coe_one, ← EReal.coe_add, ← EReal.coe_mul,
    real_half_tanh]

/-- ½ · (tanh (½ g) + 1) = 1 / (1 + e^{-g}) for every extended real g. -/
theorem sigk_eq_sigm (g : EReal) : sigk g = sigm g := by
  rw [sigm_eq_logistic]
  induction g using EReal.rec with
  | bot => rw [sigk_bot, Ideal.logistic_bot]
  | coe x => rw [sigk_coe, Ideal.logistic_coe]
  | top => rw [sigk_top, Ideal.logistic_top]

/-! ### The stacked product -/

/-- At one of the first K places the row [x, h] and the stacked matrix hold x and Wih. -/
theorem cat_mul_castAdd {K : ℕ} (x : Fin K → EReal) (h : Fin 512 → EReal)
    (Wih : Fin 2048 → Fin K → EReal) (Whh : Fin 2048 → Fin 512 → EReal) (n : Fin 2048) (i : Fin K) :
    catRow (N := K + 512) rfl x h (Fin.castAdd 512 i) * catW (N := K + 512) rfl Wih Whh (Fin.castAdd 512 i) n
      = x i * Wih n i := by
  have hi : (Fin.castAdd 512 i).val < K := i.isLt
  rw [catRow, catW, dif_pos hi, dif_pos hi]
  rfl

/-- At one of the last 512 places the row [x, h] and the stacked matrix hold h and Whh. -/
theorem cat_mul_natAdd {K : ℕ} (x : Fin K → EReal) (h : Fin 512 → EReal)
    (Wih : Fin 2048 → Fin K → EReal) (Whh : Fin 2048 → Fin 512 → EReal) (n : Fin 2048) (i : Fin 512) :
    catRow (N := K + 512) rfl x h (Fin.natAdd K i) * catW (N := K + 512) rfl Wih Whh (Fin.natAdd K i) n
      = h i * Whh n i := by
  have hi : ¬ (Fin.natAdd K i).val < K := by simp
  have hk : (⟨(Fin.natAdd K i).val - K, by simp⟩ : Fin 512) = i := by
    apply Fin.ext; simp
  rw [catRow, catW, dif_neg hi, dif_neg hi, hk]

/-- The stacked product plus the summed bias is the reference's four-term sum. -/
theorem gatesK_cat {K N : ℕ} (hN : N = K + 512) (x : Fin K → EReal) (h : Fin 512 → EReal)
    (Wih : Fin 2048 → Fin K → EReal) (Whh : Fin 2048 → Fin 512 → EReal) (bih bhh : Fin 2048 → EReal) (n : Fin 2048) :
    gatesK (catRow hN x h) (catW hN Wih Whh) (fun n => bih n + bhh n) n = gatesR x h Wih Whh bih bhh n := by
  subst hN
  rw [gatesK, gatesR, Fin.sum_univ_add]
  simp only [cat_mul_castAdd, cat_mul_natAdd]
  rw [add_add_add_comm, ← add_assoc]

/-! ### The one-hot product -/

/-- The one-hot product picks the token's row of the table. -/
theorem embK_eq (w : BitVec 32) (hw : w.toNat < 128) (E : Fin 128 → Fin 128 → EReal) (e : Fin 128) :
    embK w E e = E (tok w) e := by
  have htok : (tok w).val = w.toNat := Nat.mod_eq_of_lt hw
  rw [embK, Finset.sum_eq_single (tok w)]
  · rw [if_pos, one_mul]
    rw [htok, BitVec.ofNat_toNat, BitVec.setWidth_eq]
  · intro v _ hv
    rw [if_neg, zero_mul]
    intro hwv
    apply hv
    apply Fin.ext
    rw [htok, hwv, BitVec.toNat_ofNat]
    have := v.isLt
    omega
  · intro hne
    exact absurd (Finset.mem_univ _) hne

/-! ### A row, layer by layer -/

/-- The two spellings of the logistic function are one function. -/
theorem sigk_eq : sigk = sigm := funext sigk_eq_sigm

namespace Row

variable (A : Row)

/-- The one-hot product with the table is the token's row of it. -/
theorem toK_emb (hx : A.x.toNat < 128) : embK A.x A.E = fun e => A.E (tok A.x) e :=
  funext fun e => embK_eq A.x hx A.E e

/-- Layer 0's pre-activations agree. -/
theorem toK_g0 (hx : A.x.toNat < 128) : A.toK.g0 = A.g0 := by
  funext n
  show gatesK (catRow (N := 640) rfl (embK A.x A.E) (A.h 0)) (catW (N := 640) rfl A.Wih0 A.Whh0)
      (fun n => A.bih0 n + A.bhh0 n) n
    = gatesR (fun e => A.E (tok A.x) e) (A.h 0) A.Wih0 A.Whh0 A.bih0 A.bhh0 n
  rw [gatesK_cat, toK_emb A hx]

/-- Layer 0's new cell row agrees. -/
theorem toK_c0 (hx : A.x.toNat < 128) : A.toK.c0 = A.c0 := by
  show cNew sigk A.toK.g0 (A.c 0) = cNew sigm A.g0 (A.c 0)
  rw [toK_g0 A hx, sigk_eq]

/-- Layer 0's new hidden row agrees. -/
theorem toK_h0 (hx : A.x.toNat < 128) : A.toK.h0 = A.h0 := by
  show hNew sigk A.toK.g0 (A.c 0) = hNew sigm A.g0 (A.c 0)
  rw [toK_g0 A hx, sigk_eq]

/-- Layer 1's pre-activations agree: its input row is layer 0's new hidden row. -/
theorem toK_g1 (hx : A.x.toNat < 128) : A.toK.g1 = A.g1 := by
  funext n
  show gatesK (catRow (N := 1024) rfl A.toK.h0 (A.h 1)) (catW (N := 1024) rfl A.Wih1 A.Whh1)
      (fun n => A.bih1 n + A.bhh1 n) n
    = gatesR A.h0 (A.h 1) A.Wih1 A.Whh1 A.bih1 A.bhh1 n
  rw [gatesK_cat, toK_h0 A hx]

/-- Layer 1's new cell row agrees. -/
theorem toK_c1 (hx : A.x.toNat < 128) : A.toK.c1 = A.c1 := by
  show cNew sigk A.toK.g1 (A.c 1) = cNew sigm A.g1 (A.c 1)
  rw [toK_g1 A hx, sigk_eq]

/-- Layer 1's new hidden row agrees. -/
theorem toK_h1 (hx : A.x.toNat < 128) : A.toK.h1 = A.h1 := by
  show hNew sigk A.toK.g1 (A.c 1) = hNew sigm A.g1 (A.c 1)
  rw [toK_g1 A hx, sigk_eq]

/-- Layer 2's pre-activations agree: its input row is layer 1's new hidden row. -/
theorem toK_g2 (hx : A.x.toNat < 128) : A.toK.g2 = A.g2 := by
  funext n
  show gatesK (catRow (N := 1024) rfl A.toK.h1 (A.h 2)) (catW (N := 1024) rfl A.Wih2 A.Whh2)
      (fun n => A.bih2 n + A.bhh2 n) n
    = gatesR A.h1 (A.h 2) A.Wih2 A.Whh2 A.bih2 A.bhh2 n
  rw [gatesK_cat, toK_h1 A hx]

/-- Layer 2's new cell row agrees. -/
theorem toK_c2 (hx : A.x.toNat < 128) : A.toK.c2 = A.c2 := by
  show cNew sigk A.toK.g2 (A.c 2) = cNew sigm A.g2 (A.c 2)
  rw [toK_g2 A hx, sigk_eq]

/-- Layer 2's new hidden row agrees. -/
theorem toK_h2 (hx : A.x.toNat < 128) : A.toK.h2 = A.h2 := by
  show hNew sigk A.toK.g2 (A.c 2) = hNew sigm A.g2 (A.c 2)
  rw [toK_g2 A hx, sigk_eq]

/-- The read-out agrees: the kernel's matrix is the reference's transposed, entry by entry. -/
theorem toK_logits (hx : A.x.toNat < 128) : A.toK.logits = A.logits := by
  funext v
  show (∑ k, A.toK.h2 k * A.linW v k) + A.linb v = (∑ k, A.h2 k * A.linW v k) + A.linb v
  rw [toK_h2 A hx]

/-- The three new hidden rows agree, layer by layer. -/
theorem toK_hs (hx : A.x.toNat < 128) : A.toK.hs = A.hs := by
  funext l
  match l with
  | 0 => exact toK_h0 A hx
  | 1 => exact toK_h1 A hx
  | 2 => exact toK_h2 A hx

/-- The three new cell rows agree, layer by layer. -/
theorem toK_cs (hx : A.x.toNat < 128) : A.toK.cs = A.cs := by
  funext l
  match l with
  | 0 => exact toK_c0 A hx
  | 1 => exact toK_c1 A hx
  | 2 => exact toK_c2 A hx

end Row

/-- A row's results in the kernel's spelling are its results in the reference's, for a token in range. -/
theorem Row.toK_eq (A : Row) (hx : A.x.toNat < 128) :
    A.toK.logits = A.logits ∧ A.toK.hs = A.hs ∧ A.toK.cs = A.cs :=
  ⟨Row.toK_logits A hx, Row.toK_hs A hx, Row.toK_cs A hx⟩

end Cert.Lstm

end
-- ==== Proof.ArrayLaws.lean ====
/-
  The kernel's spelling and the reference's give the same three result arrays when every token is in range:
  entry by entry both are one batch row's results, and a row's results agree in the two spellings.
-/
import proofs.«409252_j3470333575609_2_alg».proof.Proof.Rows
import proofs.«409252_j3470333575609_2_alg».proof.Proof.LstmMath

noncomputable section

namespace Cert.Lstm.Args

open Idealize.ShloMosaic Idealize.ShloMosaic.ValueIdx

variable (P : Args)

/-- The logits arrays agree. -/
theorem klogitsArr_eq (hx : P.InRange) : P.klogitsArr = P.logitsArr := by
  funext i
  exact congrFun (Row.toK_eq (P.row (i 0)) (hx (i 0))).1 (i 1)

/-- The new hidden states agree. -/
theorem khsArr_eq (hx : P.InRange) : P.khsArr = P.hsArr := by
  funext i
  exact congrFun (congrFun (Row.toK_eq (P.row (i 1)) (hx (i 1))).2.1 (i 0)) (i 2)

/-- The new cell states agree. -/
theorem kcsArr_eq (hx : P.InRange) : P.kcsArr = P.csArr := by
  funext i
  exact congrFun (congrFun (Row.toK_eq (P.row (i 1)) (hx (i 1))).2.2 (i 0)) (i 2)

end Cert.Lstm.Args

end
-- ==== Proof.BlockRow.lean ====
/-
  A block's row as the kernel body sees it: row r of the twelve operand blocks at one grid point, as one batch
  row's share of the call's operands (Spec.lean, KRow).
-/
import proofs.«409252_j3470333575609_2_alg».proof.Proof.Gen.KernelIdeal.Frame
import proofs.«409252_j3470333575609_2_alg».proof.Proof.Rows

noncomputable section

namespace Cert.KernelIdeal.Hand

open Cert.KernelIdeal Cert.KernelIdeal.Gen Idealize.ShloMosaic Idealize.ShloMosaic.ValueIdx Cert.Lstm

/-- Row r of the operand blocks at a grid point: the token, the six state rows, and the weights whole. -/
def blockRow (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) : KRow where
  x := x0 (ix2 r (0 : Fin 1))
  h := fun l k => x1 (ix3 l r k)
  c := fun l k => x2 (ix3 l r k)
  E := fun v e => x3 (ix2 v e)
  W0 := fun k n => x4 (ix2 k n)
  b0 := fun n => x5 (ix1 n)
  W1 := fun k n => x6 (ix2 k n)
  b1 := fun n => x7 (ix1 n)
  W2 := fun k n => x8 (ix2 k n)
  b2 := fun n => x9 (ix1 n)
  WL := fun k v => x10 (ix2 k v)
  bL := fun v => x11 (ix1 v)

end Cert.KernelIdeal.Hand

end
-- ==== Proof.KernelHost.lean ====
/-
  The kernel call's operands as the region finds them: the host operations in front of the call transpose and stack
  the weight matrices, add the bias pairs and transpose the read-out matrix (format changes are the identity on the
  extended reals), and grid point t's blocks hold batch rows 256 t … 256 t + 255 of the token and state arrays. So
  row r of point t's blocks is batch row 256 t + r's share of the arguments after the host's plumbing.
-/
import proofs.«409252_j3470333575609_2_alg».proof.Proof.Gen.KernelIdeal.Value
import proofs.«409252_j3470333575609_2_alg».proof.Proof.BlockRow
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx Idealize.SL.Sem Cert.Lstm

variable (m : (ℓ : Loc nD τ sig) → Buf (Elt Ideal) ℓ)

/-- The eighteen argument arrays in a device's memory. -/
def kArgs (c : Dev nD) : Args where
  x := m ((c.tc : Thread nD τ).loc main_arg0)
  h := m ((c.tc : Thread nD τ).loc main_arg1)
  c := m ((c.tc : Thread nD τ).loc main_arg2)
  E := m ((c.tc : Thread nD τ).loc main_arg3)
  Wih0 := m ((c.tc : Thread nD τ).loc main_arg4)
  Whh0 := m ((c.tc : Thread nD τ).loc main_arg5)
  bih0 := m ((c.tc : Thread nD τ).loc main_arg6)
  bhh0 := m ((c.tc : Thread nD τ).loc main_arg7)
  Wih1 := m ((c.tc : Thread nD τ).loc main_arg8)
  Whh1 := m ((c.tc : Thread nD τ).loc main_arg9)
  bih1 := m ((c.tc : Thread nD τ).loc main_arg10)
  bhh1 := m ((c.tc : Thread nD τ).loc main_arg11)
  Wih2 := m ((c.tc : Thread nD τ).loc main_arg12)
  Whh2 := m ((c.tc : Thread nD τ).loc main_arg13)
  bih2 := m ((c.tc : Thread nD τ).loc main_arg14)
  bhh2 := m ((c.tc : Thread nD τ).loc main_arg15)
  linW := m ((c.tc : Thread nD τ).loc main_arg16)
  linb := m ((c.tc : Thread nD τ).loc main_arg17)

/-- The batch row that row r of grid point t's blocks holds. -/
def rowAt (t : Fin cfg0.N) (r : Fin 256) : Fin 8192 :=
  ⟨256 * t.val + r.val, by have h := lt_of_lt_of_eq t.isLt N_0; have := r.isLt; omega⟩

/-! ### Layout operations at an index -/

/-- A column made of a vector: entry (i, 0) of the reshape [a] → [a, 1] is entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two transposed matrices stacked along the rows: row k of [Aᵀ; Bᵀ] is column k of A below K, column k - K of B
    from K on. -/
theorem stack_transposes_apply {K N : ℕ} (hN : N = K + 512)
    (A : (⟨2, ![2048, K]⟩ : Shape).Idx → EReal) (B : (⟨2, ![2048, 512]⟩ : Shape).Idx → EReal)
    (hA : (⟨2, ![2048, K]⟩ : Shape).Transposes [1, 0] ⟨2, ![K, 2048]⟩)
    (hB : (⟨2, ![2048, 512]⟩ : Shape).Transposes [1, 0] ⟨2, ![512, 2048]⟩)
    (hC : Shape.Concatenates [(⟨2, ![K, 2048]⟩ : Shape), ⟨2, ![512, 2048]⟩] ⟨2, ![N, 2048]⟩ 0)
    (k : Fin N) (n : Fin 2048) :
    concatenate ⟨2, ![N, 2048]⟩ 0 [⟨⟨2, ![K, 2048]⟩, transpose ⟨2, ![K, 2048]⟩ [1, 0] A hA⟩,
        ⟨⟨2, ![512, 2048]⟩, transpose ⟨2, ![512, 2048]⟩ [1, 0] B hB⟩] hC (ix2 k n)
      = catW hN (fun n k => A (ix2 n k)) (fun n k => B (ix2 n k)) k n := by
  unfold catW
  by_cases hk : k.val < K
  · rw [dif_pos hk]
    refine (concatenate_pair_apply_left (t := ⟨2, ![N, 2048]⟩) (s₁ := ⟨2, ![K, 2048]⟩) (s₂ := ⟨2, ![512, 2048]⟩) (0 : Fin 2) _ _ hC
      (ix2 k n) rfl (ix2 ⟨k.val, hk⟩ n) (fun b => match b with | ⟨0, _⟩ => rfl | ⟨1, _⟩ => rfl)).trans ?_
    exact transpose_ix2_apply A hA ⟨k.val, hk⟩ n
  · rw [dif_neg hk]
    refine (concatenate_pair_apply_right (t := ⟨2, ![N, 2048]⟩) (s₁ := ⟨2, ![K, 2048]⟩) (s₂ := ⟨2, ![512, 2048]⟩) (0 : Fin 2) _ _ hC
      (ix2 k n) rfl rfl (ix2 ⟨k.val - K, by omega⟩ n)
      (fun b hb => match b, hb with | ⟨0, _⟩, hb => absurd rfl hb | ⟨1, _⟩, _ => rfl)
      (by show (k.val - K) + K = k.val; omega)).trans ?_
    exact transpose_ix2_apply B hB ⟨k.val - K, by omega⟩ n

/-! ### How a block reads its array -/

/-- The token window's block index at grid point t is (t, 0). -/
theorem blockIndex0 : ∀ t : Fin cfg0.N, win0_0.index t (0 : Fin 2) = t.val ∧ win0_0.index t (1 : Fin 2) = 0 :=
  (by decide +kernel : ∀ t : Fin grid0.N, _)

/-- The hidden-state window's block index at grid point t is (0, t, 0). -/
theorem blockIndex1 : ∀ t : Fin cfg0.N, win0_1.index t (0 : Fin 3) = 0 ∧ win0_1.index t (1 : Fin 3) = t.val ∧ win0_1.index t (2 : Fin 3) = 0 :=
  (by decide +kernel : ∀ t : Fin grid0.N, _)

/-- The cell-state window's block index at grid point t is (0, t, 0). -/
theorem blockIndex2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Row r of the token block at grid point t is entry 256 t + r of the token column. -/
theorem block0_read (X : S8192x1.Idx → BitVec 32) (t : Fin cfg0.N) (r : Fin 256) (u : Fin 1) :
    ((cfg0.win 0).blk t).view.read (Elt Ideal) X (ix2 r u) = X (ix2 (rowAt t r) u) := by
  show X (((cfg0.win 0).blk t).view.emb (ix2 r u)) = X (ix2 (rowAt t r) u)
  obtain ⟨e0, e1⟩ := blockIndex0 t
  congr 1
  funext a; apply Fin.ext
  match a with
  | ⟨0, _⟩ => show win0_0.index t (0 : Fin 2) * 256 + 1 * r.val = 256 * t.val + r.val; omega
  | ⟨1, _⟩ => show win0_0.index t (1 : Fin 2) * 1 + 1 * u.val = u.val; omega

/-- Entry (l, r, k) of the hidden-state block at grid point t is entry (l, 256 t + r, k) of the array. -/
theorem block1_read (X : S3x8192x512.Idx → EReal) (t : Fin cfg0.N) (l : Fin 3) (r : Fin 256) (k : Fin 512) :
    ((cfg0.win 1).blk t).view.read (Elt Ideal) X (ix3 l r k) = X (ix3 l (rowAt t r) k) := by
  show X (((cfg0.win 1).blk t).view.emb (ix3 l r k)) = X (ix3 l (rowAt t r) k)
  obtain ⟨e0, e1, e2⟩ := blockIndex1 t
  congr 1
  funext a; apply Fin.ext
  match a with
  | ⟨0, _⟩ => show win0_1.index t (0 : Fin 3) * 3 + 1 * l.val = l.val; omega
  | ⟨1, _⟩ => show win0_1.index t (1 : Fin 3) * 256 + 1 * r.val = 256 * t.val + r.val; omega
  | ⟨2, _⟩ => show win0_1.index t (2 : Fin 3) * 512 + 1 * k.val = k.val; omega

/-- Entry (l, r, k) of the cell-state block at grid point t is entry (l, 256 t + r, k) of the array. -/
theorem block2_read (X : S3x8192x512.Idx → EReal) (t : Fin cfg0.N) (l : Fin 3) (r : Fin 256) (k : Fin 512) :
    ((cfg0.win 2).blk t).view.read (Elt Ideal) X (ix3 l r k) = X (ix3 l (rowAt t r) k) := by
  show X (((cfg0.win 2).blk t).view.emb (ix3 l r k)) = X (ix3 l (rowAt t r) k)
  obtain ⟨e0, e1, e2⟩ := blockIndex2 t
  congr 1
  funext a; apply Fin.ext
  match a with
  | ⟨0, _⟩ => show win0_2.index t (0 : Fin 3) * 3 + 1 * l.val = l.val; omega
  | ⟨1, _⟩ => show win0_2.index t (1 : Fin 3) * 256 + 1 * r.val = 256 * t.val + r.val; omega
  | ⟨2, _⟩ => show win0_2.index t (2 : Fin 3) * 512 + 1 * k.val = k.val; omega

/-- Window 3 has one block, the whole array: its block index is 0 at every grid point. -/
theorem blockIndex3 : ∀ t : Fin cfg0.N, win0_3.index t (0 : Fin 2) = 0 ∧ win0_3.index t (1 : Fin 2) = 0 :=
  (by decide +kernel : ∀ t : Fin grid0.N, _)

/-- Window 3's block at any grid point is the whole array. -/
theorem block3_read (X : S128x128.Idx → EReal) (t : Fin cfg0.N) (y : S128x128.Idx) :
    ((cfg0.win 3).blk t).view.read (Elt Ideal) X y = X y := by
  show X (((cfg0.win 3).blk t).view.emb y) = X y
  obtain ⟨e0, e1⟩ := blockIndex3 t
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 has one block, the whole array: its block index is 0 at every grid point. -/
theorem blockIndex4 : ∀ t : Fin cfg0.N, win0_4.index t (0 : Fin 2) = 0 ∧ win0_4.index t (1 : Fin 2) = 0 :=
  (by decide +kernel : ∀ t : Fin grid0.N, _)

/-- Window 4's block at any grid point is the whole array. -/
theorem block4_read (X : S640x2048.Idx → EReal) (t : Fin cfg0.N) (y : S640x2048.Idx) :
    ((cfg0.win 4).blk t).view.read (Elt Ideal) X y = X y := by
  show X (((cfg0.win 4).blk t).view.emb y) = X y
  obtain ⟨e0, e1⟩ := blockIndex4 t
  congr 1
  funext a; apply Fin.ext
  match a with
  | ⟨0, _⟩ => show win0_4.index t (0 : Fin 2) * 640 + 1 * (y 0).val = (y 0).val; omega
  | ⟨1, _⟩ => show win0_4.index t (1 : Fin 2) * 2048 + 1 * (y 1).val = (y 1).val; omega

/-- Window 5 has one block, the whole array: its block index is 0 at every grid point. -/
theorem blockIndex5 : ∀ t : Fin cfg0.N, win0_5.index t (0 : Fin 1) = 0 :=
  (by decide +kernel : ∀ t : Fin grid0.N, _)

/-- Window 5's block at any grid point is the whole array. -/
theorem block5_read (X : S2048.Idx → EReal) (t : Fin cfg0.N) (y : S2048.Idx) :
    ((cfg0.win 5).blk t).view.read (Elt Ideal) X y = X y := by
  show X (((cfg0.win 5).blk t).view.emb y) = X y
  have e0 := blockIndex5 t
  congr 1
  funext a; apply Fin.ext
  match a with
  | ⟨0, _⟩ => show win0_5.index t (0 : Fin 1) * 2048 + 1 * (y 0).val = (y 0).val; omega

/-- Window 6 has one block, the whole array: its block index is 0 at every grid point. -/
theorem blockIndex6 : ∀ t : Fin cfg0.N, win0_6.index t (0 : Fin 2) = 0 ∧ win0_6.index t (1 : Fin 2) = 0 :=
  (by decide +kernel : ∀ t : Fin grid0.N, _)

/-- Window 6's block at any grid point is the whole array. -/
theorem block6_read (X : S1024x2048.Idx → EReal) (t : Fin cfg0.N) (y : S1024x2048.Idx) :
    ((cfg0.win 6).blk t).view.read (Elt Ideal) X y = X y := by
  show X (((cfg0.win 6).blk t).view.emb y) = X y
  obtain ⟨e0, e1⟩ := blockIndex6 t
  congr 1
  funext a; apply Fin.ext
  match a with
  | ⟨0, _⟩ => show win0_6.index t (0 : Fin 2) * 1024 + 1 * (y 0).val = (y 0).val; omega
  | ⟨1, _⟩ => show win0_6.index t (1 : Fin 2) * 2048 + 1 * (y 1).val = (y 1).val; omega

/-- Window 7 has one block, the whole array: its block index is 0 at every grid point. -/
theorem blockIndex7 : ∀ t : Fin cfg0.N, win0_7.index t (0 : Fin 1) = 0 :=
  (by decide +kernel : ∀ t : Fin grid0.N, _)

/-- Window 7's block at any grid point is the whole array. -/
theorem block7_read (X : S2048.Idx → EReal) (t : Fin cfg0.N) (y : S2048.Idx) :
    ((cfg0.win 7).blk t).view.read (Elt Ideal) X y = X y := by
  show X (((cfg0.win 7).blk t).view.emb y) = X y
  have e0 := blockIndex7 t
  congr 1
  funext a; apply Fin.ext
  match a with
  | ⟨0, _⟩ => show win0_7.index t (0 : Fin 1) * 2048 + 1 * (y 0).val = (y 0).val; omega

/-- Window 8 has one block, the whole array: its block index is 0 at every grid point. -/
theorem blockIndex8 : ∀ t : Fin cfg0.N, win0_8.index t (0 : Fin 2) = 0 ∧ win0_8.index t (1 : Fin 2) = 0 :=
  (by decide +kernel : ∀ t : Fin grid0.N, _)

/-- Window 8's block at any grid point is the whole array. -/
theorem block8_read (X : S1024x2048.Idx → EReal) (t : Fin cfg0.N) (y : S1024x2048.Idx) :
    ((cfg0.win 8).blk t).view.read (Elt Ideal) X y = X y := by
  show X (((cfg0.win 8).blk t).view.emb y) = X y
  obtain ⟨e0, e1⟩ := blockIndex8 t
  congr 1
  funext a; apply Fin.ext
  match a with
  | ⟨0, _⟩ => show win0_8.index t (0 : Fin 2) * 1024 + 1 * (y 0).val = (y 0).val; omega
  | ⟨1, _⟩ => show win0_8.index t (1 : Fin 2) * 2048 + 1 * (y 1).val = (y 1).val; omega

/-- Window 9 has one block, the whole array: its block index is 0 at every grid point. -/
theorem blockIndex9 : ∀ t : Fin cfg0.N, win0_9.index t (0 : Fin 1) = 0 :=
  (by decide +kernel : ∀ t : Fin grid0.N, _)

/-- Window 9's block at any grid point is the whole array. -/
theorem block9_read (X : S2048.Idx → EReal) (t : Fin cfg0.N) (y : S2048.Idx) :
    ((cfg0.win 9).blk t).view.read (Elt Ideal) X y = X y := by
  show X (((cfg0.win 9).blk t).view.emb y) = X y
  have e0 := blockIndex9 t
  congr 1
  funext a; apply Fin.ext
  match a with
  | ⟨0, _⟩ => show win0_9.index t (0 : Fin 1) * 2048 + 1 * (y 0).val = (y 0).val; omega

/-- Window 10 has one block, the whole array: its block index is 0 at every grid point. -/
theorem blockIndex10 : ∀ t : Fin cfg0.N, win0_10.index t (0 : Fin 2) = 0 ∧ win0_10.index t (1 : Fin 2) = 0 :=
  (by decide +kernel : ∀ t : Fin grid0.N, _)

/-- Window 10's block at any grid point is the whole array. -/
theorem block10_read (X : S512x128.Idx → EReal) (t : Fin cfg0.N) (y : S512x128.Idx) :
    ((cfg0.win 10).blk t).view.read (Elt Ideal) X y = X y := by
  show X (((cfg0.win 10).blk t).view.emb y) = X y
  obtain ⟨e0, e1⟩ := blockIndex10 t
  congr 1
  funext a; apply Fin.ext
  match a with
  | ⟨0, _⟩ => show win0_10.index t (0 : Fin 2) * 512 + 1 * (y 0).val = (y 0).val; omega
  | ⟨1, _⟩ => show win0_10.index t (1 : Fin 2) * 128 + 1 * (y 1).val = (y 1).val; omega

/-- Window 11 has one block, the whole array: its block index is 0 at every grid point. -/
theorem blockIndex11 : ∀ t : Fin cfg0.N, win0_11.index t (0 : Fin 1) = 0 :=
  (by decide +kernel : ∀ t : Fin grid0.N, _)

/-- Window 11's block at any grid point is the whole array. -/
theorem block11_read (X : S128.Idx → EReal) (t : Fin cfg0.N) (y : S128.Idx) :
    ((cfg0.win 11).blk t).view.read (Elt Ideal) X y = X y := by
  show X (((cfg0.win 11).blk t).view.emb y) = X y
  have e0 := blockIndex11 t
  congr 1
  funext a; apply Fin.ext
  match a with
  | ⟨0, _⟩ => show win0_11.index t (0 : Fin 1) * 128 + 1 * (y 0).val = (y 0).val; omega

/-! ### What the host's plumbing leaves in the arrays the windows stage -/

/-- The token column is the token vector reshaped [8192] → [8192, 1]. -/
theorem V_main_v0 (c : Dev nD) : @Eq (S8192x1.Idx → BitVec 32) (V m c main_v0)
    (shapeCast S8192x1 (m ((c.tc : Thread nD τ).loc main_arg0)) shapeCasts_S8192_S8192x1) := by
  dsimp only [Gen.V, Gen.hostOps0]; after_results; rfl

/-- The staged embedding table is the table with its format changed. -/
theorem V_main_v1 (c : Dev nD) : @Eq (FVec Ideal S128x128 .bf16) (V m c main_v1)
    (truncf (F := Ideal) .bf16 ((m ((c.tc : Thread nD τ).loc main_arg3)) : FVec Ideal S128x128 .f32) bitsLt_bf16_f32) := by
  dsimp only [Gen.V, Gen.hostOps0]; after_results

/-- Layer 0's staged matrix is [W_ihᵀ; W_hhᵀ], format changed. -/
theorem V_main_v5 (c : Dev nD) : @Eq (FVec Ideal S640x2048 .bf16) (V m c main_v5)
    (truncf (F := Ideal) .bf16 (concatenate S640x2048 0 [⟨S128x2048, transpose S128x2048 [1, 0] ((m ((c.tc : Thread nD τ).loc main_arg4)) : FVec Ideal S2048x128 .f32) transposes_S2048x128_S128x2048_1_0⟩, ⟨S512x2048, transpose S512x2048 [1, 0] ((m ((c.tc : Thread nD τ).loc main_arg5)) : FVec Ideal S2048x512 .f32) transposes_S2048x512_S512x2048_1_0⟩] concatenates_S128x2048_S512x2048_S640x2048_d0) bitsLt_bf16_f32) := by
  dsimp only [Gen.V, Gen.hostOps0]; after_results

/-- Layer 0's staged bias is b_ih + b_hh. -/
theorem V_main_v6 (c : Dev nD) : @Eq (FVec Ideal S2048 .f32) (V m c main_v6)
    (addf (F := Ideal) (φ := .f32) (m ((c.tc : Thread nD τ).loc main_arg6)) (m ((c.tc : Thread nD τ).loc main_arg7))) := by
  dsimp only [Gen.V, Gen.hostOps0]; after_results

/-- Layer 1's staged matrix is [W_ihᵀ; W_hhᵀ], format changed. -/
theorem V_main_v10 (c : Dev nD) : @Eq (FVec Ideal S1024x2048 .bf16) (V m c main_v10)
    (truncf (F := Ideal) .bf16 (concatenate S1024x2048 0 [⟨S512x2048, transpose S512x2048 [1, 0] ((m ((c.tc : Thread nD τ).loc main_arg8)) : FVec Ideal S2048x512 .f32) transposes_S2048x512_S512x2048_1_0⟩, ⟨S512x2048, transpose S512x2048 [1, 0] ((m ((c.tc : Thread nD τ).loc main_arg9)) : FVec Ideal S2048x512 .f32) transposes_S2048x512_S512x2048_1_0⟩] concatenates_S512x2048_S512x2048_S1024x2048_d0) bitsLt_bf16_f32) := by
  dsimp only [Gen.V, Gen.hostOps0]; after_results

/-- Layer 1's staged bias is b_ih + b_hh. -/
theorem V_main_v11 (c : Dev nD) : @Eq (FVec Ideal S2048 .f32) (V m c main_v11)
    (addf (F := Ideal) (φ := .f32) (m ((c.tc : Thread nD τ).loc main_arg10)) (m ((c.tc : Thread nD τ).loc main_arg11))) := by
  dsimp only [Gen.V, Gen.hostOps0]; after_results

/-- Layer 2's staged matrix is [W_ihᵀ; W_hhᵀ], format changed. -/
theorem V_main_v15 (c : Dev nD) : @Eq (FVec Ideal S1024x2048 .bf16) (V m c main_v15)
    (truncf (F := Ideal) .bf16 (concatenate S1024x2048 0 [⟨S512x2048, transpose S512x2048 [1, 0] ((m ((c.tc : Thread nD τ).loc main_arg12)) : FVec Ideal S2048x512 .f32) transposes_S2048x512_S512x2048_1_0⟩, ⟨S512x2048, transpose S512x2048 [1, 0] ((m ((c.tc : Thread nD τ).loc main_arg13)) : FVec Ideal S2048x512 .f32) transposes_S2048x512_S512x2048_1_0⟩] concatenates_S512x2048_S512x2048_S1024x2048_d0) bitsLt_bf16_f32) := by
  dsimp only [Gen.V, Gen.hostOps0]; after_results

/-- Layer 2's staged bias is b_ih + b_hh. -/
theorem V_main_v16 (c : Dev nD) : @Eq (FVec Ideal S2048 .f32) (V m c main_v16)
    (addf (F := Ideal) (φ := .f32) (m ((c.tc : Thread nD τ).loc main_arg14)) (m ((c.tc : Thread nD τ).loc main_arg15))) := by
  dsimp only [Gen.V, Gen.hostOps0]; after_results

/-- The staged read-out matrix is the read-out matrix transposed, format changed. -/
theorem V_main_v18 (c : Dev nD) : @Eq (FVec Ideal S512x128 .bf16) (V m c main_v18)
    (truncf (F := Ideal) .bf16 (transpose S512x128 [1, 0] ((m ((c.tc : Thread nD τ).loc main_arg16)) : FVec Ideal S128x512 .f32) transposes_S128x512_S512x128_1_0) bitsLt_bf16_f32) := by
  dsimp only [Gen.V, Gen.hostOps0]; after_results

/-! ### Row r of grid point t's blocks, window by window -/

/-- The token in row r of point t's block is batch row 256 t + r's token. -/
theorem iblk0_apply (c : Dev nD) (t : Fin cfg0.N) (r : Fin 256) :
    (iblk m c 0 t : Vec Ideal S256x1 .i32) (ix2 r (0 : Fin 1)) = (kArgs m c).x (ix1 (rowAt t r)) :=
  (block0_read (V m c main_v0) t r 0).trans ((congrFun (V_main_v0 m c) _).trans (shapeCast_a_a1_apply _ _ _ _))

/-- Row r of point t's hidden-state block is batch row 256 t + r's hidden rows. -/
theorem iblk1_apply (c : Dev nD) (t : Fin cfg0.N) (r : Fin 256) (l : Fin 3) (k : Fin 512) :
    (iblk m c 1 t : Vec Ideal S3x256x512 .f32) (ix3 l r k) = (kArgs m c).h (ix3 l (rowAt t r) k) :=
  (block1_read (V m c main_arg1) t l r k).trans (congrFun (V_main_arg1 m c) _)

/-- Row r of point t's cell-state block is batch row 256 t + r's cell rows. -/
theorem iblk2_apply (c : Dev nD) (t : Fin cfg0.N) (r : Fin 256) (l : Fin 3) (k : Fin 512) :
    (iblk m c 2 t : Vec Ideal S3x256x512 .f32) (ix3 l r k) = (kArgs m c).c (ix3 l (rowAt t r) k) :=
  (block2_read (V m c main_arg2) t l r k).trans (congrFun (V_main_arg2 m c) _)

/-- The embedding-table block is the table. -/
theorem iblk3_apply (c : Dev nD) (t : Fin cfg0.N) (v e : Fin 128) :
    (iblk m c 3 t : Vec Ideal S128x128 .bf16) (ix2 v e) = (kArgs m c).E (ix2 v e) :=
  (block3_read (V m c main_v1) t (ix2 v e)).trans (congrFun (V_main_v1 m c) _)

/-- Layer 0's matrix block is the stacked matrix [W_ihᵀ; W_hhᵀ]. -/
theorem iblk4_apply (c : Dev nD) (t : Fin cfg0.N) (k : Fin 640) (n : Fin 2048) :
    (iblk m c 4 t : Vec Ideal S640x2048 .bf16) (ix2 k n)
      = catW (N := 640) rfl (fun n k => (kArgs m c).Wih0 (ix2 n k)) (fun n k => (kArgs m c).Whh0 (ix2 n k)) k n :=
  (block4_read (V m c main_v5) t (ix2 k n)).trans ((congrFun (V_main_v5 m c) _).trans
    (stack_transposes_apply (K := 128) (N := 640) rfl (m ((c.tc : Thread nD τ).loc main_arg4)) (m ((c.tc : Thread nD τ).loc main_arg5)) transposes_S2048x128_S128x2048_1_0
      transposes_S2048x512_S512x2048_1_0 concatenates_S128x2048_S512x2048_S640x2048_d0 k n))

/-- Layer 0's bias block is b_ih + b_hh. -/
theorem iblk5_apply (c : Dev nD) (t : Fin cfg0.N) (n : Fin 2048) :
    (iblk m c 5 t : Vec Ideal S2048 .f32) (ix1 n) = (kArgs m c).bih0 (ix1 n) + (kArgs m c).bhh0 (ix1 n) :=
  (block5_read (V m c main_v6) t (ix1 n)).trans (congrFun (V_main_v6 m c) _)

/-- Layer 1's matrix block is the stacked matrix [W_ihᵀ; W_hhᵀ]. -/
theorem iblk6_apply (c : Dev nD) (t : Fin cfg0.N) (k : Fin 1024) (n : Fin 2048) :
    (iblk m c 6 t : Vec Ideal S1024x2048 .bf16) (ix2 k n)
      = catW (N := 1024) rfl (fun n k => (kArgs m c).Wih1 (ix2 n k)) (fun n k => (kArgs m c).Whh1 (ix2 n k)) k n :=
  (block6_read (V m c main_v10) t (ix2 k n)).trans ((congrFun (V_main_v10 m c) _).trans
    (stack_transposes_apply (K := 512) (N := 1024) rfl (m ((c.tc : Thread nD τ).loc main_arg8)) (m ((c.tc : Thread nD τ).loc main_arg9)) transposes_S2048x512_S512x2048_1_0
      transposes_S2048x512_S512x2048_1_0 concatenates_S512x2048_S512x2048_S1024x2048_d0 k n))

/-- Layer 1's bias block is b_ih + b_hh. -/
theorem iblk7_apply (c : Dev nD) (t : Fin cfg0.N) (n : Fin 2048) :
    (iblk m c 7 t : Vec Ideal S2048 .f32) (ix1 n) = (kArgs m c).bih1 (ix1 n) + (kArgs m c).bhh1 (ix1 n) :=
  (block7_read (V m c main_v11) t (ix1 n)).trans (congrFun (V_main_v11 m c) _)

/-- Layer 2's matrix block is the stacked matrix [W_ihᵀ; W_hhᵀ]. -/
theorem iblk8_apply (c : Dev nD) (t : Fin cfg0.N) (k : Fin 1024) (n : Fin 2048) :
    (iblk m c 8 t : Vec Ideal S1024x2048 .bf16) (ix2 k n)
      = catW (N := 1024) rfl (fun n k => (kArgs m c).Wih2 (ix2 n k)) (fun n k => (kArgs m c).Whh2 (ix2 n k)) k n :=
  (block8_read (V m c main_v15) t (ix2 k n)).trans ((congrFun (V_main_v15 m c) _).trans
    (stack_transposes_apply (K := 512) (N := 1024) rfl (m ((c.tc : Thread nD τ).loc main_arg12)) (m ((c.tc : Thread nD τ).loc main_arg13)) transposes_S2048x512_S512x2048_1_0
      transposes_S2048x512_S512x2048_1_0 concatenates_S512x2048_S512x2048_S1024x2048_d0 k n))

/-- Layer 2's bias block is b_ih + b_hh. -/
theorem iblk9_apply (c : Dev nD) (t : Fin cfg0.N) (n : Fin 2048) :
    (iblk m c 9 t : Vec Ideal S2048 .f32) (ix1 n) = (kArgs m c).bih2 (ix1 n) + (kArgs m c).bhh2 (ix1 n) :=
  (block9_read (V m c main_v16) t (ix1 n)).trans (congrFun (V_main_v16 m c) _)

/-- The read-out matrix block is the read-out matrix transposed. -/
theorem iblk10_apply (c : Dev nD) (t : Fin cfg0.N) (k : Fin 512) (v : Fin 128) :
    (iblk m c 10 t : Vec Ideal S512x128 .bf16) (ix2 k v) = (kArgs m c).linW (ix2 v k) :=
  (block10_read (V m c main_v18) t (ix2 k v)).trans ((congrFun (V_main_v18 m c) _).trans
    (transpose_ix2_apply ((m ((c.tc : Thread nD τ).loc main_arg16)) : FVec Ideal S128x512 .f32) transposes_S128x512_S512x128_1_0 k v))

/-- The read-out bias block is the read-out bias. -/
theorem iblk11_apply (c : Dev nD) (t : Fin cfg0.N) (v : Fin 128) :
    (iblk m c 11 t : Vec Ideal S128 .f32) (ix1 v) = (kArgs m c).linb (ix1 v) :=
  (block11_read (V m c main_arg17) t (ix1 v)).trans (congrFun (V_main_arg17 m c) _)

/-- Rows of the kernel's operands built from equal fields are equal. -/
theorem krow_mk_congr {x x' : BitVec 32} {h h' c c' : Fin 3 → Fin 512 → EReal} {E E' : Fin 128 → Fin 128 → EReal}
    {W0 W0' : Fin 640 → Fin 2048 → EReal} {b0 b0' : Fin 2048 → EReal} {W1 W1' : Fin 1024 → Fin 2048 → EReal}
    {b1 b1' : Fin 2048 → EReal} {W2 W2' : Fin 1024 → Fin 2048 → EReal} {b2 b2' : Fin 2048 → EReal}
    {WL WL' : Fin 512 → Fin 128 → EReal} {bL bL' : Fin 128 → EReal}
    (hx : x = x') (hh : h = h') (hc : c = c') (hE : E = E') (hW0 : W0 = W0') (hb0 : b0 = b0') (hW1 : W1 = W1')
    (hb1 : b1 = b1') (hW2 : W2 = W2') (hb2 : b2 = b2') (hWL : WL = WL') (hbL : bL = bL') :
    KRow.mk x h c E W0 b0 W1 b1 W2 b2 WL bL = KRow.mk x' h' c' E' W0' b0' W1' b1' W2' b2' WL' bL' := by
  subst hx hh hc hE hW0 hb0 hW1 hb1 hW2 hb2 hWL hbL; rfl

/-- Row r of grid point t's operand blocks is batch row 256 t + r's share of the arguments, after the host's
    plumbing. -/
theorem blockRow_iblk (c : Dev nD) (t : Fin cfg0.N) (r : Fin 256) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r = ((kArgs m c).row (rowAt t r)).toK := by
  delta blockRow Row.toK Args.row
  dsimp only
  exact krow_mk_congr (iblk0_apply m c t r)
    (funext fun l => funext fun k => iblk1_apply m c t r l k)
    (funext fun l => funext fun k => iblk2_apply m c t r l k)
    (funext fun v => funext fun e => iblk3_apply m c t v e)
    (funext fun k => funext fun n => iblk4_apply m c t k n)
    (funext fun n => iblk5_apply m c t n)
    (funext fun k => funext fun n => iblk6_apply m c t k n)
    (funext fun n => iblk7_apply m c t n)
    (funext fun k => funext fun n => iblk8_apply m c t k n)
    (funext fun n => iblk9_apply m c t n)
    (funext fun k => funext fun v => iblk10_apply m c t k v)
    (funext fun v => iblk11_apply m c t v)

end Cert.KernelIdeal.Hand

end
-- ==== Proof.KernelLayer0.lean ====
/-
  Layer 0 of the kernel body at one entry: the new cell and hidden values of block row r are that row's, in the
  kernel's spelling.
-/
import proofs.«409252_j3470333575609_2_alg».proof.Proof.BlockRow
import Idealize.ShloMosaic.PureOps.Ideal.Laws
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Lstm

/-! ### Words: the one-hot entry -/

/-- A 32-bit equality test, widened and read as a signed integer, is 1 when the words are equal and 0 when not. -/
theorem onehot_word (a b : BitVec 32) :
    ((((IntOp.cmpi .eq a b).setWidth 32).toInt : ℝ) : EReal) = if a = b then (1 : EReal) else 0 := by
  unfold IntOp.cmpi
  by_cases h : a = b
  · rw [if_pos h, show (a == b) = true from by simpa using h]
    show ((((1#1 : BitVec 1).setWidth 32).toInt : ℝ) : EReal) = 1
    rw [show ((1#1 : BitVec 1).setWidth 32).toInt = 1 from by decide, Int.cast_one, EReal.coe_one]
  · rw [if_neg h, show (a == b) = false from by simpa using h]
    show ((((0#1 : BitVec 1).setWidth 32).toInt : ℝ) : EReal) = 0
    rw [show ((0#1 : BitVec 1).setWidth 32).toInt = 0 from by decide, Int.cast_zero, EReal.coe_zero]

/-- The one-hot matrix: entry (r, v) is 1 when row r's token is the word v, else 0. -/
theorem onehot_apply (v0 : Vec Ideal S256x1 .i32) (r : Fin 256) (v : Fin 128) :
    (truncf (F := Ideal) .bf16 (sitofp .f32 (extui 32 (cmpi .eq (broadcastTo S256x128 (shapeCast S256x1 v0 shapeCasts_S256x1_S256x1) broadcasts_S256x1_S256x128) (iota .tc S256x128 32 [1] iota_S256x128_d1_w32)) natLt_1_32)) bitsLt_bf16_f32) (ix2 r v)
      = if v0 (ix2 r (0 : Fin 1)) = BitVec.ofNat 32 v.val then (1 : EReal) else 0 := by
  rw [truncf_apply, sitofp_apply, extui_apply, shapeCast_self]
  show ((((IntOp.cmpi .eq (broadcastTo S256x128 v0 broadcasts_S256x1_S256x128 (ix2 r v)) (iota .tc S256x128 32 [1] iota_S256x128_d1_w32 (ix2 r v))).setWidth 32).toInt : ℝ) : EReal) = _
  rw [iota_single_apply, broadcastTo_apply v0 broadcasts_S256x1_S256x128 (ix2 r v) (ix2 r (0 : Fin 1)) (fun a => by
    match a with
    | ⟨0, _⟩ => rfl
    | ⟨1, _⟩ => rfl)]
  exact onehot_word _ _

/-! ### The two products -/

/-- The one-hot product's left index on the row axis is the output row. -/
theorem lhs_emb_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- The one-hot product's left index on the contracted axis is the contraction position. -/
theorem lhs_emb_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- The one-hot product's right index on the contracted axis is the contraction position. -/
theorem rhs_emb_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- The one-hot product's right index on the column axis is the output column. -/
theorem rhs_emb_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The [256,128] × [128,128] product onto zero, at (r, e): ∑_v A(r, v) · B(v, e). -/
theorem matmul_emb_apply (A : FVec Ideal S256x128 .bf16) (B : FVec Ideal S128x128 .bf16) (r : Fin 256) (e : Fin 128) :
    matmul dot_S256x128_S128x128_S256x128_1_0_0_1_n_n none A B (constant (F := Ideal) S256x128 .f32 0x00000000#32) (ix2 r e)
      = ∑ v : Fin 128, A (ix2 r v) * B (ix2 v e) := by
  show FloatOps.matmul dot_S256x128_S128x128_S256x128_1_0_0_1_n_n none A B (constant (F := Ideal) S256x128 .f32 0x00000000#32) (ix2 r e) = _
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r e) ((contrEquiv1 dot_S256x128_S128x128_S256x128_1_0_0_1_n_n 128 rfl rfl).symm k) = ix2 r k := funext fun a => Fin.ext (by
    match a with
    | ⟨0, _⟩ => exact lhs_emb_0 _ _
    | ⟨1, _⟩ => exact (lhs_emb_1 _ _).trans hk)
  have er : dot_S256x128_S128x128_S256x128_1_0_0_1_n_n.rhsIdx (ix2 r e) ((contrEquiv1 dot_S256x128_S128x128_S256x128_1_0_0_1_n_n 128 rfl rfl).symm k) = ix2 k e := funext fun a => Fin.ext (by
    match a with
    | ⟨0, _⟩ => exact (rhs_emb_0 _ _).trans hk
    | ⟨1, _⟩ => exact rhs_emb_1 _ _)
  rw [el, er]

/-- The gates product's left index on the row axis is the output row. -/
theorem lhs_gates_0 (i : S256x2048.Idx) (q : dot_S256x640_S640x2048_S256x2048_1_0_0_1_n_n.contr.Idx) :
    (dot_S256x640_S640x2048_S256x2048_1_0_0_1_n_n.lhsIdx i q 0).val = (i 0).val := by
  unfold DotDims.lhsIdx
  rw [dif_neg (show ¬(0 : Fin S256x640.rank) ∈ dot_S256x640_S640x2048_S256x2048_1_0_0_1_n_n.lhsBatch by decide), dif_pos (show (0 : Fin S256x640.rank) ∈ dot_S256x640_S640x2048_S256x2048_1_0_0_1_n_n.lhsNonContracting by decide)]
  rfl
/-- The gates product's left index on the contracted axis is the contraction position. -/
theorem lhs_gates_1 (i : S256x2048.Idx) (q : dot_S256x640_S640x2048_S256x2048_1_0_0_1_n_n.contr.Idx) :
    (dot_S256x640_S640x2048_S256x2048_1_0_0_1_n_n.lhsIdx i q 1).val = (q ⟨0, by decide⟩).val :=
  dot_S256x640_S640x2048_S256x2048_1_0_0_1_n_n.lhsIdx_val_of_single rfl i q
/-- The gates product's right index on the contracted axis is the contraction position. -/
theorem rhs_gates_0 (i : S256x2048.Idx) (q : dot_S256x640_S640x2048_S256x2048_1_0_0_1_n_n.contr.Idx) :
    (dot_S256x640_S640x2048_S256x2048_1_0_0_1_n_n.rhsIdx i q 0).val = (q ⟨0, by decide⟩).val :=
  dot_S256x640_S640x2048_S256x2048_1_0_0_1_n_n.rhsIdx_val_of_single rfl i q
/-- The gates product's right index on the column axis is the output column. -/
theorem rhs_gates_1 (i : S256x2048.Idx) (q : dot_S256x640_S640x2048_S256x2048_1_0_0_1_n_n.contr.Idx) :
    (dot_S256x640_S640x2048_S256x2048_1_0_0_1_n_n.rhsIdx i q 1).val = (i 1).val := by
  unfold DotDims.rhsIdx
  rw [dif_neg (show ¬(1 : Fin S640x2048.rank) ∈ dot_S256x640_S640x2048_S256x2048_1_0_0_1_n_n.rhsBatch by decide), dif_pos (show (1 : Fin S640x2048.rank) ∈ dot_S256x640_S640x2048_S256x2048_1_0_0_1_n_n.rhsNonContracting by decide)]
  rfl

/-- The [256,640] × [640,2048] product onto zero, at (r, n): ∑_k A(r, k) · B(k, n). -/
theorem matmul_gates_apply (A : FVec Ideal S256x640 .bf16) (B : FVec Ideal S640x2048 .bf16) (r : Fin 256) (n : Fin 2048) :
    matmul dot_S256x640_S640x2048_S256x2048_1_0_0_1_n_n none A B (constant (F := Ideal) S256x2048 .f32 0x00000000#32) (ix2 r n)
      = ∑ k : Fin 640, A (ix2 r k) * B (ix2 k n) := by
  show FloatOps.matmul dot_S256x640_S640x2048_S256x2048_1_0_0_1_n_n none A B (constant (F := Ideal) S256x2048 .f32 0x00000000#32) (ix2 r n) = _
  rw [Ideal.matmul_constant_zero_apply, ← Equiv.sum_comp (contrEquiv1 dot_S256x640_S640x2048_S256x2048_1_0_0_1_n_n 640 rfl rfl).symm]
  refine Finset.sum_congr rfl fun k _ => ?_
  have hk := contrEquiv1_symm_val dot_S256x640_S640x2048_S256x2048_1_0_0_1_n_n 640 rfl rfl k
  have el : dot_S256x640_S640x2048_S256x2048_1_0_0_1_n_n.lhsIdx (ix2 r n) ((contrEquiv1 dot_S256x640_S640x2048_S256x2048_1_0_0_1_n_n 640 rfl rfl).symm k) = ix2 r k := funext fun a => Fin.ext (by
    match a with
    | ⟨0, _⟩ => exact lhs_gates_0 _ _
    | ⟨1, _⟩ => exact (lhs_gates_1 _ _).trans hk)
  have er : dot_S256x640_S640x2048_S256x2048_1_0_0_1_n_n.rhsIdx (ix2 r n) ((contrEquiv1 dot_S256x640_S640x2048_S256x2048_1_0_0_1_n_n 640 rfl rfl).symm k) = ix2 k n := funext fun a => Fin.ext (by
    match a with
    | ⟨0, _⟩ => exact (rhs_gates_0 _ _).trans hk
    | ⟨1, _⟩ => exact rhs_gates_1 _ _)
  rw [el, er]

/-! ### The row [x, h] -/

/-- The [256,128] and [256,512] blocks laid side by side, at (r, k): row r of the first up to column 128, row r of
    the second after. -/
theorem cat_apply (X : FVec Ideal S256x128 .bf16) (H : FVec Ideal S256x512 .bf16) (r : Fin 256) (k : Fin 640) :
    concatenate S256x640 1 [⟨S256x128, X⟩, ⟨S256x512, H⟩] concatenates_S256x128_S256x512_S256x640_d1 (ix2 r k)
      = catRow (N := 640) rfl (fun e => X (ix2 r e)) (fun j => H (ix2 r j)) k := by
  unfold catRow
  by_cases hk : k.val < 128
  · rw [dif_pos hk]
    exact concatenate_pair_apply_left 1 X H _ (ix2 r k) rfl (ix2 r ⟨k.val, hk⟩) (fun b => by
      match b with
      | ⟨0, _⟩ => rfl
      | ⟨1, _⟩ => rfl)
  · rw [dif_neg hk]
    exact concatenate_pair_apply_right 1 X H _ (ix2 r k) rfl rfl (ix2 r ⟨k.val - 128, by omega⟩) (fun b hb => by
      match b with
      | ⟨0, _⟩ => rfl
      | ⟨1, _⟩ => exact absurd rfl hb) (by show (k.val - 128) + 128 = k.val; omega)

/-- The bias row broadcast down the rows, at (r, n): the bias at n. -/
theorem bias_apply (b : Vec Ideal S2048 .f32) (r : Fin 256) (n : Fin 2048) :
    broadcastTo S256x2048 (shapeCast S1x2048 (shapeCast S2048 b shapeCasts_S2048_S2048) shapeCasts_S2048_S1x2048) broadcasts_S1x2048_S256x2048 (ix2 r n)
      = b (ix1 n) := by
  rw [broadcastTo_1b_ab_apply, shapeCast_a_1a_apply, shapeCast_self]

/-- The hidden block with its unit axis dropped, at (r, j): the block at (0, r, j). -/
theorem hid_apply (h : Vec Ideal S1x256x512 .f32) (r : Fin 256) (j : Fin 512) :
    (truncf (F := Ideal) .bf16 (shapeCast S256x512 h shapeCasts_S1x256x512_S256x512) bitsLt_bf16_f32) (ix2 r j)
      = h (ix3 (0 : Fin 1) r j) := by
  rw [truncf_apply, shapeCast_1ab_ab_apply]

/-! ### The pre-activations -/

/-- Row r's 2048 layer-0 pre-activations from the body's five operands: the row [one-hot · table, h] against the
    stacked matrix, plus the bias. -/
def pre0 (v0 : Vec Ideal S256x1 .i32) (v8 : Vec Ideal S128x128 .bf16) (v12 : Vec Ideal S1x256x512 .f32) (v18 : Vec Ideal S640x2048 .bf16) (v21 : Vec Ideal S2048 .f32) (r : Fin 256) : Fin 2048 → EReal :=
  gatesK (catRow (N := 640) rfl (embK (v0 (ix2 r (0 : Fin 1))) fun v e => v8 (ix2 v e)) (fun k => v12 (ix3 (0 : Fin 1) r k))) (fun k n => v18 (ix2 k n)) (fun n => v21 (ix1 n))

/-- The pre-activation payload at (r, n). -/
theorem k0_pay5_apply (v0 : Vec Ideal S256x1 .i32) (v8 : Vec Ideal S128x128 .bf16) (v12 : Vec Ideal S1x256x512 .f32) (v18 : Vec Ideal S640x2048 .bf16) (v21 : Vec Ideal S2048 .f32) (r : Fin 256) (n : Fin 2048) :
    k0_pay5 (F := Ideal) v0 v8 v12 v18 v21 (ix2 r n) = pre0 v0 v8 v12 v18 v21 r n := by
  unfold k0_pay5 pre0 gatesK
  rw [addf_apply, matmul_gates_apply, bias_apply]
  refine congrArg (· + _) (Finset.sum_congr rfl fun k _ => ?_)
  rw [cat_apply, shapeCast_self v18]
  refine congrArg (· * _) ?_
  congr 1
  · funext e
    rw [truncf_apply, matmul_emb_apply]
    unfold embK
    refine Finset.sum_congr rfl fun v _ => ?_
    rw [onehot_apply, shapeCast_self v8]
  · funext j
    rw [hid_apply]

/-! ### The quarters and the gates -/

/-- The third quarter (the cell gate's pre-activations) at (r, j). -/
theorem k0_pay6_apply (v0 : Vec Ideal S256x1 .i32) (v8 : Vec Ideal S128x128 .bf16) (v12 : Vec Ideal S1x256x512 .f32) (v18 : Vec Ideal S640x2048 .bf16) (v21 : Vec Ideal S2048 .f32) (r : Fin 256) (j : Fin 512) :
    k0_pay6 (F := Ideal) v0 v8 v12 v18 v21 (ix2 r j) = pre0 v0 v8 v12 v18 v21 r (quarter 2 j) := by
  unfold k0_pay6
  rw [slice2_axis1_apply 1024 _ slices_S256x2048_o0_1024_S256x512 r j (quarter 2 j) (by show 2 * 512 + j.val = 1024 + j.val; omega), k0_pay5_apply]

/-- The fourth quarter (the output gate's pre-activations) at (r, j). -/
theorem k0_pay7_apply (v0 : Vec Ideal S256x1 .i32) (v8 : Vec Ideal S128x128 .bf16) (v12 : Vec Ideal S1x256x512 .f32) (v18 : Vec Ideal S640x2048 .bf16) (v21 : Vec Ideal S2048 .f32) (r : Fin 256) (j : Fin 512) :
    k0_pay7 (F := Ideal) v0 v8 v12 v18 v21 (ix2 r j) = pre0 v0 v8 v12 v18 v21 r (quarter 3 j) := by
  unfold k0_pay7
  rw [slice2_axis1_apply 1536 _ slices_S256x2048_o0_1536_S256x512 r j (quarter 3 j) (by show 3 * 512 + j.val = 1536 + j.val; omega), k0_pay5_apply]

/-- The input gate at (r, j): the kernel's logistic function of the first quarter. -/
theorem k0_pay8_apply (v0 : Vec Ideal S256x1 .i32) (v8 : Vec Ideal S128x128 .bf16) (v12 : Vec Ideal S1x256x512 .f32) (v18 : Vec Ideal S640x2048 .bf16) (v21 : Vec Ideal S2048 .f32) (r : Fin 256) (j : Fin 512) :
    k0_pay8 (F := Ideal) v0 v8 v12 v18 v21 (ix2 r j) = sigk (pre0 v0 v8 v12 v18 v21 r (quarter 0 j)) := by
  unfold k0_pay8 sigk
  show half * (Ideal.tanh (half * extractStridedSlice S256x512 ![0, 0] (k0_pay5 (F := Ideal) v0 v8 v12 v18 v21) slices_S256x2048_o0_0_S256x512 (ix2 r j)) + one) = _
  rw [slice2_axis1_apply 0 _ slices_S256x2048_o0_0_S256x512 r j (quarter 0 j) (by show 0 * 512 + j.val = 0 + j.val; omega), k0_pay5_apply]

/-- The inner half of the forget gate at (r, j): tanh of half the second quarter. -/
theorem k0_pay9_apply (v0 : Vec Ideal S256x1 .i32) (v8 : Vec Ideal S128x128 .bf16) (v12 : Vec Ideal S1x256x512 .f32) (v18 : Vec Ideal S640x2048 .bf16) (v21 : Vec Ideal S2048 .f32) (r : Fin 256) (j : Fin 512) :
    k0_pay9 (F := Ideal) v0 v8 v12 v18 v21 (ix2 r j) = Ideal.tanh (half * pre0 v0 v8 v12 v18 v21 r (quarter 1 j)) := by
  unfold k0_pay9
  show Ideal.tanh (half * extractStridedSlice S256x512 ![0, 512] (k0_pay5 (F := Ideal) v0 v8 v12 v18 v21) slices_S256x2048_o0_512_S256x512 (ix2 r j)) = _
  rw [slice2_axis1_apply 512 _ slices_S256x2048_o0_512_S256x512 r j (quarter 1 j) (by show 1 * 512 + j.val = 512 + j.val; omega), k0_pay5_apply]

/-- The cell block with its unit axis dropped, at (r, j): the block at (0, r, j). -/
theorem k0_pay4_apply (v14 : Vec Ideal S1x256x512 .f32) (r : Fin 256) (j : Fin 512) :
    k0_pay4 (F := Ideal) v14 (ix2 r j) = v14 (ix3 (0 : Fin 1) r j) := by
  unfold k0_pay4
  rw [shapeCast_1ab_ab_apply]

/-- The new cell value at an entry: ½(t + 1) · c + i · tanh g, with t the inner half of the forget gate. -/
theorem k0_pay10_apply (v15 v28 v36 v39 : FVec Ideal S256x512 .f32) (i : S256x512.Idx) :
    k0_pay10 v15 v28 v36 v39 i = half * (v39 i + one) * v15 i + v36 i * Ideal.tanh (v28 i) := rfl

/-- The new hidden value at an entry: the kernel's logistic function of the output gate's pre-activation times
    tanh of the new cell value. -/
theorem k0_pay11_apply (v15 v28 v29 v36 v39 : FVec Ideal S256x512 .f32) (i : S256x512.Idx) :
    k0_pay11 v15 v28 v29 v36 v39 i = sigk (v29 i) * Ideal.tanh (k0_pay10 v15 v28 v36 v39 i) := rfl

/-! ### The loads -/

/-- The offsets of a whole-buffer access of rank 2 are zero. -/
theorem zeros2 : (![0, 0] : Fin 2 → Nat) = fun _ => 0 := funext fun a => by
  match a with
  | ⟨0, _⟩ => rfl
  | ⟨1, _⟩ => rfl
/-- The offset of a whole-buffer access of rank 1 is zero. -/
theorem zeros1 : (![0] : Fin 1 → Nat) = fun _ => 0 := funext fun a => by
  match a with
  | ⟨0, _⟩ => rfl

/-- The load of the first [1,256,512] slab of a [3,256,512] buffer reads it at (0, r, k). -/
theorem ld_slab0 (x : Vec Ideal S3x256x512 .f32) (r : Fin 256) (k : Fin 512) :
    View.ld x r0_2 (ix3 (0 : Fin 1) r k) = x (ix3 (0 : Fin 3) r k) := by
  show x (r0_2.idx (ix3 (0 : Fin 1) r k)) = _
  congr 1
  funext a
  apply Fin.ext
  match a with
  | ⟨0, _⟩ => rfl
  | ⟨1, _⟩ => show 0 + 1 * r.val = r.val; omega
  | ⟨2, _⟩ => show 0 + 1 * k.val = k.val; omega

/-- The pre-activations of the loaded operands are the block row's. -/
theorem pre0_loads (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) :
    pre0 (View.ld x0 r0_0) (View.ld x3 r0_1) (View.ld x1 r0_2) (View.ld x4 r0_3) (View.ld x5 r0_4) r
      = (blockRow x0 x1 x2 x3 x4 x5 x6 x7 x8 x9 x10 x11 r).g0 := by
  unfold pre0
  rw [View.ld_unit_zero (S := S256x1) zeros2, View.ld_unit_zero (S := S128x128) zeros2, View.ld_unit_zero (S := S640x2048) zeros2, View.ld_unit_zero (S := S2048) zeros1]
  have h : (fun k => View.ld x1 r0_2 (ix3 (0 : Fin 1) r k)) = fun k => x1 (ix3 (0 : Fin 3) r k) :=
    funext fun k => ld_slab0 x1 r k
  rw [h]
  rfl

/-- Layer 0's new cell value at (r, j). -/
theorem c0_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay10 (F := Ideal) (k0_pay4 (View.ld x2 r0_2)) (k0_pay6 (View.ld x0 r0_0) (View.ld x3 r0_1) (View.ld x1 r0_2) (View.ld x4 r0_3) (View.ld x5 r0_4)) (k0_pay8 (View.ld x0 r0_0) (View.ld x3 r0_1) (View.ld x1 r0_2) (View.ld x4 r0_3) (View.ld x5 r0_4)) (k0_pay9 (View.ld x0 r0_0) (View.ld x3 r0_1) (View.ld x1 r0_2) (View.ld x4 r0_3) (View.ld x5 r0_4)) (ix2 r j)
      = (blockRow x0 x1 x2 x3 x4 x5 x6 x7 x8 x9 x10 x11 r).c0 j := by
  rw [k0_pay10_apply, k0_pay9_apply, k0_pay8_apply, k0_pay6_apply, k0_pay4_apply, ld_slab0, pre0_loads x0 x1 x2 x3 x4 x5 x6 x7 x8 x9 x10 x11 r]
  rfl

/-- Layer 0's new hidden value at (r, j). -/
theorem h0_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay11 (F := Ideal) (k0_pay4 (View.ld x2 r0_2)) (k0_pay6 (View.ld x0 r0_0) (View.ld x3 r0_1) (View.ld x1 r0_2) (View.ld x4 r0_3) (View.ld x5 r0_4)) (k0_pay7 (View.ld x0 r0_0) (View.ld x3 r0_1) (View.ld x1 r0_2) (View.ld x4 r0_3) (View.ld x5 r0_4)) (k0_pay8 (View.ld x0 r0_0) (View.ld x3 r0_1) (View.ld x1 r0_2) (View.ld x4 r0_3) (View.ld x5 r0_4)) (k0_pay9 (View.ld x0 r0_0) (View.ld x3 r0_1) (View.ld x1 r0_2) (View.ld x4 r0_3) (View.ld x5 r0_4)) (ix2 r j)
      = (blockRow x0 x1 x2 x3 x4 x5 x6 x7 x8 x9 x10 x11 r).h0 j := by
  rw [k0_pay11_apply, c0_apply, k0_pay7_apply, pre0_loads x0 x1 x2 x3 x4 x5 x6 x7 x8 x9 x10 x11 r]
  rfl

end Cert.KernelIdeal.Hand

end
-- ==== Proof.KernelRows.lean ====
/-
  What the kernel body leaves in its three output blocks, entry by entry: the logits, new hidden and new cell values
  of the block's rows, in the kernel's spelling.

  Layer 0's two facts are taken from the module on layer 0. Here: the slab loads and the casts between a [1,256,512]
  slab and a [256,512] block; the product of a joined row [a, b] with a stacked [1024,2048] matrix as a sum over the
  1024 positions; the bias row spread over the rows; the cell update f ∘ c + i ∘ tanh g and the hidden update
  o ∘ tanh c' on the four quarters of the pre-activations, written once and used by layers 1 and 2; the read-out
  product; and last the three output buffers, each read as ONE function of the buffer index of which every stored
  slab is a block.
-/
import proofs.«409252_j3470333575609_2_alg».proof.Proof.KernelLayer0

noncomputable section

namespace Cert.KernelIdeal.Hand

open Cert.KernelIdeal Cert.KernelIdeal.Gen Idealize.ShloMosaic Idealize.ShloMosaic.ValueIdx Cert.Lstm

/-! ### Slabs, casts and the bias row -/

/-- Slab 1 of a [3,256,512] array: its index (u, r, k) is the array's (1, r, k). -/
theorem slab1_idx (u : Fin 1) (r : Fin 256) (k : Fin 512) : r0_5.idx (ix3 u r k) = ix3 (1 : Fin 3) r k := by
  funext a
  refine Fin.ext ?_
  have hu : u.val = 0 := by omega
  match a with
  | ⟨0, _⟩ => show 1 + 1 * u.val = 1; omega
  | ⟨1, _⟩ => show 0 + 1 * r.val = r.val; omega
  | ⟨2, _⟩ => show 0 + 1 * k.val = k.val; omega

/-- Slab 2 of a [3,256,512] array: its index (u, r, k) is the array's (2, r, k). -/
theorem slab2_idx (u : Fin 1) (r : Fin 256) (k : Fin 512) : r0_7.idx (ix3 u r k) = ix3 (2 : Fin 3) r k := by
  funext a
  refine Fin.ext ?_
  have hu : u.val = 0 := by omega
  match a with
  | ⟨0, _⟩ => show 2 + 1 * u.val = 2; omega
  | ⟨1, _⟩ => show 0 + 1 * r.val = r.val; omega
  | ⟨2, _⟩ => show 0 + 1 * k.val = k.val; omega

/-- Slab 0 of a [3,256,512] array: its index (u, r, k) is the array's (0, r, k). -/
theorem slab0_idx (u : Fin 1) (r : Fin 256) (k : Fin 512) : r0_2.idx (ix3 u r k) = ix3 (0 : Fin 3) r k := by
  funext a
  refine Fin.ext ?_
  have hu : u.val = 0 := by omega
  match a with
  | ⟨0, _⟩ => show 0 + 1 * u.val = 0; omega
  | ⟨1, _⟩ => show 0 + 1 * r.val = r.val; omega
  | ⟨2, _⟩ => show 0 + 1 * k.val = k.val; omega

/-- A load of slab 1 reads, at (u, r, k), the array at (1, r, k). -/
theorem ld_slab1 (x : Vec Ideal S3x256x512 .f32) (u : Fin 1) (r : Fin 256) (k : Fin 512) :
    View.ld x r0_5 (ix3 u r k) = x (ix3 (1 : Fin 3) r k) := congrArg x (slab1_idx u r k)

/-- A load of slab 2 reads, at (u, r, k), the array at (2, r, k). -/
theorem ld_slab2 (x : Vec Ideal S3x256x512 .f32) (u : Fin 1) (r : Fin 256) (k : Fin 512) :
    View.ld x r0_7 (ix3 u r k) = x (ix3 (2 : Fin 3) r k) := congrArg x (slab2_idx u r k)

/-- A [1,256,512] slab viewed as [256,512] reads, at (r, k), the slab at (0, r, k). -/
theorem slab_cast_apply (v : Vec Ideal S1x256x512 .f32) (r : Fin 256) (k : Fin 512) :
    shapeCast S256x512 v shapeCasts_S1x256x512_S256x512 (ix2 r k) = v (ix3 (0 : Fin 1) r k) :=
  shapeCast_1ab_ab_apply v shapeCasts_S1x256x512_S256x512 r k

/-- A [256,512] block stored as a [1,256,512] slab reads, at (u, r, k), the block at (r, k). -/
theorem block_cast_apply (v : FVec Ideal S256x512 .f32) (u : Fin 1) (r : Fin 256) (k : Fin 512) :
    shapeCast S1x256x512 v shapeCasts_S256x512_S1x256x512 (ix3 u r k) = v (ix2 r k) :=
  shapeCast_ab_1ab_apply v shapeCasts_S256x512_S1x256x512 u r k

/-- The bias row [2048], cast to [1,2048] and spread over the 256 rows, reads, at (r, n), the bias at n. -/
theorem bias_row_apply (b : Vec Ideal S2048 .f32) (r : Fin 256) (n : Fin 2048) :
    broadcastTo S256x2048 (shapeCast S1x2048 (shapeCast S2048 b shapeCasts_S2048_S2048) shapeCasts_S2048_S1x2048)
      broadcasts_S1x2048_S256x2048 (ix2 r n) = b (ix1 n) := by
  rw [shapeCast_self]
  refine (broadcastTo_1b_ab_apply _ broadcasts_S1x2048_S256x2048 r n).trans ?_
  exact shapeCast_a_1a_apply b shapeCasts_S2048_S1x2048 0 n

/-! ### The product [a, b] · W for a stacked [1024,2048] matrix -/

/-- The left operand's row coordinate in the [256,1024]×[1024,2048] product at output (r, n) is r. -/
theorem lhs_g1024_0 (r : Fin 256) (n : Fin 2048) (q : dot_S256x1024_S1024x2048_S256x2048_1_0_0_1_n_n.contr.Idx) :
    (dot_S256x1024_S1024x2048_S256x2048_1_0_0_1_n_n.lhsIdx (ix2 r n) q 0).val = r.val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl

/-- The left operand's column coordinate there is the contraction position. -/
theorem lhs_g1024_1 (r : Fin 256) (n : Fin 2048) (q : dot_S256x1024_S1024x2048_S256x2048_1_0_0_1_n_n.contr.Idx) :
    (dot_S256x1024_S1024x2048_S256x2048_1_0_0_1_n_n.lhsIdx (ix2 r n) q 1).val = (q ⟨0, by decide⟩).val :=
  dot_S256x1024_S1024x2048_S256x2048_1_0_0_1_n_n.lhsIdx_val_of_single rfl (ix2 r n) q

/-- The right operand's row coordinate there is the contraction position. -/
theorem rhs_g1024_0 (r : Fin 256) (n : Fin 2048) (q : dot_S256x1024_S1024x2048_S256x2048_1_0_0_1_n_n.contr.Idx) :
    (dot_S256x1024_S1024x2048_S256x2048_1_0_0_1_n_n.rhsIdx (ix2 r n) q 0).val = (q ⟨0, by decide⟩).val :=
  dot_S256x1024_S1024x2048_S256x2048_1_0_0_1_n_n.rhsIdx_val_of_single rfl (ix2 r n) q

/-- The right operand's column coordinate there is n. -/
theorem rhs_g1024_1 (r : Fin 256) (n : Fin 2048) (q : dot_S256x1024_S1024x2048_S256x2048_1_0_0_1_n_n.contr.Idx) :
    (dot_S256x1024_S1024x2048_S256x2048_1_0_0_1_n_n.rhsIdx (ix2 r n) q 1).val = n.val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product of the row [a, b] (two 512-wide halves laid end to end) with a [1024,2048] matrix onto a zero
    accumulator, at (r, n): the sum over the 1024 positions of the joined row times the matrix's column n. -/
theorem prod1024_apply (a b : FVec Ideal S256x512 .bf16) (W : FVec Ideal S1024x2048 .bf16) (r : Fin 256) (n : Fin 2048)
    (A B : Fin 512 → EReal) (hA : ∀ k, a (ix2 r k) = A k) (hB : ∀ k, b (ix2 r k) = B k) :
    matmul dot_S256x1024_S1024x2048_S256x2048_1_0_0_1_n_n none
        (concatenate S256x1024 1 [⟨S256x512, a⟩, ⟨S256x512, b⟩] concatenates_S256x512_S256x512_S256x1024_d1)
        (shapeCast S1024x2048 W shapeCasts_S1024x2048_S1024x2048) (constant (F := Ideal) S256x2048 .f32 0x00000000#32) (ix2 r n)
      = ∑ k : Fin 1024, catRow (N := 1024) rfl A B k * W (ix2 k n) := by
  rw [shapeCast_self]
  refine (Ideal.matmul_constant_zero_apply dot_S256x1024_S1024x2048_S256x2048_1_0_0_1_n_n none _ _ (ix2 r n)).trans ?_
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have er : dot_S256x1024_S1024x2048_S256x2048_1_0_0_1_n_n.rhsIdx (ix2 r n) ((contrEquiv1 dot_S256x1024_S1024x2048_S256x2048_1_0_0_1_n_n 1024 rfl rfl).symm k) = ix2 k n := funext fun ax => Fin.ext (by
    match ax with
    | ⟨0, _⟩ => exact (rhs_g1024_0 r n _).trans hk
    | ⟨1, _⟩ => exact rhs_g1024_1 r n _)
  rw [er]
  congr 1
  by_cases hlt : k.val < 512
  · rw [catRow, dif_pos hlt, ← hA]
    refine concatenate_pair_apply_left (1 : Fin S256x1024.rank) a b _ _ rfl (ix2 r ⟨k.val, hlt⟩) fun ax => ?_
    match ax with
    | ⟨0, _⟩ => show r.val = _; exact (lhs_g1024_0 r n _).symm
    | ⟨1, _⟩ => show k.val = _; exact ((lhs_g1024_1 r n _).trans hk).symm
  · rw [catRow, dif_neg hlt, ← hB]
    refine concatenate_pair_apply_right (1 : Fin S256x1024.rank) a b _ _ rfl rfl (ix2 r ⟨k.val - 512, by have := k.isLt; omega⟩) (fun ax hne => ?_) ?_
    · match ax with
      | ⟨0, _⟩ => show r.val = _; exact (lhs_g1024_0 r n _).symm
      | ⟨1, _⟩ => exact absurd rfl hne
    · have h1 := (lhs_g1024_1 r n ((contrEquiv1 dot_S256x1024_S1024x2048_S256x2048_1_0_0_1_n_n 1024 rfl rfl).symm k)).trans hk
      show (k.val - 512) + 512 = _
      rw [h1]; omega

/-! ### The cell and hidden updates on the quarters of the pre-activations -/

/-- The columns from 0 of the 2048 pre-activations are quarter 0. -/
theorem quarter0_apply (G : FVec Ideal S256x2048 .f32) (r : Fin 256) (j : Fin 512) :
    extractStridedSlice S256x512 ![0, 0] G slices_S256x2048_o0_0_S256x512 (ix2 r j) = G (ix2 r (quarter 0 j)) :=
  slice2_axis1_apply 0 G slices_S256x2048_o0_0_S256x512 r j (quarter 0 j) (by show 0 * 512 + j.val = 0 + j.val; omega)

/-- The columns from 512 of the 2048 pre-activations are quarter 1. -/
theorem quarter1_apply (G : FVec Ideal S256x2048 .f32) (r : Fin 256) (j : Fin 512) :
    extractStridedSlice S256x512 ![0, 512] G slices_S256x2048_o0_512_S256x512 (ix2 r j) = G (ix2 r (quarter 1 j)) :=
  slice2_axis1_apply 512 G slices_S256x2048_o0_512_S256x512 r j (quarter 1 j) (by show 1 * 512 + j.val = 512 + j.val; omega)

/-- The columns from 1024 of the 2048 pre-activations are quarter 2. -/
theorem quarter2_apply (G : FVec Ideal S256x2048 .f32) (r : Fin 256) (j : Fin 512) :
    extractStridedSlice S256x512 ![0, 1024] G slices_S256x2048_o0_1024_S256x512 (ix2 r j) = G (ix2 r (quarter 2 j)) :=
  slice2_axis1_apply 1024 G slices_S256x2048_o0_1024_S256x512 r j (quarter 2 j) (by show 2 * 512 + j.val = 1024 + j.val; omega)

/-- The columns from 1536 of the 2048 pre-activations are quarter 3. -/
theorem quarter3_apply (G : FVec Ideal S256x2048 .f32) (r : Fin 256) (j : Fin 512) :
    extractStridedSlice S256x512 ![0, 1536] G slices_S256x2048_o0_1536_S256x512 (ix2 r j) = G (ix2 r (quarter 3 j)) :=
  slice2_axis1_apply 1536 G slices_S256x2048_o0_1536_S256x512 r j (quarter 3 j) (by show 3 * 512 + j.val = 1536 + j.val; omega)

/-- The kernel's gate ½ · (tanh (½ g) + 1) on a quarter of the pre-activations, entry by entry. -/
theorem gate_apply (Q : FVec Ideal S256x512 .f32) (i : S256x512.Idx) :
    mulf (broadcast S256x512 (Scalar.ofBits (F := Ideal) .f32 0x3F000000#32))
      (addf (tanh (mulf (broadcast S256x512 (Scalar.ofBits (F := Ideal) .f32 0x3F000000#32)) Q))
        (broadcast S256x512 (Scalar.ofBits (F := Ideal) .f32 0x3F800000#32))) i = sigk (Q i) := rfl

/-- The new cell chain f ∘ c + i ∘ tanh g over the pre-activations G and the old cell C, at (r, j). -/
theorem cell_chain_apply (G : FVec Ideal S256x2048 .f32) (C : FVec Ideal S256x512 .f32) (r : Fin 256) (j : Fin 512) :
    addf (mulf (mulf (broadcast S256x512 (Scalar.ofBits (F := Ideal) .f32 0x3F000000#32))
            (addf (tanh (mulf (broadcast S256x512 (Scalar.ofBits (F := Ideal) .f32 0x3F000000#32))
              (extractStridedSlice S256x512 ![0, 512] G slices_S256x2048_o0_512_S256x512)))
              (broadcast S256x512 (Scalar.ofBits (F := Ideal) .f32 0x3F800000#32)))) C)
      (mulf (mulf (broadcast S256x512 (Scalar.ofBits (F := Ideal) .f32 0x3F000000#32))
            (addf (tanh (mulf (broadcast S256x512 (Scalar.ofBits (F := Ideal) .f32 0x3F000000#32))
              (extractStridedSlice S256x512 ![0, 0] G slices_S256x2048_o0_0_S256x512)))
              (broadcast S256x512 (Scalar.ofBits (F := Ideal) .f32 0x3F800000#32))))
        (tanh (extractStridedSlice S256x512 ![0, 1024] G slices_S256x2048_o0_1024_S256x512))) (ix2 r j)
      = cNew sigk (fun n => G (ix2 r n)) (fun j => C (ix2 r j)) j := by
  show sigk (extractStridedSlice S256x512 ![0, 512] G slices_S256x2048_o0_512_S256x512 (ix2 r j)) * C (ix2 r j)
      + sigk (extractStridedSlice S256x512 ![0, 0] G slices_S256x2048_o0_0_S256x512 (ix2 r j))
        * Ideal.tanh (extractStridedSlice S256x512 ![0, 1024] G slices_S256x2048_o0_1024_S256x512 (ix2 r j)) = _
  rw [quarter1_apply, quarter0_apply, quarter2_apply]
  rfl

/-- The new hidden chain o ∘ tanh c' over the pre-activations G and the new cell C', at (r, j). -/
theorem hidden_chain_apply (G : FVec Ideal S256x2048 .f32) (C' : FVec Ideal S256x512 .f32) (r : Fin 256) (j : Fin 512) :
    mulf (mulf (broadcast S256x512 (Scalar.ofBits (F := Ideal) .f32 0x3F000000#32))
            (addf (tanh (mulf (broadcast S256x512 (Scalar.ofBits (F := Ideal) .f32 0x3F000000#32))
              (extractStridedSlice S256x512 ![0, 1536] G slices_S256x2048_o0_1536_S256x512)))
              (broadcast S256x512 (Scalar.ofBits (F := Ideal) .f32 0x3F800000#32))))
        (tanh C') (ix2 r j)
      = sigk (G (ix2 r (quarter 3 j))) * Ideal.tanh (C' (ix2 r j)) := by
  show sigk (extractStridedSlice S256x512 ![0, 1536] G slices_S256x2048_o0_1536_S256x512 (ix2 r j)) * Ideal.tanh (C' (ix2 r j)) = _
  rw [quarter3_apply]

/-- Layer 1's new cell at (r, j), over the pre-activation parts it is handed. -/
theorem pay18_apply (v67 : FVec Ideal S256x512 .f32) (v72 v76 : FVec Ideal S256x2048 .f32) (r : Fin 256) (j : Fin 512) :
    k0_pay18 v67 v72 v76 (ix2 r j) = cNew sigk (fun n => k0_pay17 v72 v76 (ix2 r n)) (fun j => v67 (ix2 r j)) j := by
  unfold k0_pay18
  exact cell_chain_apply (k0_pay17 v72 v76) v67 r j

/-- Layer 1's new hidden value at (r, j). -/
theorem pay19_apply (v67 : FVec Ideal S256x512 .f32) (v72 v76 : FVec Ideal S256x2048 .f32) (r : Fin 256) (j : Fin 512) :
    k0_pay19 v67 v72 v76 (ix2 r j) = hNew sigk (fun n => k0_pay17 v72 v76 (ix2 r n)) (fun j => v67 (ix2 r j)) j := by
  unfold k0_pay19
  refine (hidden_chain_apply (k0_pay17 v72 v76) (k0_pay18 v67 v72 v76) r j).trans ?_
  rw [pay18_apply]
  rfl

/-! ### The two upper layers over the operands they are handed -/

/-- Layer 1's pre-activations at (r, n): the row [h₀', h₁] against the stacked matrix, plus the bias, whatever the
    two half rows are known to be. -/
theorem pay17_apply (v15 v28 v29 v36 v39 : FVec Ideal S256x512 .f32) (v64 : Vec Ideal S1x256x512 .f32)
    (v70 : FVec Ideal S1024x2048 .bf16) (v73 : Vec Ideal S2048 .f32) (r : Fin 256) (n : Fin 2048) (A B : Fin 512 → EReal)
    (hA : ∀ k, k0_pay11 v15 v28 v29 v36 v39 (ix2 r k) = A k) (hB : ∀ k, v64 (ix3 (0 : Fin 1) r k) = B k) :
    k0_pay17 (k0_pay15 v15 v28 v29 v36 v39 v64 v70) (k0_pay16 v73) (ix2 r n)
      = gatesK (catRow (N := 1024) rfl A B) (fun k n => v70 (ix2 k n)) (fun n => v73 (ix1 n)) n := by
  unfold k0_pay17 k0_pay15 k0_pay16
  rw [addf_apply, bias_row_apply]
  exact congrArg (· + v73 (ix1 n))
    (prod1024_apply (truncf .bf16 (k0_pay11 v15 v28 v29 v36 v39) bitsLt_bf16_f32)
      (truncf .bf16 (shapeCast S256x512 v64 shapeCasts_S1x256x512_S256x512) bitsLt_bf16_f32) v70 r n A B hA
      (fun k => (slab_cast_apply v64 r k).trans (hB k)))

/-- Layer 2's pre-activations at (r, n): the row [h₁', h₂] against the stacked matrix, plus the bias. -/
theorem pay23_apply (v115 : FVec Ideal S256x512 .bf16) (v116 : Vec Ideal S1x256x512 .f32)
    (v122 : FVec Ideal S1024x2048 .bf16) (v125 : Vec Ideal S2048 .f32) (r : Fin 256) (n : Fin 2048) (A B : Fin 512 → EReal)
    (hA : ∀ k, v115 (ix2 r k) = A k) (hB : ∀ k, v116 (ix3 (0 : Fin 1) r k) = B k) :
    k0_pay23 v115 v116 v122 v125 (ix2 r n)
      = gatesK (catRow (N := 1024) rfl A B) (fun k n => v122 (ix2 k n)) (fun n => v125 (ix1 n)) n := by
  unfold k0_pay23
  rw [addf_apply, bias_row_apply]
  exact congrArg (· + v125 (ix1 n))
    (prod1024_apply v115 (truncf .bf16 (shapeCast S256x512 v116 shapeCasts_S1x256x512_S256x512) bitsLt_bf16_f32) v122 r n A B hA
      (fun k => (slab_cast_apply v116 r k).trans (hB k)))

/-- Layer 2's new cell at (r, j). -/
theorem pay24_apply (v115 : FVec Ideal S256x512 .bf16) (v116 v118 : Vec Ideal S1x256x512 .f32)
    (v122 : FVec Ideal S1024x2048 .bf16) (v125 : Vec Ideal S2048 .f32) (r : Fin 256) (j : Fin 512) :
    k0_pay24 v115 v116 v118 v122 v125 (ix2 r j)
      = cNew sigk (fun n => k0_pay23 v115 v116 v122 v125 (ix2 r n)) (fun j => v118 (ix3 (0 : Fin 1) r j)) j := by
  unfold k0_pay24
  refine (cell_chain_apply (k0_pay23 v115 v116 v122 v125) (shapeCast S256x512 v118 shapeCasts_S1x256x512_S256x512) r j).trans ?_
  exact congrArg (fun c => cNew sigk (fun n => k0_pay23 v115 v116 v122 v125 (ix2 r n)) c j)
    (funext fun j => slab_cast_apply v118 r j)

/-- Layer 2's new hidden value at (r, j). -/
theorem pay25_apply (v115 : FVec Ideal S256x512 .bf16) (v116 v118 : Vec Ideal S1x256x512 .f32)
    (v122 : FVec Ideal S1024x2048 .bf16) (v125 : Vec Ideal S2048 .f32) (r : Fin 256) (j : Fin 512) :
    k0_pay25 v115 v116 v118 v122 v125 (ix2 r j)
      = hNew sigk (fun n => k0_pay23 v115 v116 v122 v125 (ix2 r n)) (fun j => v118 (ix3 (0 : Fin 1) r j)) j := by
  unfold k0_pay25
  refine (hidden_chain_apply (k0_pay23 v115 v116 v122 v125) (k0_pay24 v115 v116 v118 v122 v125) r j).trans ?_
  rw [pay24_apply]
  rfl

/-! ### The read-out product -/

/-- The left operand's row coordinate in the [256,512]×[512,128] product at output (r, v) is r. -/
theorem lhs_out_0 (r : Fin 256) (v : Fin 128) (q : dot_S256x512_S512x128_S256x128_1_0_0_1_n_n.contr.Idx) :
    (dot_S256x512_S512x128_S256x128_1_0_0_1_n_n.lhsIdx (ix2 r v) q 0).val = r.val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl

/-- The left operand's column coordinate there is the contraction position. -/
theorem lhs_out_1 (r : Fin 256) (v : Fin 128) (q : dot_S256x512_S512x128_S256x128_1_0_0_1_n_n.contr.Idx) :
    (dot_S256x512_S512x128_S256x128_1_0_0_1_n_n.lhsIdx (ix2 r v) q 1).val = (q ⟨0, by decide⟩).val :=
  dot_S256x512_S512x128_S256x128_1_0_0_1_n_n.lhsIdx_val_of_single rfl (ix2 r v) q

/-- The right operand's row coordinate there is the contraction position. -/
theorem rhs_out_0 (r : Fin 256) (v : Fin 128) (q : dot_S256x512_S512x128_S256x128_1_0_0_1_n_n.contr.Idx) :
    (dot_S256x512_S512x128_S256x128_1_0_0_1_n_n.rhsIdx (ix2 r v) q 0).val = (q ⟨0, by decide⟩).val :=
  dot_S256x512_S512x128_S256x128_1_0_0_1_n_n.rhsIdx_val_of_single rfl (ix2 r v) q

/-- The right operand's column coordinate there is v. -/
theorem rhs_out_1 (r : Fin 256) (v : Fin 128) (q : dot_S256x512_S512x128_S256x128_1_0_0_1_n_n.contr.Idx) :
    (dot_S256x512_S512x128_S256x128_1_0_0_1_n_n.rhsIdx (ix2 r v) q 1).val = v.val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The read-out at (r, v): the hidden row against column v of the read-out matrix, plus the bias, whatever the
    hidden row is known to be. -/
theorem pay3_apply (v160 : FVec Ideal S256x512 .f32) (v168 : FVec Ideal S512x128 .bf16) (v171 : Vec Ideal S128 .f32)
    (r : Fin 256) (v : Fin 128) (A : Fin 512 → EReal) (hA : ∀ k, v160 (ix2 r k) = A k) :
    k0_pay3 v160 v168 v171 (ix2 r v) = (∑ k : Fin 512, A k * v168 (ix2 k v)) + v171 (ix1 v) := by
  unfold k0_pay3
  rw [addf_apply, shapeCast_self]
  refine congrArg₂ (· + ·) ?_ ?_
  · refine (Ideal.matmul_constant_zero_apply dot_S256x512_S512x128_S256x128_1_0_0_1_n_n none (truncf .bf16 v160 bitsLt_bf16_f32) v168 (ix2 r v)).trans ?_
    rw [← Equiv.sum_comp (contrEquiv1 dot_S256x512_S512x128_S256x128_1_0_0_1_n_n 512 rfl rfl).symm]
    refine Finset.sum_congr rfl fun k _ => ?_
    have hk := contrEquiv1_symm_val dot_S256x512_S512x128_S256x128_1_0_0_1_n_n 512 rfl rfl k
    have el : dot_S256x512_S512x128_S256x128_1_0_0_1_n_n.lhsIdx (ix2 r v) ((contrEquiv1 dot_S256x512_S512x128_S256x128_1_0_0_1_n_n 512 rfl rfl).symm k) = ix2 r k := funext fun ax => Fin.ext (by
      match ax with
      | ⟨0, _⟩ => exact lhs_out_0 r v _
      | ⟨1, _⟩ => exact (lhs_out_1 r v _).trans hk)
    have er : dot_S256x512_S512x128_S256x128_1_0_0_1_n_n.rhsIdx (ix2 r v) ((contrEquiv1 dot_S256x512_S512x128_S256x128_1_0_0_1_n_n 512 rfl rfl).symm k) = ix2 k v := funext fun ax => Fin.ext (by
      match ax with
      | ⟨0, _⟩ => exact (rhs_out_0 r v _).trans hk
      | ⟨1, _⟩ => exact rhs_out_1 r v _)
    rw [el, er]
    exact congrArg (· * v168 (ix2 k v)) (hA k)
  · refine (broadcastTo_1b_ab_apply _ broadcasts_S1x128_S256x128 r v).trans ?_
    exact shapeCast_a_1a_apply v171 shapeCasts_S128_S1x128 0 v

/-- A rank-2 offset row of zeros. -/
theorem offsets2_zero : (![0, 0] : Fin 2 → Nat) = fun _ => 0 := funext fun a => by
  match a with
  | ⟨0, _⟩ => rfl
  | ⟨1, _⟩ => rfl

/-- A rank-1 offset row of zeros. -/
theorem offsets1_zero : (![0] : Fin 1 → Nat) = fun _ => 0 := funext fun a => by
  match a with
  | ⟨0, _⟩ => rfl

/-- A [1024,2048] matrix loaded whole is itself. -/
theorem ld_mat1024 (x : Vec Ideal S1024x2048 .bf16) : View.ld x r0_6 = x := View.ld_unit_zero (S := S1024x2048) offsets2_zero _ x
/-- A [2048] row loaded whole is itself. -/
theorem ld_row2048 (x : Vec Ideal S2048 .f32) : View.ld x r0_4 = x := View.ld_unit_zero (S := S2048) offsets1_zero _ x
/-- The [512,128] read-out matrix loaded whole is itself. -/
theorem ld_mat512 (x : Vec Ideal S512x128 .bf16) : View.ld x r0_8 = x := View.ld_unit_zero (S := S512x128) offsets2_zero _ x
/-- The [128] read-out bias loaded whole is itself. -/
theorem ld_row128 (x : Vec Ideal S128 .f32) : View.ld x r0_9 = x := View.ld_unit_zero (S := S128) offsets1_zero _ x

/-! ### The body's intermediate blocks, named

The output terms repeat the same operand blocks many times; each gets a name here (reducible, so the printed terms
and these are the same terms). -/

/-- Layer 0's old cell block. -/
abbrev b15 (x2 : Vec Ideal S3x256x512 .f32) : FVec Ideal S256x512 .f32 := k0_pay4 (View.ld x2 r0_2)
/-- Layer 0's cell-candidate pre-activations. -/
abbrev b28 (x0 : Vec Ideal S256x1 .i32) (x1 : Vec Ideal S3x256x512 .f32) (x3 : Vec Ideal S128x128 .bf16) (x4 : Vec Ideal S640x2048 .bf16) (x5 : Vec Ideal S2048 .f32) : FVec Ideal S256x512 .f32 :=
  k0_pay6 (View.ld x0 r0_0) (View.ld x3 r0_1) (View.ld x1 r0_2) (View.ld x4 r0_3) (View.ld x5 r0_4)
/-- Layer 0's output-gate pre-activations. -/
abbrev b29 (x0 : Vec Ideal S256x1 .i32) (x1 : Vec Ideal S3x256x512 .f32) (x3 : Vec Ideal S128x128 .bf16) (x4 : Vec Ideal S640x2048 .bf16) (x5 : Vec Ideal S2048 .f32) : FVec Ideal S256x512 .f32 :=
  k0_pay7 (View.ld x0 r0_0) (View.ld x3 r0_1) (View.ld x1 r0_2) (View.ld x4 r0_3) (View.ld x5 r0_4)
/-- Layer 0's input gate. -/
abbrev b36 (x0 : Vec Ideal S256x1 .i32) (x1 : Vec Ideal S3x256x512 .f32) (x3 : Vec Ideal S128x128 .bf16) (x4 : Vec Ideal S640x2048 .bf16) (x5 : Vec Ideal S2048 .f32) : FVec Ideal S256x512 .f32 :=
  k0_pay8 (View.ld x0 r0_0) (View.ld x3 r0_1) (View.ld x1 r0_2) (View.ld x4 r0_3) (View.ld x5 r0_4)
/-- The tanh inside layer 0's forget gate. -/
abbrev b39 (x0 : Vec Ideal S256x1 .i32) (x1 : Vec Ideal S3x256x512 .f32) (x3 : Vec Ideal S128x128 .bf16) (x4 : Vec Ideal S640x2048 .bf16) (x5 : Vec Ideal S2048 .f32) : FVec Ideal S256x512 .f32 :=
  k0_pay9 (View.ld x0 r0_0) (View.ld x3 r0_1) (View.ld x1 r0_2) (View.ld x4 r0_3) (View.ld x5 r0_4)
/-- Layer 1's product [h₀', h₁] · W₁. -/
abbrev b72 (x0 : Vec Ideal S256x1 .i32) (x1 x2 : Vec Ideal S3x256x512 .f32) (x3 : Vec Ideal S128x128 .bf16) (x4 : Vec Ideal S640x2048 .bf16) (x5 : Vec Ideal S2048 .f32) (x6 : Vec Ideal S1024x2048 .bf16) : FVec Ideal S256x2048 .f32 :=
  k0_pay15 (b15 x2) (b28 x0 x1 x3 x4 x5) (b29 x0 x1 x3 x4 x5) (b36 x0 x1 x3 x4 x5) (b39 x0 x1 x3 x4 x5) (View.ld x1 r0_5) (View.ld x6 r0_6)
/-- Layer 1's old cell block. -/
abbrev b67 (x2 : Vec Ideal S3x256x512 .f32) : FVec Ideal S256x512 .f32 := k0_pay14 (View.ld x2 r0_5)
/-- Layer 1's new hidden block, narrowed. -/
abbrev b115 (x0 : Vec Ideal S256x1 .i32) (x1 x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) : FVec Ideal S256x512 .bf16 :=
  k0_pay22 (b67 x2) (b72 x0 x1 x2 x3 x4 x5 x6) (k0_pay16 (View.ld x7 r0_4))

/-! ### Layer 1 -/

/-- Layer 1's pre-activations at (r, n). -/
theorem g1_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (n : Fin 2048) :
    k0_pay17 (b72 x0 x1 x2 x3 x4 x5 x6) (k0_pay16 (View.ld x7 r0_4)) (ix2 r n) = (blockRow x0 x1 x2 x3 x4 x5 x6 x7 x8 x9 x10 x11 r).g1 n := by
  refine (pay17_apply (b15 x2) (b28 x0 x1 x3 x4 x5) (b29 x0 x1 x3 x4 x5) (b36 x0 x1 x3 x4 x5) (b39 x0 x1 x3 x4 x5) (View.ld x1 r0_5) (View.ld x6 r0_6) (View.ld x7 r0_4) r n
    (blockRow x0 x1 x2 x3 x4 x5 x6 x7 x8 x9 x10 x11 r).h0 ((blockRow x0 x1 x2 x3 x4 x5 x6 x7 x8 x9 x10 x11 r).h 1)
    (fun k => h0_apply x0 x1 x2 x3 x4 x5 x6 x7 x8 x9 x10 x11 r k) (fun k => ld_slab1 x1 0 r k)).trans ?_
  rw [ld_mat1024, ld_row2048]
  rfl

/-- Layer 1's old cell at (r, j). -/
theorem b67_apply (x2 : Vec Ideal S3x256x512 .f32) (r : Fin 256) (j : Fin 512) : b67 x2 (ix2 r j) = x2 (ix3 (1 : Fin 3) r j) := by
  unfold b67 k0_pay14
  exact (slab_cast_apply _ r j).trans (ld_slab1 x2 0 r j)

/-- Layer 1's new cell value at (r, j). -/
theorem c1_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay18 (b67 x2) (b72 x0 x1 x2 x3 x4 x5 x6) (k0_pay16 (View.ld x7 r0_4)) (ix2 r j) = (blockRow x0 x1 x2 x3 x4 x5 x6 x7 x8 x9 x10 x11 r).c1 j := by
  have e1 : (fun n => k0_pay17 (b72 x0 x1 x2 x3 x4 x5 x6) (k0_pay16 (View.ld x7 r0_4)) (ix2 r n)) = (blockRow x0 x1 x2 x3 x4 x5 x6 x7 x8 x9 x10 x11 r).g1 :=
    funext fun n => g1_apply x0 x1 x2 x3 x4 x5 x6 x7 x8 x9 x10 x11 r n
  have e2 : (fun j => b67 x2 (ix2 r j)) = (blockRow x0 x1 x2 x3 x4 x5 x6 x7 x8 x9 x10 x11 r).c 1 := funext fun j => b67_apply x2 r j
  exact (pay18_apply (b67 x2) (b72 x0 x1 x2 x3 x4 x5 x6) (k0_pay16 (View.ld x7 r0_4)) r j).trans (congrArg₂ (fun g c => cNew sigk g c j) e1 e2)

/-- Layer 1's new hidden value at (r, j). -/
theorem h1_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay19 (b67 x2) (b72 x0 x1 x2 x3 x4 x5 x6) (k0_pay16 (View.ld x7 r0_4)) (ix2 r j) = (blockRow x0 x1 x2 x3 x4 x5 x6 x7 x8 x9 x10 x11 r).h1 j := by
  have e1 : (fun n => k0_pay17 (b72 x0 x1 x2 x3 x4 x5 x6) (k0_pay16 (View.ld x7 r0_4)) (ix2 r n)) = (blockRow x0 x1 x2 x3 x4 x5 x6 x7 x8 x9 x10 x11 r).g1 :=
    funext fun n => g1_apply x0 x1 x2 x3 x4 x5 x6 x7 x8 x9 x10 x11 r n
  have e2 : (fun j => b67 x2 (ix2 r j)) = (blockRow x0 x1 x2 x3 x4 x5 x6 x7 x8 x9 x10 x11 r).c 1 := funext fun j => b67_apply x2 r j
  exact (pay19_apply (b67 x2) (b72 x0 x1 x2 x3 x4 x5 x6) (k0_pay16 (View.ld x7 r0_4)) r j).trans (congrArg₂ (fun g c => hNew sigk g c j) e1 e2)

/-! ### Layer 2 -/

/-- Layer 2's pre-activations at (r, n). -/
theorem g2_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (n : Fin 2048) :
    k0_pay23 (b115 x0 x1 x2 x3 x4 x5 x6 x7) (View.ld x1 r0_7) (View.ld x8 r0_6) (View.ld x9 r0_4) (ix2 r n) = (blockRow x0 x1 x2 x3 x4 x5 x6 x7 x8 x9 x10 x11 r).g2 n := by
  refine (pay23_apply (b115 x0 x1 x2 x3 x4 x5 x6 x7) (View.ld x1 r0_7) (View.ld x8 r0_6) (View.ld x9 r0_4) r n
    (blockRow x0 x1 x2 x3 x4 x5 x6 x7 x8 x9 x10 x11 r).h1 ((blockRow x0 x1 x2 x3 x4 x5 x6 x7 x8 x9 x10 x11 r).h 2)
    (fun k => h1_apply x0 x1 x2 x3 x4 x5 x6 x7 x8 x9 x10 x11 r k) (fun k => ld_slab2 x1 0 r k)).trans ?_
  rw [ld_mat1024, ld_row2048]
  rfl

/-- Layer 2's new cell value at (r, j). -/
theorem c2_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay24 (b115 x0 x1 x2 x3 x4 x5 x6 x7) (View.ld x1 r0_7) (View.ld x2 r0_7) (View.ld x8 r0_6) (View.ld x9 r0_4) (ix2 r j) = (blockRow x0 x1 x2 x3 x4 x5 x6 x7 x8 x9 x10 x11 r).c2 j := by
  have e1 : (fun n => k0_pay23 (b115 x0 x1 x2 x3 x4 x5 x6 x7) (View.ld x1 r0_7) (View.ld x8 r0_6) (View.ld x9 r0_4) (ix2 r n)) = (blockRow x0 x1 x2 x3 x4 x5 x6 x7 x8 x9 x10 x11 r).g2 :=
    funext fun n => g2_apply x0 x1 x2 x3 x4 x5 x6 x7 x8 x9 x10 x11 r n
  have e2 : (fun j => View.ld x2 r0_7 (ix3 (0 : Fin 1) r j)) = (blockRow x0 x1 x2 x3 x4 x5 x6 x7 x8 x9 x10 x11 r).c 2 := funext fun j => ld_slab2 x2 0 r j
  exact (pay24_apply (b115 x0 x1 x2 x3 x4 x5 x6 x7) (View.ld x1 r0_7) (View.ld x2 r0_7) (View.ld x8 r0_6) (View.ld x9 r0_4) r j).trans (congrArg₂ (fun g c => cNew sigk g c j) e1 e2)

/-- Layer 2's new hidden value at (r, j). -/
theorem h2_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (j : Fin 512) :
    k0_pay25 (b115 x0 x1 x2 x3 x4 x5 x6 x7) (View.ld x1 r0_7) (View.ld x2 r0_7) (View.ld x8 r0_6) (View.ld x9 r0_4) (ix2 r j) = (blockRow x0 x1 x2 x3 x4 x5 x6 x7 x8 x9 x10 x11 r).h2 j := by
  have e1 : (fun n => k0_pay23 (b115 x0 x1 x2 x3 x4 x5 x6 x7) (View.ld x1 r0_7) (View.ld x8 r0_6) (View.ld x9 r0_4) (ix2 r n)) = (blockRow x0 x1 x2 x3 x4 x5 x6 x7 x8 x9 x10 x11 r).g2 :=
    funext fun n => g2_apply x0 x1 x2 x3 x4 x5 x6 x7 x8 x9 x10 x11 r n
  have e2 : (fun j => View.ld x2 r0_7 (ix3 (0 : Fin 1) r j)) = (blockRow x0 x1 x2 x3 x4 x5 x6 x7 x8 x9 x10 x11 r).c 2 := funext fun j => ld_slab2 x2 0 r j
  exact (pay25_apply (b115 x0 x1 x2 x3 x4 x5 x6 x7) (View.ld x1 r0_7) (View.ld x2 r0_7) (View.ld x8 r0_6) (View.ld x9 r0_4) r j).trans (congrArg₂ (fun g c => hNew sigk g c j) e1 e2)

/-! ### The read-out -/

/-- The read-out at (r, v). -/
theorem logits_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (v : Fin 128) :
    k0_pay3 (k0_pay25 (b115 x0 x1 x2 x3 x4 x5 x6 x7) (View.ld x1 r0_7) (View.ld x2 r0_7) (View.ld x8 r0_6) (View.ld x9 r0_4)) (View.ld x10 r0_8) (View.ld x11 r0_9) (ix2 r v) = (blockRow x0 x1 x2 x3 x4 x5 x6 x7 x8 x9 x10 x11 r).logits v := by
  refine (pay3_apply (k0_pay25 (b115 x0 x1 x2 x3 x4 x5 x6 x7) (View.ld x1 r0_7) (View.ld x2 r0_7) (View.ld x8 r0_6) (View.ld x9 r0_4)) (View.ld x10 r0_8) (View.ld x11 r0_9) r v (blockRow x0 x1 x2 x3 x4 x5 x6 x7 x8 x9 x10 x11 r).h2
    (fun k => h2_apply x0 x1 x2 x3 x4 x5 x6 x7 x8 x9 x10 x11 r k)).trans ?_
  rw [ld_mat512, ld_row128]
  rfl

/-! ### The stored slabs, as blocks of one function of the buffer index -/

/-- Layer 2's stored hidden slab is the block at slab 2 of "row (y 1)'s new hidden value of layer (y 0) at (y 2)". -/
theorem hs_piece2 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay1 (k0_pay25 (b115 x0 x1 x2 x3 x4 x5 x6 x7) (View.ld x1 r0_7) (View.ld x2 r0_7) (View.ld x8 r0_6) (View.ld x9 r0_4)) x
      = (blockRow x0 x1 x2 x3 x4 x5 x6 x7 x8 x9 x10 x11 ((r0_7.idx x) 1)).hs ((r0_7.idx x) 0) ((r0_7.idx x) 2) := by
  obtain ⟨u, r, j, rfl⟩ : ∃ (u : Fin 1) (r : Fin 256) (j : Fin 512), x = ix3 u r j := ⟨x 0, x 1, x 2, eq_ix3 x⟩
  rw [slab2_idx]
  unfold k0_pay1
  rw [block_cast_apply]
  exact h2_apply x0 x1 x2 x3 x4 x5 x6 x7 x8 x9 x10 x11 r j

/-- Layer 1's stored hidden slab is that function's block at slab 1. -/
theorem hs_piece1 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay20 (b67 x2) (b72 x0 x1 x2 x3 x4 x5 x6) (k0_pay16 (View.ld x7 r0_4)) x
      = (blockRow x0 x1 x2 x3 x4 x5 x6 x7 x8 x9 x10 x11 ((r0_5.idx x) 1)).hs ((r0_5.idx x) 0) ((r0_5.idx x) 2) := by
  obtain ⟨u, r, j, rfl⟩ : ∃ (u : Fin 1) (r : Fin 256) (j : Fin 512), x = ix3 u r j := ⟨x 0, x 1, x 2, eq_ix3 x⟩
  rw [slab1_idx]
  unfold k0_pay20
  rw [block_cast_apply]
  exact h1_apply x0 x1 x2 x3 x4 x5 x6 x7 x8 x9 x10 x11 r j

/-- Layer 0's stored hidden slab is that function's block at slab 0. -/
theorem hs_piece0 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay12 (b15 x2) (b28 x0 x1 x3 x4 x5) (b29 x0 x1 x3 x4 x5) (b36 x0 x1 x3 x4 x5) (b39 x0 x1 x3 x4 x5) x
      = (blockRow x0 x1 x2 x3 x4 x5 x6 x7 x8 x9 x10 x11 ((r0_2.idx x) 1)).hs ((r0_2.idx x) 0) ((r0_2.idx x) 2) := by
  obtain ⟨u, r, j, rfl⟩ : ∃ (u : Fin 1) (r : Fin 256) (j : Fin 512), x = ix3 u r j := ⟨x 0, x 1, x 2, eq_ix3 x⟩
  rw [slab0_idx]
  unfold k0_pay12
  rw [block_cast_apply]
  exact h0_apply x0 x1 x2 x3 x4 x5 x6 x7 x8 x9 x10 x11 r j

/-- Layer 2's stored cell slab is the block at slab 2 of "row (y 1)'s new cell value of layer (y 0) at (y 2)". -/
theorem cs_piece2 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay2 (k0_pay24 (b115 x0 x1 x2 x3 x4 x5 x6 x7) (View.ld x1 r0_7) (View.ld x2 r0_7) (View.ld x8 r0_6) (View.ld x9 r0_4)) x
      = (blockRow x0 x1 x2 x3 x4 x5 x6 x7 x8 x9 x10 x11 ((r0_7.idx x) 1)).cs ((r0_7.idx x) 0) ((r0_7.idx x) 2) := by
  obtain ⟨u, r, j, rfl⟩ : ∃ (u : Fin 1) (r : Fin 256) (j : Fin 512), x = ix3 u r j := ⟨x 0, x 1, x 2, eq_ix3 x⟩
  rw [slab2_idx]
  unfold k0_pay2
  rw [block_cast_apply]
  exact c2_apply x0 x1 x2 x3 x4 x5 x6 x7 x8 x9 x10 x11 r j

/-- Layer 1's stored cell slab is that function's block at slab 1. -/
theorem cs_piece1 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay21 (b67 x2) (b72 x0 x1 x2 x3 x4 x5 x6) (k0_pay16 (View.ld x7 r0_4)) x
      = (blockRow x0 x1 x2 x3 x4 x5 x6 x7 x8 x9 x10 x11 ((r0_5.idx x) 1)).cs ((r0_5.idx x) 0) ((r0_5.idx x) 2) := by
  obtain ⟨u, r, j, rfl⟩ : ∃ (u : Fin 1) (r : Fin 256) (j : Fin 512), x = ix3 u r j := ⟨x 0, x 1, x 2, eq_ix3 x⟩
  rw [slab1_idx]
  unfold k0_pay21
  rw [block_cast_apply]
  exact c1_apply x0 x1 x2 x3 x4 x5 x6 x7 x8 x9 x10 x11 r j

/-- Layer 0's stored cell slab is that function's block at slab 0. -/
theorem cs_piece0 (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (x : S1x256x512.Idx) :
    k0_pay13 (b15 x2) (b28 x0 x1 x3 x4 x5) (b36 x0 x1 x3 x4 x5) (b39 x0 x1 x3 x4 x5) x
      = (blockRow x0 x1 x2 x3 x4 x5 x6 x7 x8 x9 x10 x11 ((r0_2.idx x) 1)).cs ((r0_2.idx x) 0) ((r0_2.idx x) 2) := by
  obtain ⟨u, r, j, rfl⟩ : ∃ (u : Fin 1) (r : Fin 256) (j : Fin 512), x = ix3 u r j := ⟨x 0, x 1, x 2, eq_ix3 x⟩
  rw [slab0_idx]
  unfold k0_pay13
  rw [block_cast_apply]
  exact c0_apply x0 x1 x2 x3 x4 x5 x6 x7 x8 x9 x10 x11 r j

/-! ### The three output blocks -/

/-- The logits block at (r, v). -/
theorem out12_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (r : Fin 256) (v : Fin 128) :
    out0_12 (F := Ideal) x0 x1 x2 x3 x4 x5 x6 x7 x8 x9 x10 x11 (ix2 r v) = (blockRow x0 x1 x2 x3 x4 x5 x6 x7 x8 x9 x10 x11 r).logits v := by
  unfold out0_12
  rw [View.canon_unit_zero offsets2_zero]
  exact logits_apply x0 x1 x2 x3 x4 x5 x6 x7 x8 x9 x10 x11 r v

/-- The new-hidden block at (l, r, j). -/
theorem out13_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (l : Fin 3) (r : Fin 256) (j : Fin 512) :
    out0_13 (F := Ideal) x0 x1 x2 x3 x4 x5 x6 x7 x8 x9 x10 x11 (ix3 l r j) = (blockRow x0 x1 x2 x3 x4 x5 x6 x7 x8 x9 x10 x11 r).hs l j := by
  unfold out0_13
  refine (View.canon_apply_of_pieces (Val := Elt Ideal) (e := .f32)
    (fun y : S3x256x512.Idx => (blockRow x0 x1 x2 x3 x4 x5 x6 x7 x8 x9 x10 x11 (y 1)).hs (y 0) (y 2)) _ ?_ (ix3 l r j) (cover0_13 _ _ _ _)).trans rfl
  intro p hp
  rcases List.mem_cons.mp hp with rfl | hp
  · exact fun x => hs_piece2 x0 x1 x2 x3 x4 x5 x6 x7 x8 x9 x10 x11 x
  rcases List.mem_cons.mp hp with rfl | hp
  · exact fun x => hs_piece1 x0 x1 x2 x3 x4 x5 x6 x7 x8 x9 x10 x11 x
  rcases List.mem_cons.mp hp with rfl | hp
  · exact fun x => hs_piece0 x0 x1 x2 x3 x4 x5 x6 x7 x8 x9 x10 x11 x
  · exact absurd hp List.not_mem_nil

/-- The new-cell block at (l, r, j). -/
theorem out14_apply (x0 : Vec Ideal S256x1 .i32) (x1 : Vec Ideal S3x256x512 .f32) (x2 : Vec Ideal S3x256x512 .f32) (x3 : Vec Ideal S128x128 .bf16) (x4 : Vec Ideal S640x2048 .bf16) (x5 : Vec Ideal S2048 .f32) (x6 : Vec Ideal S1024x2048 .bf16) (x7 : Vec Ideal S2048 .f32) (x8 : Vec Ideal S1024x2048 .bf16) (x9 : Vec Ideal S2048 .f32) (x10 : Vec Ideal S512x128 .bf16) (x11 : Vec Ideal S128 .f32) (l : Fin 3) (r : Fin 256) (j : Fin 512) :
    out0_14 (F := Ideal) x0 x1 x2 x3 x4 x5 x6 x7 x8 x9 x10 x11 (ix3 l r j) = (blockRow x0 x1 x2 x3 x4 x5 x6 x7 x8 x9 x10 x11 r).cs l j := by
  unfold out0_14
  refine (View.canon_apply_of_pieces (Val := Elt Ideal) (e := .f32)
    (fun y : S3x256x512.Idx => (blockRow x0 x1 x2 x3 x4 x5 x6 x7 x8 x9 x10 x11 (y 1)).cs (y 0) (y 2)) _ ?_ (ix3 l r j) (cover0_14 _ _ _ _)).trans rfl
  intro p hp
  rcases List.mem_cons.mp hp with rfl | hp
  · exact fun x => cs_piece2 x0 x1 x2 x3 x4 x5 x6 x7 x8 x9 x10 x11 x
  rcases List.mem_cons.mp hp with rfl | hp
  · exact fun x => cs_piece1 x0 x1 x2 x3 x4 x5 x6 x7 x8 x9 x10 x11 x
  rcases List.mem_cons.mp hp with rfl | hp
  · exact fun x => cs_piece0 x0 x1 x2 x3 x4 x5 x6 x7 x8 x9 x10 x11 x
  · exact absurd hp List.not_mem_nil

end Cert.KernelIdeal.Hand

end
-- ==== Proof.KernelValue.lean ====
/-
  From blocks to arrays: each grid point writes back one block of rows of each result, the 32 blocks tile the three
  result arrays, so after the run the arrays are the kernel-spelling results of every batch row.
-/
import proofs.«409252_j3470333575609_2_alg».proof.Proof.KernelHost
import proofs.«409252_j3470333575609_2_alg».proof.Proof.KernelRows

noncomputable section

namespace Cert.KernelIdeal.Hand

open Cert.KernelIdeal Cert.KernelIdeal.Gen Idealize.ShloMosaic Idealize.ShloMosaic.TcCoe Idealize.ShloMosaic.ValueIdx Idealize.SL.Sem Cert.Lstm
open Idealize.ShloMosaic.Pipeline (Dat)

variable (m : (ℓ : Loc nD τ sig) → Buf (Elt Ideal) ℓ)

/-! ## The logits: blocks of 256 rows -/

/-- Grid point t's logits block sits at block row t, block column 0. -/
theorem index12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Entry (p, q) of grid point t's logits block is entry (256 t + p, q) of the array. -/
theorem emb12 (t : Fin cfg0.N) (p : Fin 256) (q : Fin 128) :
    ((cfg0.win 12).blk t).view.emb (ix2 p q) = ix2 (rowAt t p) q := by
  funext a
  apply Fin.ext
  match a with
  | ⟨0, _⟩ => show win0_12.index t (0 : Fin 2) * 256 + 1 * p.val = 256 * t.val + p.val; rw [(index12 t).1]; omega
  | ⟨1, _⟩ => show win0_12.index t (1 : Fin 2) * 128 + 1 * q.val = q.val; rw [(index12 t).2]; omega

/-- What grid point t writes back is block t of the logits array in the kernel's spelling. -/
theorem flushed12_eq (c : Dev nD) (t : Fin cfg0.N) :
    (dats m 0 c).flushed 12 t = ((cfg0.win 12).blk t).view.read (Elt Ideal) ((kArgs m c).klogitsArr) := by
  rw [Value.flushed12]
  funext y
  obtain ⟨p, q, rfl⟩ : ∃ (p : Fin 256) (q : Fin 128), y = ix2 p q := ⟨y 0, y 1, eq_ix2 y⟩
  rw [View.read_apply, emb12]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = ((kArgs m c).row (rowAt t p)).toK.logits q
  rw [out12_apply, blockRow_iblk]

/-- An index of the logits array is in grid point t's block iff each coordinate is in the block's range. -/
theorem mem_blk12 (t : Fin cfg0.N) (i : S8192x128.Idx) :
    i ∈ ((cfg0.win 12).blk t).view.set ↔ ∀ a : Fin 2, win0_12.index t a * S256x128.size a ≤ (i a).val ∧ (i a).val < win0_12.index t a * S256x128.size a + S256x128.size a := by
  show i ∈ ((View.whole main_v19_0).slice (win0_12.rect t)).set ↔ _
  rw [View.set_slice_whole, Rect.mem_set_unit]
  exact Iff.rfl

/-- Every index of the logits array lies in the block of the grid point its row names. -/
theorem cover12 (i : S8192x128.Idx) :
    ∃ t : Fin cfg0.N, (cfg0.win 12).flush t = true ∧ i ∈ ((cfg0.win 12).blk t).view.set := by
  have hi0 : (i 0).val < 8192 := (i 0).isLt
  have hi1 : (i 1).val < 128 := (i 1).isLt
  let t : Fin cfg0.N := ⟨(i 0).val / 256, lt_of_lt_of_eq (show (i 0).val / 256 < 32 by omega) N_0.symm⟩
  refine ⟨t, flush0_12 t, ?_⟩
  rw [mem_blk12]
  obtain ⟨e0, e1⟩ := index12 t
  have ht : t.val = (i 0).val / 256 := rfl
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 128 ≤ (i 1).val ∧ (i 1).val < win0_12.index t (1 : Fin 2) * 128 + 128; omega

/-- The logits array after the run. -/
theorem final12 (c : Dev nD) : (dats m 0 c).arrAt 12 cfg0.N = (kArgs m c).klogitsArr :=
  (dats m 0 c).arrAt_eq_of_cover 12 ((kArgs m c).klogitsArr) (fun t _ => flushed12_eq m c t) cover12

/-! ## The new hidden states: blocks of 256 rows on the middle axis -/

/-- Grid point t's hidden-state block sits at block 0 on the layer axis, block t on the row axis, block 0 on the last axis. -/
theorem index13 : ∀ t : Fin cfg0.N, win0_13.index t (0 : Fin 3) = 0 ∧ win0_13.index t (1 : Fin 3) = t.val ∧ win0_13.index t (2 : Fin 3) = 0 :=
  (by decide +kernel : ∀ t : Fin grid0.N, win0_13.index t (0 : Fin 3) = 0 ∧ win0_13.index t (1 : Fin 3) = t.val ∧ win0_13.index t (2 : Fin 3) = 0)

/-- Entry (l, p, j) of grid point t's hidden-state block is entry (l, 256 t + p, j) of the array. -/
theorem emb13 (t : Fin cfg0.N) (l : Fin 3) (p : Fin 256) (j : Fin 512) :
    ((cfg0.win 13).blk t).view.emb (ix3 l p j) = ix3 l (rowAt t p) j := by
  funext a
  apply Fin.ext
  match a with
  | ⟨0, _⟩ => show win0_13.index t (0 : Fin 3) * 3 + 1 * l.val = l.val; rw [(index13 t).1]; omega
  | ⟨1, _⟩ => show win0_13.index t (1 : Fin 3) * 256 + 1 * p.val = 256 * t.val + p.val; rw [(index13 t).2.1]; omega
  | ⟨2, _⟩ => show win0_13.index t (2 : Fin 3) * 512 + 1 * j.val = j.val; rw [(index13 t).2.2]; omega

/-- What grid point t writes back is block t of the new hidden states in the kernel's spelling. -/
theorem flushed13_eq (c : Dev nD) (t : Fin cfg0.N) :
    (dats m 0 c).flushed 13 t = ((cfg0.win 13).blk t).view.read (Elt Ideal) ((kArgs m c).khsArr) := by
  rw [Value.flushed13]
  funext y
  obtain ⟨l, p, j, rfl⟩ : ∃ (l : Fin 3) (p : Fin 256) (j : Fin 512), y = ix3 l p j := ⟨y 0, y 1, y 2, eq_ix3 y⟩
  rw [View.read_apply, emb13]
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 l p j) = ((kArgs m c).row (rowAt t p)).toK.hs l j
  rw [out13_apply, blockRow_iblk]

/-- An index of the hidden-state array is in grid point t's block iff each coordinate is in the block's range. -/
theorem mem_blk13 (t : Fin cfg0.N) (i : S3x8192x512.Idx) :
    i ∈ ((cfg0.win 13).blk t).view.set ↔ ∀ a : Fin 3, win0_13.index t a * S3x256x512.size a ≤ (i a).val ∧ (i a).val < win0_13.index t a * S3x256x512.size a + S3x256x512.size a := by
  show i ∈ ((View.whole main_v19_1).slice (win0_13.rect t)).set ↔ _
  rw [View.set_slice_whole, Rect.mem_set_unit]
  exact Iff.rfl

/-- Every index of the hidden-state array lies in the block of the grid point its row names. -/
theorem cover13 (i : S3x8192x512.Idx) :
    ∃ t : Fin cfg0.N, (cfg0.win 13).flush t = true ∧ i ∈ ((cfg0.win 13).blk t).view.set := by
  have hi0 : (i 0).val < 3 := (i 0).isLt
  have hi1 : (i 1).val < 8192 := (i 1).isLt
  have hi2 : (i 2).val < 512 := (i 2).isLt
  let t : Fin cfg0.N := ⟨(i 1).val / 256, lt_of_lt_of_eq (show (i 1).val / 256 < 32 by omega) N_0.symm⟩
  refine ⟨t, flush0_13 t, ?_⟩
  rw [mem_blk13]
  obtain ⟨e0, e1, e2⟩ := index13 t
  have ht : t.val = (i 1).val / 256 := rfl
  intro a
  match a with
  | ⟨0, _⟩ => show win0_13.index t (0 : Fin 3) * 3 ≤ (i 0).val ∧ (i 0).val < win0_13.index t (0 : Fin 3) * 3 + 3; omega
  | ⟨1, _⟩ => show win0_13.index t (1 : Fin 3) * 256 ≤ (i 1).val ∧ (i 1).val < win0_13.index t (1 : Fin 3) * 256 + 256; omega
  | ⟨2, _⟩ => show win0_13.index t (2 : Fin 3) * 512 ≤ (i 2).val ∧ (i 2).val < win0_13.index t (2 : Fin 3) * 512 + 512; omega

/-- The new hidden states after the run. -/
theorem final13 (c : Dev nD) : (dats m 0 c).arrAt 13 cfg0.N = (kArgs m c).khsArr :=
  (dats m 0 c).arrAt_eq_of_cover 13 ((kArgs m c).khsArr) (fun t _ => flushed13_eq m c t) cover13

/-! ## The new cell states: blocks of 256 rows on the middle axis -/

/-- Grid point t's cell-state block sits at block 0 on the layer axis, block t on the row axis, block 0 on the last axis. -/
theorem index14 : ∀ t : Fin cfg0.N, win0_14.index t (0 : Fin 3) = 0 ∧ win0_14.index t (1 : Fin 3) = t.val ∧ win0_14.index t (2 : Fin 3) = 0 :=
  (by decide +kernel : ∀ t : Fin grid0.N, win0_14.index t (0 : Fin 3) = 0 ∧ win0_14.index t (1 : Fin 3) = t.val ∧ win0_14.index t (2 : Fin 3) = 0)

/-- Entry (l, p, j) of grid point t's cell-state block is entry (l, 256 t + p, j) of the array. -/
theorem emb14 (t : Fin cfg0.N) (l : Fin 3) (p : Fin 256) (j : Fin 512) :
    ((cfg0.win 14).blk t).view.emb (ix3 l p j) = ix3 l (rowAt t p) j := by
  funext a
  apply Fin.ext
  match a with
  | ⟨0, _⟩ => show win0_14.index t (0 : Fin 3) * 3 + 1 * l.val = l.val; rw [(index14 t).1]; omega
  | ⟨1, _⟩ => show win0_14.index t (1 : Fin 3) * 256 + 1 * p.val = 256 * t.val + p.val; rw [(index14 t).2.1]; omega
  | ⟨2, _⟩ => show win0_14.index t (2 : Fin 3) * 512 + 1 * j.val = j.val; rw [(index14 t).2.2]; omega

/-- What grid point t writes back is block t of the new cell states in the kernel's spelling. -/
theorem flushed14_eq (c : Dev nD) (t : Fin cfg0.N) :
    (dats m 0 c).flushed 14 t = ((cfg0.win 14).blk t).view.read (Elt Ideal) ((kArgs m c).kcsArr) := by
  rw [Value.flushed14]
  funext y
  obtain ⟨l, p, j, rfl⟩ : ∃ (l : Fin 3) (p : Fin 256) (j : Fin 512), y = ix3 l p j := ⟨y 0, y 1, y 2, eq_ix3 y⟩
  rw [View.read_apply, emb14]
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 l p j) = ((kArgs m c).row (rowAt t p)).toK.cs l j
  rw [out14_apply, blockRow_iblk]

/-- An index of the cell-state array is in grid point t's block iff each coordinate is in the block's range. -/
theorem mem_blk14 (t : Fin cfg0.N) (i : S3x8192x512.Idx) :
    i ∈ ((cfg0.win 14).blk t).view.set ↔ ∀ a : Fin 3, win0_14.index t a * S3x256x512.size a ≤ (i a).val ∧ (i a).val < win0_14.index t a * S3x256x512.size a + S3x256x512.size a := by
  show i ∈ ((View.whole main_v19_2).slice (win0_14.rect t)).set ↔ _
  rw [View.set_slice_whole, Rect.mem_set_unit]
  exact Iff.rfl

/-- Every index of the cell-state array lies in the block of the grid point its row names. -/
theorem cover14 (i : S3x8192x512.Idx) :
    ∃ t : Fin cfg0.N, (cfg0.win 14).flush t = true ∧ i ∈ ((cfg0.win 14).blk t).view.set := by
  have hi0 : (i 0).val < 3 := (i 0).isLt
  have hi1 : (i 1).val < 8192 := (i 1).isLt
  have hi2 : (i 2).val < 512 := (i 2).isLt
  let t : Fin cfg0.N := ⟨(i 1).val / 256, lt_of_lt_of_eq (show (i 1).val / 256 < 32 by omega) N_0.symm⟩
  refine ⟨t, flush0_14 t, ?_⟩
  rw [mem_blk14]
  obtain ⟨e0, e1, e2⟩ := index14 t
  have ht : t.val = (i 1).val / 256 := rfl
  intro a
  match a with
  | ⟨0, _⟩ => show win0_14.index t (0 : Fin 3) * 3 ≤ (i 0).val ∧ (i 0).val < win0_14.index t (0 : Fin 3) * 3 + 3; omega
  | ⟨1, _⟩ => show win0_14.index t (1 : Fin 3) * 256 ≤ (i 1).val ∧ (i 1).val < win0_14.index t (1 : Fin 3) * 256 + 256; omega
  | ⟨2, _⟩ => show win0_14.index t (2 : Fin 3) * 512 ≤ (i 2).val ∧ (i 2).val < win0_14.index t (2 : Fin 3) * 512 + 512; omega

/-- The new cell states after the run. -/
theorem final14 (c : Dev nD) : (dats m 0 c).arrAt 14 cfg0.N = (kArgs m c).kcsArr :=
  (dats m 0 c).arrAt_eq_of_cover 14 ((kArgs m c).kcsArr) (fun t _ => flushed14_eq m c t) cover14

end Cert.KernelIdeal.Hand

end
-- ==== Proof.RefGates.lean ====
/-
  The reference's pre-activations and read-out at one entry: each is a plain sum over the contracted axis of the
  transposed weight matrix, plus the broadcast bias rows, in the reference's own grouping; layer 0's input row is
  the embedding table's row at the token (the lookup's index is the token itself when it is in range).
-/
import proofs.«409252_j3470333575609_2_alg».proof.Proof.Gen.ReferenceIdeal.Run
import proofs.«409252_j3470333575609_2_alg».proof.Proof.Rows
import Idealize.ShloMosaic.PureOps.Ideal.Laws
import Idealize.ShloMosaic.Lib.Pipeline.Value
import Idealize.ShloMosaic.Lib.ValueLayout
import Idealize.ShloMosaic.Lib.StableHlo.Predicate

noncomputable section

namespace Cert.ReferenceIdeal.Hand

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo Cert.Lstm

/-! ## The reference's operations at an entry, over arrays of the literal shapes -/

/-! ### Bias rows and state slabs at an entry -/

/-- A bias row laid along the second axis of the [8192, 2048] pre-activations reads, at (b, n), the bias at n. -/
theorem biasRow2048_apply (bias : FVec Ideal S2048 .f32) (b : Fin 8192) (n : Fin 2048) :
    broadcastInDim S8192x2048 ![0, 1] bcast_S1x2048_S8192x2048_0_1 (broadcastInDim S1x2048 ![1] bcast_S2048_S1x2048_1 bias) (ix2 b n)
      = bias (ix1 n) :=
  (broadcastInDim_apply _ _ _ (ix2 b n) (ix2 (0 : Fin 1) n)
      (fun a => match a with | ⟨0, _⟩ => rfl | ⟨1, _⟩ => rfl)).trans
    (broadcastInDim_apply _ _ _ (ix2 (0 : Fin 1) n) (ix1 n) (fun a => match a with | ⟨0, _⟩ => rfl))

/-- The read-out's bias row laid along the second axis of the [8192, 128] logits reads, at (b, v), the bias at v. -/
theorem biasRow128_apply (bias : FVec Ideal S128 .f32) (b : Fin 8192) (v : Fin 128) :
    broadcastInDim S8192x128 ![0, 1] bcast_S1x128_S8192x128_0_1 (broadcastInDim S1x128 ![1] bcast_S128_S1x128_1 bias) (ix2 b v)
      = bias (ix1 v) :=
  (broadcastInDim_apply _ _ _ (ix2 b v) (ix2 (0 : Fin 1) v)
      (fun a => match a with | ⟨0, _⟩ => rfl | ⟨1, _⟩ => rfl)).trans
    (broadcastInDim_apply _ _ _ (ix2 (0 : Fin 1) v) (ix1 v) (fun a => match a with | ⟨0, _⟩ => rfl))

/-- Layer l's slab of the stacked states, viewed [8192, 512], reads at (b, k) the stack at (l, b, k). -/
theorem slab_apply (H : FVec Ideal S3x8192x512 .f32) (l : Fin 3) (hs : S3x8192x512.Slices ![l.val, 0, 0] S1x8192x512)
    (b : Fin 8192) (k : Fin 512) :
    shapeCast S8192x512 (extractStridedSlice S1x8192x512 ![l.val, 0, 0] H hs) shapeCasts_S1x8192x512_S8192x512 (ix2 b k)
      = H (ix3 l b k) :=
  (shapeCast_1ab_ab_apply _ _ b k).trans
    (extractStridedSlice_apply _ _ _ (ix3 (0 : Fin 1) b k) (ix3 l b k) (fun a => match a with
      | ⟨0, _⟩ => rfl
      | ⟨1, _⟩ => (Nat.zero_add _).symm
      | ⟨2, _⟩ => (Nat.zero_add _).symm))

/-! ### The [8192, 128] × [128, 2048] product at an entry -/

/-- The left operand's row coordinate is the output's row. -/
theorem lhs_dot128x2048_0 (i : S8192x2048.Idx) (q : dot_S8192x128_S128x2048_S8192x2048_1_0_0_1_n_n.contr.Idx) :
    (dot_S8192x128_S128x2048_S8192x2048_1_0_0_1_n_n.lhsIdx i q 0).val = (i 0).val := by
  unfold DotDims.lhsIdx
  rw [dif_neg (show ¬(0 : Fin S8192x128.rank) ∈ dot_S8192x128_S128x2048_S8192x2048_1_0_0_1_n_n.lhsBatch by decide),
    dif_pos (show (0 : Fin S8192x128.rank) ∈ dot_S8192x128_S128x2048_S8192x2048_1_0_0_1_n_n.lhsNonContracting by decide)]
  rfl

/-- The left operand's column coordinate is the contraction position. -/
theorem lhs_dot128x2048_1 (i : S8192x2048.Idx) (q : dot_S8192x128_S128x2048_S8192x2048_1_0_0_1_n_n.contr.Idx) :
    (dot_S8192x128_S128x2048_S8192x2048_1_0_0_1_n_n.lhsIdx i q 1).val = (q ⟨0, by decide⟩).val :=
  dot_S8192x128_S128x2048_S8192x2048_1_0_0_1_n_n.lhsIdx_val_of_single rfl i q

/-- The right operand's row coordinate is the contraction position. -/
theorem rhs_dot128x2048_0 (i : S8192x2048.Idx) (q : dot_S8192x128_S128x2048_S8192x2048_1_0_0_1_n_n.contr.Idx) :
    (dot_S8192x128_S128x2048_S8192x2048_1_0_0_1_n_n.rhsIdx i q 0).val = (q ⟨0, by decide⟩).val :=
  dot_S8192x128_S128x2048_S8192x2048_1_0_0_1_n_n.rhsIdx_val_of_single rfl i q

/-- The right operand's column coordinate is the output's column. -/
theorem rhs_dot128x2048_1 (i : S8192x2048.Idx) (q : dot_S8192x128_S128x2048_S8192x2048_1_0_0_1_n_n.contr.Idx) :
    (dot_S8192x128_S128x2048_S8192x2048_1_0_0_1_n_n.rhsIdx i q 1).val = (i 1).val := by
  unfold DotDims.rhsIdx
  rw [dif_neg (show ¬(1 : Fin S128x2048.rank) ∈ dot_S8192x128_S128x2048_S8192x2048_1_0_0_1_n_n.rhsBatch by decide),
    dif_pos (show (1 : Fin S128x2048.rank) ∈ dot_S8192x128_S128x2048_S8192x2048_1_0_0_1_n_n.rhsNonContracting by decide)]
  rfl

/-- Entry (b, n) of X · Wᵀ for X : [8192, 128] and W : [2048, 128] is ∑ₖ X[b, k] · W[n, k]. -/
theorem dot128x2048_apply (X : FVec Ideal S8192x128 .f32) (W : FVec Ideal S2048x128 .f32) (b : Fin 8192) (n : Fin 2048) :
    Host.dotGeneral (F := Ideal) dot_S8192x128_S128x2048_S8192x2048_1_0_0_1_n_n none X
        (transpose S128x2048 [1, 0] W transposes_S2048x128_S128x2048_1_0) (ix2 b n)
      = ∑ k : Fin 128, X (ix2 b k) * W (ix2 n k) := by
  -- the host product is the contraction onto a zero accumulator; re-index the one-axis contraction by its coordinate
  refine (Ideal.dotGeneral_apply _ _ _ _ _ _).trans ?_
  rw [← Equiv.sum_comp (contrEquiv1 dot_S8192x128_S128x2048_S8192x2048_1_0_0_1_n_n 128 rfl rfl).symm]
  refine Finset.sum_congr rfl fun k _ => ?_
  have hk := contrEquiv1_symm_val dot_S8192x128_S128x2048_S8192x2048_1_0_0_1_n_n 128 rfl rfl k
  have el : dot_S8192x128_S128x2048_S8192x2048_1_0_0_1_n_n.lhsIdx (ix2 b n)
      ((contrEquiv1 dot_S8192x128_S128x2048_S8192x2048_1_0_0_1_n_n 128 rfl rfl).symm k) = ix2 b k :=
    funext fun a => Fin.ext (by
      match a with
      | ⟨0, _⟩ => exact lhs_dot128x2048_0 _ _
      | ⟨1, _⟩ => exact (lhs_dot128x2048_1 _ _).trans hk)
  have er : dot_S8192x128_S128x2048_S8192x2048_1_0_0_1_n_n.rhsIdx (ix2 b n)
      ((contrEquiv1 dot_S8192x128_S128x2048_S8192x2048_1_0_0_1_n_n 128 rfl rfl).symm k) = ix2 k n :=
    funext fun a => Fin.ext (by
      match a with
      | ⟨0, _⟩ => exact (rhs_dot128x2048_0 _ _).trans hk
      | ⟨1, _⟩ => exact rhs_dot128x2048_1 _ _)
  -- the transposed weight matrix at (k, n) is the matrix at (n, k)
  rw [el, er, transpose_ix2_apply]

/-! ### The [8192, 512] × [512, 2048] product at an entry -/

/-- The left operand's row coordinate is the output's row. -/
theorem lhs_dot512x2048_0 (i : S8192x2048.Idx) (q : dot_S8192x512_S512x2048_S8192x2048_1_0_0_1_n_n.contr.Idx) :
    (dot_S8192x512_S512x2048_S8192x2048_1_0_0_1_n_n.lhsIdx i q 0).val = (i 0).val := by
  unfold DotDims.lhsIdx
  rw [dif_neg (show ¬(0 : Fin S8192x512.rank) ∈ dot_S8192x512_S512x2048_S8192x2048_1_0_0_1_n_n.lhsBatch by decide),
    dif_pos (show (0 : Fin S8192x512.rank) ∈ dot_S8192x512_S512x2048_S8192x2048_1_0_0_1_n_n.lhsNonContracting by decide)]
  rfl

/-- The left operand's column coordinate is the contraction position. -/
theorem lhs_dot512x2048_1 (i : S8192x2048.Idx) (q : dot_S8192x512_S512x2048_S8192x2048_1_0_0_1_n_n.contr.Idx) :
    (dot_S8192x512_S512x2048_S8192x2048_1_0_0_1_n_n.lhsIdx i q 1).val = (q ⟨0, by decide⟩).val :=
  dot_S8192x512_S512x2048_S8192x2048_1_0_0_1_n_n.lhsIdx_val_of_single rfl i q

/-- The right operand's row coordinate is the contraction position. -/
theorem rhs_dot512x2048_0 (i : S8192x2048.Idx) (q : dot_S8192x512_S512x2048_S8192x2048_1_0_0_1_n_n.contr.Idx) :
    (dot_S8192x512_S512x2048_S8192x2048_1_0_0_1_n_n.rhsIdx i q 0).val = (q ⟨0, by decide⟩).val :=
  dot_S8192x512_S512x2048_S8192x2048_1_0_0_1_n_n.rhsIdx_val_of_single rfl i q

/-- The right operand's column coordinate is the output's column. -/
theorem rhs_dot512x2048_1 (i : S8192x2048.Idx) (q : dot_S8192x512_S512x2048_S8192x2048_1_0_0_1_n_n.contr.Idx) :
    (dot_S8192x512_S512x2048_S8192x2048_1_0_0_1_n_n.rhsIdx i q 1).val = (i 1).val := by
  unfold DotDims.rhsIdx
  rw [dif_neg (show ¬(1 : Fin S512x2048.rank) ∈ dot_S8192x512_S512x2048_S8192x2048_1_0_0_1_n_n.rhsBatch by decide),
    dif_pos (show (1 : Fin S512x2048.rank) ∈ dot_S8192x512_S512x2048_S8192x2048_1_0_0_1_n_n.rhsNonContracting by decide)]
  rfl

/-- Entry (b, n) of X · Wᵀ for X : [8192, 512] and W : [2048, 512] is ∑ₖ X[b, k] · W[n, k]. -/
theorem dot512x2048_apply (X : FVec Ideal S8192x512 .f32) (W : FVec Ideal S2048x512 .f32) (b : Fin 8192) (n : Fin 2048) :
    Host.dotGeneral (F := Ideal) dot_S8192x512_S512x2048_S8192x2048_1_0_0_1_n_n none X
        (transpose S512x2048 [1, 0] W transposes_S2048x512_S512x2048_1_0) (ix2 b n)
      = ∑ k : Fin 512, X (ix2 b k) * W (ix2 n k) := by
  -- the host product is the contraction onto a zero accumulator; re-index the one-axis contraction by its coordinate
  refine (Ideal.dotGeneral_apply _ _ _ _ _ _).trans ?_
  rw [← Equiv.sum_comp (contrEquiv1 dot_S8192x512_S512x2048_S8192x2048_1_0_0_1_n_n 512 rfl rfl).symm]
  refine Finset.sum_congr rfl fun k _ => ?_
  have hk := contrEquiv1_symm_val dot_S8192x512_S512x2048_S8192x2048_1_0_0_1_n_n 512 rfl rfl k
  have el : dot_S8192x512_S512x2048_S8192x2048_1_0_0_1_n_n.lhsIdx (ix2 b n)
      ((contrEquiv1 dot_S8192x512_S512x2048_S8192x2048_1_0_0_1_n_n 512 rfl rfl).symm k) = ix2 b k :=
    funext fun a => Fin.ext (by
      match a with
      | ⟨0, _⟩ => exact lhs_dot512x2048_0 _ _
      | ⟨1, _⟩ => exact (lhs_dot512x2048_1 _ _).trans hk)
  have er : dot_S8192x512_S512x2048_S8192x2048_1_0_0_1_n_n.rhsIdx (ix2 b n)
      ((contrEquiv1 dot_S8192x512_S512x2048_S8192x2048_1_0_0_1_n_n 512 rfl rfl).symm k) = ix2 k n :=
    funext fun a => Fin.ext (by
      match a with
      | ⟨0, _⟩ => exact (rhs_dot512x2048_0 _ _).trans hk
      | ⟨1, _⟩ => exact rhs_dot512x2048_1 _ _)
  -- the transposed weight matrix at (k, n) is the matrix at (n, k)
  rw [el, er, transpose_ix2_apply]

/-! ### The [8192, 512] × [512, 128] product at an entry -/

/-- The left operand's row coordinate is the output's row. -/
theorem lhs_dot512x128_0 (i : S8192x128.Idx) (q : dot_S8192x512_S512x128_S8192x128_1_0_0_1_n_n.contr.Idx) :
    (dot_S8192x512_S512x128_S8192x128_1_0_0_1_n_n.lhsIdx i q 0).val = (i 0).val := by
  unfold DotDims.lhsIdx
  rw [dif_neg (show ¬(0 : Fin S8192x512.rank) ∈ dot_S8192x512_S512x128_S8192x128_1_0_0_1_n_n.lhsBatch by decide),
    dif_pos (show (0 : Fin S8192x512.rank) ∈ dot_S8192x512_S512x128_S8192x128_1_0_0_1_n_n.lhsNonContracting by decide)]
  rfl

/-- The left operand's column coordinate is the contraction position. -/
theorem lhs_dot512x128_1 (i : S8192x128.Idx) (q : dot_S8192x512_S512x128_S8192x128_1_0_0_1_n_n.contr.Idx) :
    (dot_S8192x512_S512x128_S8192x128_1_0_0_1_n_n.lhsIdx i q 1).val = (q ⟨0, by decide⟩).val :=
  dot_S8192x512_S512x128_S8192x128_1_0_0_1_n_n.lhsIdx_val_of_single rfl i q

/-- The right operand's row coordinate is the contraction position. -/
theorem rhs_dot512x128_0 (i : S8192x128.Idx) (q : dot_S8192x512_S512x128_S8192x128_1_0_0_1_n_n.contr.Idx) :
    (dot_S8192x512_S512x128_S8192x128_1_0_0_1_n_n.rhsIdx i q 0).val = (q ⟨0, by decide⟩).val :=
  dot_S8192x512_S512x128_S8192x128_1_0_0_1_n_n.rhsIdx_val_of_single rfl i q

/-- The right operand's column coordinate is the output's column. -/
theorem rhs_dot512x128_1 (i : S8192x128.Idx) (q : dot_S8192x512_S512x128_S8192x128_1_0_0_1_n_n.contr.Idx) :
    (dot_S8192x512_S512x128_S8192x128_1_0_0_1_n_n.rhsIdx i q 1).val = (i 1).val := by
  unfold DotDims.rhsIdx
  rw [dif_neg (show ¬(1 : Fin S512x128.rank) ∈ dot_S8192x512_S512x128_S8192x128_1_0_0_1_n_n.rhsBatch by decide),
    dif_pos (show (1 : Fin S512x128.rank) ∈ dot_S8192x512_S512x128_S8192x128_1_0_0_1_n_n.rhsNonContracting by decide)]
  rfl

/-- Entry (b, v) of X · Wᵀ for X : [8192, 512] and W : [128, 512] is ∑ₖ X[b, k] · W[v, k]. -/
theorem dot512x128_apply (X : FVec Ideal S8192x512 .f32) (W : FVec Ideal S128x512 .f32) (b : Fin 8192) (n : Fin 128) :
    Host.dotGeneral (F := Ideal) dot_S8192x512_S512x128_S8192x128_1_0_0_1_n_n none X
        (transpose S512x128 [1, 0] W transposes_S128x512_S512x128_1_0) (ix2 b n)
      = ∑ k : Fin 512, X (ix2 b k) * W (ix2 n k) := by
  -- the host product is the contraction onto a zero accumulator; re-index the one-axis contraction by its coordinate
  refine (Ideal.dotGeneral_apply _ _ _ _ _ _).trans ?_
  rw [← Equiv.sum_comp (contrEquiv1 dot_S8192x512_S512x128_S8192x128_1_0_0_1_n_n 512 rfl rfl).symm]
  refine Finset.sum_congr rfl fun k _ => ?_
  have hk := contrEquiv1_symm_val dot_S8192x512_S512x128_S8192x128_1_0_0_1_n_n 512 rfl rfl k
  have el : dot_S8192x512_S512x128_S8192x128_1_0_0_1_n_n.lhsIdx (ix2 b n)
      ((contrEquiv1 dot_S8192x512_S512x128_S8192x128_1_0_0_1_n_n 512 rfl rfl).symm k) = ix2 b k :=
    funext fun a => Fin.ext (by
      match a with
      | ⟨0, _⟩ => exact lhs_dot512x128_0 _ _
      | ⟨1, _⟩ => exact (lhs_dot512x128_1 _ _).trans hk)
  have er : dot_S8192x512_S512x128_S8192x128_1_0_0_1_n_n.rhsIdx (ix2 b n)
      ((contrEquiv1 dot_S8192x512_S512x128_S8192x128_1_0_0_1_n_n 512 rfl rfl).symm k) = ix2 k n :=
    funext fun a => Fin.ext (by
      match a with
      | ⟨0, _⟩ => exact (rhs_dot512x128_0 _ _).trans hk
      | ⟨1, _⟩ => exact rhs_dot512x128_1 _ _)
  -- the transposed weight matrix at (k, n) is the matrix at (n, k)
  rw [el, er, transpose_ix2_apply]

/-! ### The embedding lookup at an entry

The lookup is a row gather: operand axis 0 is collapsed and start-indexed (the start index read signed and clamped
into [0, 127]), operand axis 1 is the result's offset axis. -/

/-- On the table's row axis the gather reads the start index of batch row b, signed and clamped to the last row. -/
theorem embedIdx_0 (idx : IVec S8192x1 32) (b : Fin 8192) (e : Fin 128) :
    (gather_S128x128_S8192x1_S8192x128_1_0_n_n_0_1_1128.operandIdx (ix2 b e) idx 0).val = min (idx (ix2 b (0 : Fin 1))).toInt.toNat 127 := by
  show gather_S128x128_S8192x1_S8192x128_1_0_n_n_0_1_1128.start (ix2 b e) idx 0 + gather_S128x128_S8192x1_S8192x128_1_0_n_n_0_1_1128.batchCoord (ix2 b e) 0 + gather_S128x128_S8192x1_S8192x128_1_0_n_n_0_1_1128.offCoord (ix2 b e) 0 = _
  rw [GatherDims.batchCoord_eq_zero _ _ _ (show (0 : Fin S128x128.rank) ∉ gather_S128x128_S8192x1_S8192x128_1_0_n_n_0_1_1128.operandBatchingDims by decide),
    GatherDims.offCoord_eq_zero _ _ _ (show (0 : Fin S128x128.rank) ∉ gather_S128x128_S8192x1_S8192x128_1_0_n_n_0_1_1128.sKept by decide)]
  unfold GatherDims.start
  rw [dif_pos (show (0 : Fin S128x128.rank) ∈ gather_S128x128_S8192x1_S8192x128_1_0_n_n_0_1_1128.startIndexMap by decide)]
  have hsi : gather_S128x128_S8192x1_S8192x128_1_0_n_n_0_1_1128.siIdx (ix2 b e) ⟨List.idxOf (0 : Fin S128x128.rank) gather_S128x128_S8192x1_S8192x128_1_0_n_n_0_1_1128.startIndexMap,
      List.idxOf_lt_length_iff.2 (show (0 : Fin S128x128.rank) ∈ gather_S128x128_S8192x1_S8192x128_1_0_n_n_0_1_1128.startIndexMap by decide)⟩ = ix2 b (0 : Fin 1) := by
    funext c; refine Fin.ext ?_
    match c with
    | ⟨0, _⟩ => rfl
    | ⟨1, _⟩ => rfl
  rw [hsi]
  rfl

/-- On the table's column axis the gather reads the result's column. -/
theorem embedIdx_1 (idx : IVec S8192x1 32) (b : Fin 8192) (e : Fin 128) :
    (gather_S128x128_S8192x1_S8192x128_1_0_n_n_0_1_1128.operandIdx (ix2 b e) idx 1).val = e.val := by
  show gather_S128x128_S8192x1_S8192x128_1_0_n_n_0_1_1128.start (ix2 b e) idx 1 + gather_S128x128_S8192x1_S8192x128_1_0_n_n_0_1_1128.batchCoord (ix2 b e) 1 + gather_S128x128_S8192x1_S8192x128_1_0_n_n_0_1_1128.offCoord (ix2 b e) 1 = _
  rw [GatherDims.batchCoord_eq_zero _ _ _ (show (1 : Fin S128x128.rank) ∉ gather_S128x128_S8192x1_S8192x128_1_0_n_n_0_1_1128.operandBatchingDims by decide)]
  unfold GatherDims.start GatherDims.offCoord
  rw [dif_neg (show ¬(1 : Fin S128x128.rank) ∈ gather_S128x128_S8192x1_S8192x128_1_0_n_n_0_1_1128.startIndexMap by decide),
    dif_pos (show (1 : Fin S128x128.rank) ∈ gather_S128x128_S8192x1_S8192x128_1_0_n_n_0_1_1128.sKept by decide)]
  simp only [Nat.zero_add]
  rfl

/-- THE LOOKUP AT (b, e): the table's row at batch row b's start index, read signed and clamped to the last row,
    at column e. -/
theorem embed_gather_apply (E : FVec Ideal S128x128 .f32) (idx : IVec S8192x1 32) (b : Fin 8192) (e : Fin 128) :
    Host.gather gather_S128x128_S8192x1_S8192x128_1_0_n_n_0_1_1128 E idx (ix2 b e)
      = E (ix2 (⟨min (idx (ix2 b (0 : Fin 1))).toInt.toNat 127, by omega⟩ : Fin 128) e) := by
  unfold Host.gather
  refine congrArg E (funext fun a => Fin.ext ?_)
  match a with
  | ⟨0, _⟩ => exact embedIdx_0 idx b e
  | ⟨1, _⟩ => exact embedIdx_1 idx b e

/-! ### The lookup's index is the token when the token is in range -/

/-- The index normalisation in front of the lookup (a negative index has the extent 128 added) leaves a token in
    [0, 128) alone: the column of start indices reads, at (b, 0), token b. -/
theorem startIdx_apply (x : IVec S8192 32) (b : Fin 8192) (hb : (x (ix1 b)).toNat < 128) :
    broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 128#32))) x) (ix2 b (0 : Fin 1))
      = x (ix1 b) := by
  refine (broadcastInDim_apply _ _ _ (ix2 b (0 : Fin 1)) (ix1 b) (fun a => match a with | ⟨0, _⟩ => rfl)).trans ?_
  rw [select_apply]
  have hc : cmpi .slt x (broadcastInDim S8192 ![] bcast_S_S8192 (constantI S_ 32 0#32)) (ix1 b) = 0#1 := by
    refine eq_zero_of_ne_one fun h1 => ?_
    have h2 : IntOp.cmpi .slt (x (ix1 b)) 0#32 = 1#1 := h1
    have := (Predicate.slt_iff_toNat (a := x (ix1 b)) (b := 0#32) (by omega) (by decide)).mp h2
    simp at this
  rw [hc, select_zero]

/-- A word below 128, read signed and clamped to 127, is the table row the token names. -/
theorem clamp_tok_val (w : BitVec 32) (hw : w.toNat < 128) : min w.toInt.toNat 127 = (tok w).val := by
  show min w.toInt.toNat 127 = w.toNat % 128
  rw [Predicate.toInt_eq_toNat_of_lt (by omega), Int.toNat_natCast, Nat.mod_eq_of_lt hw]
  exact Nat.min_eq_left (by omega)

/-- With the token in range the lookup reads, at (b, e), the table's row the token names, at column e. -/
theorem embed_tok_apply (E : FVec Ideal S128x128 .f32) (x : IVec S8192 32) (b : Fin 8192) (e : Fin 128)
    (hb : (x (ix1 b)).toNat < 128) :
    Host.gather gather_S128x128_S8192x1_S8192x128_1_0_n_n_0_1_1128 E
      (broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 128#32))) x)) (ix2 b e)
      = E (ix2 (tok (x (ix1 b))) e) := by
  refine (embed_gather_apply E _ b e).trans (congrArg (fun r => E (ix2 r e)) (Fin.ext ?_))
  show min (BitVec.toInt _).toNat 127 = _
  rw [startIdx_apply x b hb]
  exact clamp_tok_val _ hb

/-! ### A layer's pre-activations at an entry, in the reference's grouping -/

/-- Layers 1 and 2: over an input array X : [8192, 512] and layer l's slab of the stacked hidden states, entry (b, n)
    is ((∑ₖ X[b,k]·Wih[n,k] + bih[n]) + ∑ₖ H[l,b,k]·Whh[n,k]) + bhh[n]. -/
theorem gates512_apply (X : FVec Ideal S8192x512 .f32) (H : FVec Ideal S3x8192x512 .f32)
    (Wih Whh : FVec Ideal S2048x512 .f32) (bih bhh : FVec Ideal S2048 .f32) (l : Fin 3)
    (hs : S3x8192x512.Slices ![l.val, 0, 0] S1x8192x512) (b : Fin 8192) (n : Fin 2048) :
    addf (addf (addf
        (Host.dotGeneral (F := Ideal) dot_S8192x512_S512x2048_S8192x2048_1_0_0_1_n_n none X (transpose S512x2048 [1, 0] Wih transposes_S2048x512_S512x2048_1_0))
        (broadcastInDim S8192x2048 ![0, 1] bcast_S1x2048_S8192x2048_0_1 (broadcastInDim S1x2048 ![1] bcast_S2048_S1x2048_1 bih)))
        (Host.dotGeneral (F := Ideal) dot_S8192x512_S512x2048_S8192x2048_1_0_0_1_n_n none (shapeCast S8192x512 (extractStridedSlice S1x8192x512 ![l.val, 0, 0] H hs) shapeCasts_S1x8192x512_S8192x512) (transpose S512x2048 [1, 0] Whh transposes_S2048x512_S512x2048_1_0)))
        (broadcastInDim S8192x2048 ![0, 1] bcast_S1x2048_S8192x2048_0_1 (broadcastInDim S1x2048 ![1] bcast_S2048_S1x2048_1 bhh)) (ix2 b n)
      = gatesR (fun k => X (ix2 b k)) (fun k => H (ix3 l b k)) (fun n k => Wih (ix2 n k)) (fun n k => Whh (ix2 n k))
          (fun n => bih (ix1 n)) (fun n => bhh (ix1 n)) n := by
  rw [addf_apply, addf_apply, addf_apply, dot512x2048_apply, dot512x2048_apply, biasRow2048_apply, biasRow2048_apply]
  simp only [slab_apply]
  rfl

/-- Layer 0: the input row is the embedding table's row at the token. -/
theorem gates0_apply (x : IVec S8192 32) (E : FVec Ideal S128x128 .f32) (H : FVec Ideal S3x8192x512 .f32)
    (Wih : FVec Ideal S2048x128 .f32) (Whh : FVec Ideal S2048x512 .f32) (bih bhh : FVec Ideal S2048 .f32) (l : Fin 3)
    (hs : S3x8192x512.Slices ![l.val, 0, 0] S1x8192x512) (b : Fin 8192) (n : Fin 2048) (hb : (x (ix1 b)).toNat < 128) :
    addf (addf (addf
        (Host.dotGeneral (F := Ideal) dot_S8192x128_S128x2048_S8192x2048_1_0_0_1_n_n none
          (Host.gather gather_S128x128_S8192x1_S8192x128_1_0_n_n_0_1_1128 E
      (broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 128#32))) x)))
          (transpose S128x2048 [1, 0] Wih transposes_S2048x128_S128x2048_1_0))
        (broadcastInDim S8192x2048 ![0, 1] bcast_S1x2048_S8192x2048_0_1 (broadcastInDim S1x2048 ![1] bcast_S2048_S1x2048_1 bih)))
        (Host.dotGeneral (F := Ideal) dot_S8192x512_S512x2048_S8192x2048_1_0_0_1_n_n none (shapeCast S8192x512 (extractStridedSlice S1x8192x512 ![l.val, 0, 0] H hs) shapeCasts_S1x8192x512_S8192x512) (transpose S512x2048 [1, 0] Whh transposes_S2048x512_S512x2048_1_0)))
        (broadcastInDim S8192x2048 ![0, 1] bcast_S1x2048_S8192x2048_0_1 (broadcastInDim S1x2048 ![1] bcast_S2048_S1x2048_1 bhh)) (ix2 b n)
      = gatesR (fun e => E (ix2 (tok (x (ix1 b))) e)) (fun k => H (ix3 l b k)) (fun n k => Wih (ix2 n k)) (fun n k => Whh (ix2 n k))
          (fun n => bih (ix1 n)) (fun n => bhh (ix1 n)) n := by
  rw [addf_apply, addf_apply, addf_apply, dot128x2048_apply, dot512x2048_apply, biasRow2048_apply, biasRow2048_apply]
  simp only [slab_apply, embed_tok_apply E x b _ hb]
  rfl

/-- The read-out over an input array X : [8192, 512]: entry (b, v) is ∑ₖ X[b,k]·W[v,k] + bias[v]. -/
theorem readout_apply (X : FVec Ideal S8192x512 .f32) (W : FVec Ideal S128x512 .f32) (bias : FVec Ideal S128 .f32)
    (b : Fin 8192) (v : Fin 128) :
    addf (Host.dotGeneral (F := Ideal) dot_S8192x512_S512x128_S8192x128_1_0_0_1_n_n none X (transpose S512x128 [1, 0] W transposes_S128x512_S512x128_1_0))
        (broadcastInDim S8192x128 ![0, 1] bcast_S1x128_S8192x128_0_1 (broadcastInDim S1x128 ![1] bcast_S128_S1x128_1 bias)) (ix2 b v)
      = (∑ k, X (ix2 b k) * W (ix2 v k)) + bias (ix1 v) := by
  rw [addf_apply, dot512x128_apply, biasRow128_apply]

/-! ## The reference's composed terms at an entry -/

/-- The eighteen argument arrays of a valuation. -/
def rArgs (V0 : Valuation τ sig (Elt Ideal)) : Args where
  x := V0 (Proc.devRef .tc main_arg0)
  h := V0 (Proc.devRef .tc main_arg1)
  c := V0 (Proc.devRef .tc main_arg2)
  E := V0 (Proc.devRef .tc main_arg3)
  Wih0 := V0 (Proc.devRef .tc main_arg4)
  Whh0 := V0 (Proc.devRef .tc main_arg5)
  bih0 := V0 (Proc.devRef .tc main_arg6)
  bhh0 := V0 (Proc.devRef .tc main_arg7)
  Wih1 := V0 (Proc.devRef .tc main_arg8)
  Whh1 := V0 (Proc.devRef .tc main_arg9)
  bih1 := V0 (Proc.devRef .tc main_arg10)
  bhh1 := V0 (Proc.devRef .tc main_arg11)
  Wih2 := V0 (Proc.devRef .tc main_arg12)
  Whh2 := V0 (Proc.devRef .tc main_arg13)
  bih2 := V0 (Proc.devRef .tc main_arg14)
  bhh2 := V0 (Proc.devRef .tc main_arg15)
  linW := V0 (Proc.devRef .tc main_arg16)
  linb := V0 (Proc.devRef .tc main_arg17)

/-- The reference's logits term. -/
def logitsTerm {F : FTy → Type} [FloatOps F] (V0 : Valuation τ sig (Elt F)) : FVec F S8192x128 .f32 :=
  addf (Host.dotGeneral dot_S8192x512_S512x128_S8192x128_1_0_0_1_n_n none (res_main_v135 V0) (transpose S512x128 [1, 0] (V0 (Proc.devRef .tc main_arg16)) transposes_S128x512_S512x128_1_0)) (broadcastInDim S8192x128 ![0, 1] bcast_S1x128_S8192x128_0_1 (broadcastInDim S1x128 ![1] bcast_S128_S1x128_1 (V0 (Proc.devRef .tc main_arg17))))

variable (V0 : Valuation τ sig (Elt Ideal))

/-- Layer 0's pre-activations at (b, n). -/
theorem g0_apply (hx : (rArgs V0).InRange) (b : Fin 8192) (n : Fin 2048) :
    (res_main_v21 (F := Ideal) V0 : FVec Ideal S8192x2048 .f32) (ix2 b n) = ((rArgs V0).row b).g0 n :=
  gates0_apply (V0 (Proc.devRef .tc main_arg0)) (V0 (Proc.devRef .tc main_arg3)) (V0 (Proc.devRef .tc main_arg1))
    (V0 (Proc.devRef .tc main_arg4)) (V0 (Proc.devRef .tc main_arg5)) (V0 (Proc.devRef .tc main_arg6))
    (V0 (Proc.devRef .tc main_arg7)) 0 slices_S3x8192x512_S1x8192x512_0_0_0 b n (hx b)

/-- Layer 1's pre-activations at (b, n), over layer 0's new hidden row. -/
theorem g1_apply (b : Fin 8192) (n : Fin 2048) :
    (res_main_v64 (F := Ideal) V0 : FVec Ideal S8192x2048 .f32) (ix2 b n)
      = gatesR (fun k => (res_main_v49 (F := Ideal) V0 : FVec Ideal S8192x512 .f32) (ix2 b k)) (((rArgs V0).row b).h 1) ((rArgs V0).row b).Wih1
          ((rArgs V0).row b).Whh1 ((rArgs V0).row b).bih1 ((rArgs V0).row b).bhh1 n :=
  gates512_apply (res_main_v49 V0) (V0 (Proc.devRef .tc main_arg1)) (V0 (Proc.devRef .tc main_arg8))
    (V0 (Proc.devRef .tc main_arg9)) (V0 (Proc.devRef .tc main_arg10)) (V0 (Proc.devRef .tc main_arg11)) 1
    slices_S3x8192x512_S1x8192x512_1_0_0 b n

/-- Layer 2's pre-activations at (b, n), over layer 1's new hidden row. -/
theorem g2_apply (b : Fin 8192) (n : Fin 2048) :
    (res_main_v107 (F := Ideal) V0 : FVec Ideal S8192x2048 .f32) (ix2 b n)
      = gatesR (fun k => (res_main_v92 (F := Ideal) V0 : FVec Ideal S8192x512 .f32) (ix2 b k)) (((rArgs V0).row b).h 2) ((rArgs V0).row b).Wih2
          ((rArgs V0).row b).Whh2 ((rArgs V0).row b).bih2 ((rArgs V0).row b).bhh2 n :=
  gates512_apply (res_main_v92 V0) (V0 (Proc.devRef .tc main_arg1)) (V0 (Proc.devRef .tc main_arg12))
    (V0 (Proc.devRef .tc main_arg13)) (V0 (Proc.devRef .tc main_arg14)) (V0 (Proc.devRef .tc main_arg15)) 2
    slices_S3x8192x512_S1x8192x512_2_0_0 b n

/-- The read-out of a hidden row: h · Wᵀ + bias. -/
def readout (h : Fin 512 → EReal) (W : Fin 128 → Fin 512 → EReal) (bias : Fin 128 → EReal) (v : Fin 128) : EReal :=
  (∑ k, h k * W v k) + bias v

/-- The read-out at (b, v), over layer 2's new hidden row. -/
theorem logitsTerm_apply (b : Fin 8192) (v : Fin 128) :
    logitsTerm (F := Ideal) V0 (ix2 b v)
      = readout (fun k => (res_main_v135 (F := Ideal) V0 : FVec Ideal S8192x512 .f32) (ix2 b k)) ((rArgs V0).row b).linW
          ((rArgs V0).row b).linb v :=
  readout_apply (res_main_v135 V0) (V0 (Proc.devRef .tc main_arg16)) (V0 (Proc.devRef .tc main_arg17)) b v

end Cert.ReferenceIdeal.Hand

end
-- ==== Proof.RefRows.lean ====
/-
  The reference's three results, entry by entry: the cell update is elementwise over quarters of the
  pre-activations, the layers feed one another, and the stacked results are the layers' rows.

  The cell update c' = σ(f) ∘ c + σ(i) ∘ tanh g and the hidden update h' = σ(o) ∘ tanh c' are read at one entry
  (b, j) once, over any pre-activation array G and cell array C: the four gates are the four column slices of G at
  offsets 0, 512, 1024, 1536, so entry (b, j) of a slice is entry (b, q·512 + j) of G, and everything else is
  pointwise. Each layer then instantiates the two lemmas at its own arrays; layer l + 1's pre-activations take layer
  l's new hidden row as their input row. The stacked results are three [8192, 512] arrays laid along a new leading
  axis: entry (l, b, j) is entry (b, j) of the l-th.
-/
import proofs.«409252_j3470333575609_2_alg».proof.Proof.RefGates
import Idealize.ShloMosaic.Lib.Pipeline.Value
import Idealize.ShloMosaic.Lib.ValueLayout

noncomputable section

namespace Cert.ReferenceIdeal.Hand

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo Cert.Lstm

/-! ### The cell and hidden updates at one entry, over any pre-activations -/

/-- The reference's new cell array of a layer, over the layer's pre-activations G and old cell array C:
    σ(forget quarter) ∘ C + σ(input quarter) ∘ tanh (cell quarter), σ written 1 / (1 + e^{-g}). -/
def cellTerm (G : FVec Ideal S8192x2048 .f32) (C : FVec Ideal S8192x512 .f32) : FVec Ideal S8192x512 .f32 :=
  addf (mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] G slices_S8192x2048_S8192x512_0_512))))) C) (mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 0] G slices_S8192x2048_S8192x512_0_0))))) (Host.tanh (extractStridedSlice S8192x512 ![0, 1024] G slices_S8192x2048_S8192x512_0_1024)))

/-- The reference's new hidden array of a layer, over the pre-activations G and the NEW cell array Cn:
    σ(output quarter) ∘ tanh Cn. -/
def hiddenTerm (G : FVec Ideal S8192x2048 .f32) (Cn : FVec Ideal S8192x512 .f32) : FVec Ideal S8192x512 .f32 :=
  mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] G slices_S8192x2048_S8192x512_0_1536))))) (Host.tanh Cn)

/-- Quarter q of row b of the pre-activations: the slice at column offset q·512 reads column q·512 + j. -/
theorem quarterSlice_apply (G : FVec Ideal S8192x2048 .f32) (q : Fin 4) (o : Nat) (ho : o = q.val * 512)
    (h : S8192x2048.Slices ![0, o] S8192x512) (b : Fin 8192) (j : Fin 512) :
    extractStridedSlice S8192x512 ![0, o] G h (ix2 b j) = G (ix2 b (quarter q j)) :=
  slice2_axis1_apply o G h b j (quarter q j) (by subst ho; rfl)

/-- The new cell array at (b, j) is the row formula cNew over row b of G and of C. -/
theorem cellTerm_apply (G : FVec Ideal S8192x2048 .f32) (C : FVec Ideal S8192x512 .f32) (b : Fin 8192) (j : Fin 512) :
    cellTerm G C (ix2 b j) = cNew sigm (fun n => G (ix2 b n)) (fun k => C (ix2 b k)) j := by
  show Ideal.div one (one + Ideal.exp (-(extractStridedSlice S8192x512 ![0, 512] G slices_S8192x2048_S8192x512_0_512 (ix2 b j)))) * C (ix2 b j)
      + Ideal.div one (one + Ideal.exp (-(extractStridedSlice S8192x512 ![0, 0] G slices_S8192x2048_S8192x512_0_0 (ix2 b j))))
        * Ideal.tanh (extractStridedSlice S8192x512 ![0, 1024] G slices_S8192x2048_S8192x512_0_1024 (ix2 b j)) = _
  rw [quarterSlice_apply G 1 512 rfl, quarterSlice_apply G 0 0 rfl, quarterSlice_apply G 2 1024 rfl]
  rfl

/-- The new hidden array at (b, j) is σ(output gate) · tanh of the new cell entry. -/
theorem hiddenTerm_apply (G : FVec Ideal S8192x2048 .f32) (Cn : FVec Ideal S8192x512 .f32) (b : Fin 8192) (j : Fin 512) :
    hiddenTerm G Cn (ix2 b j) = sigm (G (ix2 b (quarter 3 j))) * Ideal.tanh (Cn (ix2 b j)) := by
  show Ideal.div one (one + Ideal.exp (-(extractStridedSlice S8192x512 ![0, 1536] G slices_S8192x2048_S8192x512_0_1536 (ix2 b j))))
      * Ideal.tanh (Cn (ix2 b j)) = _
  rw [quarterSlice_apply G 3 1536 rfl]
  rfl

/-- The cell lemma against a row's own functions: if row b of G is g and row b of C is c, the new cell entry is cNew. -/
theorem cellTerm_row (G : FVec Ideal S8192x2048 .f32) (C : FVec Ideal S8192x512 .f32) (b : Fin 8192) (j : Fin 512)
    (g : Fin 2048 → EReal) (c : Fin 512 → EReal) (hg : ∀ n, G (ix2 b n) = g n) (hc : ∀ k, C (ix2 b k) = c k) :
    cellTerm G C (ix2 b j) = cNew sigm g c j := by
  have e1 : (fun n => G (ix2 b n)) = g := funext hg
  have e2 : (fun k => C (ix2 b k)) = c := funext hc
  rw [cellTerm_apply, e1, e2]

/-- The hidden lemma against a row's own functions: if row b of G is g and the new cell entry is cNew, the new hidden
    entry is hNew. -/
theorem hiddenTerm_row (G : FVec Ideal S8192x2048 .f32) (Cn : FVec Ideal S8192x512 .f32) (b : Fin 8192) (j : Fin 512)
    (g : Fin 2048 → EReal) (c : Fin 512 → EReal) (hg : ∀ n, G (ix2 b n) = g n) (hc : Cn (ix2 b j) = cNew sigm g c j) :
    hiddenTerm G Cn (ix2 b j) = hNew sigm g c j := by
  rw [hiddenTerm_apply, hg, hc]
  rfl

/-! ### A layer's slab of the stacked old states -/

/-- Layer l's slab of a stacked state array [3, 8192, 512], as the [8192, 512] array the reference cuts out and
    reshapes: entry (b, j) is the stacked array's entry (l, b, j). -/
theorem stateSlab_apply (X : FVec Ideal S3x8192x512 .f32) (l : Fin 3) (o : Nat) (ho : o = l.val)
    (h : S3x8192x512.Slices ![o, 0, 0] S1x8192x512) (b : Fin 8192) (j : Fin 512) :
    shapeCast S8192x512 (extractStridedSlice S1x8192x512 ![o, 0, 0] X h) shapeCasts_S1x8192x512_S8192x512 (ix2 b j)
      = X (ix3 l b j) :=
  (shapeCast_1ab_ab_apply _ shapeCasts_S1x8192x512_S8192x512 b j).trans
    (extractStridedSlice_apply _ X h _ (ix3 l b j) (fun ax => by
      match ax with
      | ⟨0, _⟩ => subst ho; rfl
      | ⟨1, _⟩ => exact (Nat.zero_add _).symm
      | ⟨2, _⟩ => exact (Nat.zero_add _).symm))

/-! ### Three arrays stacked along a new leading axis -/

/-- An [8192, 512] array given a leading unit axis reads, at (u, b, j), the array at (b, j). -/
theorem lift_apply (a : FVec Ideal S8192x512 .f32) (u : Fin 1) (b : Fin 8192) (j : Fin 512) :
    broadcastInDim S1x8192x512 ![1, 2] bcast_S8192x512_S1x8192x512_1_2 a (ix3 u b j) = a (ix2 b j) :=
  broadcastInDim_apply _ bcast_S8192x512_S1x8192x512_1_2 a (ix3 u b j) (ix2 b j) (fun ax => by
    match ax with
    | ⟨0, _⟩ => rfl
    | ⟨1, _⟩ => rfl)

/-- The three lifted [8192, 512] arrays, in layer order: the pieces of the stack. -/
abbrev stackPieces (a0 a1 a2 : FVec Ideal S8192x512 .f32) : List ((s : Shape) × (s.Idx → Ideal .f32)) :=
  [⟨S1x8192x512, (broadcastInDim S1x8192x512 ![1, 2] bcast_S8192x512_S1x8192x512_1_2 a0)⟩, ⟨S1x8192x512, (broadcastInDim S1x8192x512 ![1, 2] bcast_S8192x512_S1x8192x512_1_2 a1)⟩, ⟨S1x8192x512, (broadcastInDim S1x8192x512 ![1, 2] bcast_S8192x512_S1x8192x512_1_2 a2)⟩]

/-- The stack of three [8192, 512] arrays along a new leading axis. -/
abbrev stack3 (a0 a1 a2 : FVec Ideal S8192x512 .f32) : FVec Ideal S3x8192x512 .f32 :=
  concatenate S3x8192x512 0 (stackPieces a0 a1 a2) concatenates_S1x8192x512_S1x8192x512_S1x8192x512_S3x8192x512_d0

/-- Piece k of the stack: at (l, b, j) with l = k, the stack reads the k-th array at (b, j). -/
theorem stack3_apply_piece (a0 a1 a2 x : FVec Ideal S8192x512 .f32) (l : Fin 3) (b : Fin 8192) (j : Fin 512)
    (k : Nat) (hk : k < (stackPieces a0 a1 a2).length) (hl : l.val = k)
    (hxk : (stackPieces a0 a1 a2)[k]
      = ⟨S1x8192x512, (broadcastInDim S1x8192x512 ![1, 2] bcast_S8192x512_S1x8192x512_1_2 x)⟩)
    (hpre : ((((stackPieces a0 a1 a2).take k).map (·.1)).map fun s =>
      if h : s.rank = S3x8192x512.rank then s.size ((0 : Fin S3x8192x512.rank).cast h.symm) else 0).sum = k) :
    stack3 a0 a1 a2 (ix3 l b j) = x (ix2 b j) :=
  (concatenate_apply_piece (0 : Fin S3x8192x512.rank) (stackPieces a0 a1 a2)
    concatenates_S1x8192x512_S1x8192x512_S1x8192x512_S3x8192x512_d0 (ix3 l b j)
    k hk S1x8192x512 _ hxk rfl k hpre (ix3 (0 : Fin 1) b j)
    (fun ax hax => by
      match ax, hax with
      | ⟨0, _⟩, hax => exact absurd rfl hax
      | ⟨1, _⟩, _ => rfl
      | ⟨2, _⟩, _ => rfl)
    (by show k + 0 = l.val; omega)).trans (lift_apply x 0 b j)

/-- The stack at layer 0. -/
theorem stack3_apply_0 (a0 a1 a2 : FVec Ideal S8192x512 .f32) (l : Fin 3) (hl : l.val = 0) (b : Fin 8192) (j : Fin 512) :
    stack3 a0 a1 a2 (ix3 l b j) = a0 (ix2 b j) :=
  stack3_apply_piece a0 a1 a2 a0 l b j 0 (by show (0 : ℕ) < 3; decide) hl rfl rfl

/-- The stack at layer 1. -/
theorem stack3_apply_1 (a0 a1 a2 : FVec Ideal S8192x512 .f32) (l : Fin 3) (hl : l.val = 1) (b : Fin 8192) (j : Fin 512) :
    stack3 a0 a1 a2 (ix3 l b j) = a1 (ix2 b j) :=
  stack3_apply_piece a0 a1 a2 a1 l b j 1 (by show (1 : ℕ) < 3; decide) hl rfl rfl

/-- The stack at layer 2. -/
theorem stack3_apply_2 (a0 a1 a2 : FVec Ideal S8192x512 .f32) (l : Fin 3) (hl : l.val = 2) (b : Fin 8192) (j : Fin 512) :
    stack3 a0 a1 a2 (ix3 l b j) = a2 (ix2 b j) :=
  stack3_apply_piece a0 a1 a2 a2 l b j 2 (by show (2 : ℕ) < 3; decide) hl rfl rfl

/-! ### The reference's two stacked result terms -/

/-- The reference's stacked new hidden states. -/
def hsTerm (V0 : Valuation τ sig (Elt Ideal)) : FVec Ideal S3x8192x512 .f32 :=
  concatenate S3x8192x512 0 [⟨S1x8192x512, (broadcastInDim S1x8192x512 ![1, 2] bcast_S8192x512_S1x8192x512_1_2 (res_main_v49 V0))⟩, ⟨S1x8192x512, (broadcastInDim S1x8192x512 ![1, 2] bcast_S8192x512_S1x8192x512_1_2 (res_main_v92 V0))⟩, ⟨S1x8192x512, (broadcastInDim S1x8192x512 ![1, 2] bcast_S8192x512_S1x8192x512_1_2 (res_main_v135 V0))⟩] concatenates_S1x8192x512_S1x8192x512_S1x8192x512_S3x8192x512_d0

/-- The reference's stacked new cell states. -/
def csTerm (V0 : Valuation τ sig (Elt Ideal)) : FVec Ideal S3x8192x512 .f32 :=
  concatenate S3x8192x512 0 [⟨S1x8192x512, (broadcastInDim S1x8192x512 ![1, 2] bcast_S8192x512_S1x8192x512_1_2 (res_main_v47 V0))⟩, ⟨S1x8192x512, (broadcastInDim S1x8192x512 ![1, 2] bcast_S8192x512_S1x8192x512_1_2 (res_main_v90 V0))⟩, ⟨S1x8192x512, (broadcastInDim S1x8192x512 ![1, 2] bcast_S8192x512_S1x8192x512_1_2 (res_main_v133 V0))⟩] concatenates_S1x8192x512_S1x8192x512_S1x8192x512_S3x8192x512_d0

variable (V0 : Valuation τ sig (Elt Ideal))

/-! ### Layer by layer: each layer's new cell and hidden arrays are the rows' -/

/-- Layer 0's new cell array at (b, j). -/
theorem c0_apply (hx : (rArgs V0).InRange) (b : Fin 8192) (j : Fin 512) :
    (res_main_v47 (F := Ideal) V0 : FVec Ideal S8192x512 .f32) (ix2 b j) = ((rArgs V0).row b).c0 j :=
  cellTerm_row (res_main_v21 V0) _ b j _ _ (g0_apply V0 hx b) (fun k => stateSlab_apply _ 0 0 rfl _ b k)

/-- Layer 0's new hidden array at (b, j). -/
theorem h0_apply (hx : (rArgs V0).InRange) (b : Fin 8192) (j : Fin 512) :
    (res_main_v49 (F := Ideal) V0 : FVec Ideal S8192x512 .f32) (ix2 b j) = ((rArgs V0).row b).h0 j :=
  hiddenTerm_row (res_main_v21 V0) (res_main_v47 V0) b j _ _ (g0_apply V0 hx b) (c0_apply V0 hx b j)

/-- Layer 1's pre-activations at (b, n): its input row is layer 0's new hidden row. -/
theorem g1_row (hx : (rArgs V0).InRange) (b : Fin 8192) (n : Fin 2048) :
    (res_main_v64 (F := Ideal) V0 : FVec Ideal S8192x2048 .f32) (ix2 b n) = ((rArgs V0).row b).g1 n := by
  have e : (fun k => (res_main_v49 (F := Ideal) V0 : FVec Ideal S8192x512 .f32) (ix2 b k)) = ((rArgs V0).row b).h0 :=
    funext fun k => h0_apply V0 hx b k
  rw [g1_apply, e]
  rfl

/-- Layer 1's new cell array at (b, j). -/
theorem c1_apply (hx : (rArgs V0).InRange) (b : Fin 8192) (j : Fin 512) :
    (res_main_v90 (F := Ideal) V0 : FVec Ideal S8192x512 .f32) (ix2 b j) = ((rArgs V0).row b).c1 j :=
  cellTerm_row (res_main_v64 V0) _ b j _ _ (g1_row V0 hx b) (fun k => stateSlab_apply _ 1 1 rfl _ b k)

/-- Layer 1's new hidden array at (b, j). -/
theorem h1_apply (hx : (rArgs V0).InRange) (b : Fin 8192) (j : Fin 512) :
    (res_main_v92 (F := Ideal) V0 : FVec Ideal S8192x512 .f32) (ix2 b j) = ((rArgs V0).row b).h1 j :=
  hiddenTerm_row (res_main_v64 V0) (res_main_v90 V0) b j _ _ (g1_row V0 hx b) (c1_apply V0 hx b j)

/-- Layer 2's pre-activations at (b, n): its input row is layer 1's new hidden row. -/
theorem g2_row (hx : (rArgs V0).InRange) (b : Fin 8192) (n : Fin 2048) :
    (res_main_v107 (F := Ideal) V0 : FVec Ideal S8192x2048 .f32) (ix2 b n) = ((rArgs V0).row b).g2 n := by
  have e : (fun k => (res_main_v92 (F := Ideal) V0 : FVec Ideal S8192x512 .f32) (ix2 b k)) = ((rArgs V0).row b).h1 :=
    funext fun k => h1_apply V0 hx b k
  rw [g2_apply, e]
  rfl

/-- Layer 2's new cell array at (b, j). -/
theorem c2_apply (hx : (rArgs V0).InRange) (b : Fin 8192) (j : Fin 512) :
    (res_main_v133 (F := Ideal) V0 : FVec Ideal S8192x512 .f32) (ix2 b j) = ((rArgs V0).row b).c2 j :=
  cellTerm_row (res_main_v107 V0) _ b j _ _ (g2_row V0 hx b) (fun k => stateSlab_apply _ 2 2 rfl _ b k)

/-- Layer 2's new hidden array at (b, j). -/
theorem h2_apply (hx : (rArgs V0).InRange) (b : Fin 8192) (j : Fin 512) :
    (res_main_v135 (F := Ideal) V0 : FVec Ideal S8192x512 .f32) (ix2 b j) = ((rArgs V0).row b).h2 j :=
  hiddenTerm_row (res_main_v107 V0) (res_main_v133 V0) b j _ _ (g2_row V0 hx b) (c2_apply V0 hx b j)

/-- The read-out at (b, v): the sum runs over layer 2's new hidden row. -/
theorem logits_row (hx : (rArgs V0).InRange) (b : Fin 8192) (v : Fin 128) :
    logitsTerm (F := Ideal) V0 (ix2 b v) = ((rArgs V0).row b).logits v := by
  rw [logitsTerm_apply]
  simp only [h2_apply V0 hx b]
  rfl

/-! ### The stacked results -/

/-- The stacked new hidden states at (l, b, j): layer l's new hidden row of batch row b. -/
theorem hsTerm_apply (hx : (rArgs V0).InRange) (l : Fin 3) (b : Fin 8192) (j : Fin 512) :
    hsTerm V0 (ix3 l b j) = ((rArgs V0).row b).hs l j := by
  show stack3 (res_main_v49 V0) (res_main_v92 V0) (res_main_v135 V0) (ix3 l b j) = _
  match l with
  | ⟨0, _⟩ => exact (stack3_apply_0 _ _ _ _ rfl b j).trans (h0_apply V0 hx b j)
  | ⟨1, _⟩ => exact (stack3_apply_1 _ _ _ _ rfl b j).trans (h1_apply V0 hx b j)
  | ⟨2, _⟩ => exact (stack3_apply_2 _ _ _ _ rfl b j).trans (h2_apply V0 hx b j)

/-- The stacked new cell states at (l, b, j): layer l's new cell row of batch row b. -/
theorem csTerm_apply (hx : (rArgs V0).InRange) (l : Fin 3) (b : Fin 8192) (j : Fin 512) :
    csTerm V0 (ix3 l b j) = ((rArgs V0).row b).cs l j := by
  show stack3 (res_main_v47 V0) (res_main_v90 V0) (res_main_v133 V0) (ix3 l b j) = _
  match l with
  | ⟨0, _⟩ => exact (stack3_apply_0 _ _ _ _ rfl b j).trans (c0_apply V0 hx b j)
  | ⟨1, _⟩ => exact (stack3_apply_1 _ _ _ _ rfl b j).trans (c1_apply V0 hx b j)
  | ⟨2, _⟩ => exact (stack3_apply_2 _ _ _ _ rfl b j).trans (c2_apply V0 hx b j)

/-- The reference's three results are the rows' results, for tokens in range. -/
theorem ref_values (hx : (rArgs V0).InRange) :
    logitsTerm (F := Ideal) V0 = (rArgs V0).logitsArr ∧ hsTerm V0 = (rArgs V0).hsArr ∧ csTerm V0 = (rArgs V0).csArr := by
  refine ⟨funext fun i => ?_, funext fun i => ?_, funext fun i => ?_⟩
  · obtain ⟨b, v, rfl⟩ : ∃ (b : Fin 8192) (v : Fin 128), i = ix2 b v := ⟨i 0, i 1, eq_ix2 i⟩
    exact logits_row V0 hx b v
  · obtain ⟨l, b, j, rfl⟩ : ∃ (l : Fin 3) (b : Fin 8192) (j : Fin 512), i = ix3 l b j := ⟨i 0, i 1, i 2, eq_ix3 i⟩
    exact hsTerm_apply V0 hx l b j
  · obtain ⟨l, b, j, rfl⟩ : ∃ (l : Fin 3) (b : Fin 8192) (j : Fin 512), i = ix3 l b j := ⟨i 0, i 1, i 2, eq_ix3 i⟩
    exact csTerm_apply V0 hx l b j

end Cert.ReferenceIdeal.Hand

end
-- ==== Proof.PreRange.lean ====
/-
  What the precondition says of the tokens: its last conjunct, all (0 ≤ x ∧ x < 128) over the 8192 tokens, read
  at one token.
-/
import proofs.«409252_j3470333575609_2_alg».proof.Proof.Gen.Pre_finite_inputs
import proofs.«409252_j3470333575609_2_alg».proof.Proof.Rows
import Idealize.ShloMosaic.Lib.ReduceAll
import Idealize.ShloMosaic.Lib.StableHlo.Predicate

noncomputable section

namespace Cert.Pre_finite_inputs.Hand

open Cert.Pre_finite_inputs Idealize.ShloMosaic Idealize.ShloMosaic.ValueIdx

/-- A 32-bit word whose signed value lies in [0, 128) has unsigned value below 128. -/
theorem toNat_lt_of_toInt_range (x : BitVec 32) (h0 : 0 ≤ x.toInt) (h1 : x.toInt < 128) : x.toNat < 128 := by
  have hx := x.isLt
  rw [BitVec.toInt_eq_toNat_cond] at h0 h1
  split at h0 <;> split at h1 <;> omega

/-- A word that passes both signed range tests, 0 ≤ x and x < 128, has unsigned value below 128. -/
theorem toNat_lt_of_cmpi (x : BitVec 32) (hge : IntOp.cmpi .sge x 0#32 = 1#1) (hlt : IntOp.cmpi .slt x 128#32 = 1#1) :
    x.toNat < 128 := by
  have h0 : (0#32 : BitVec 32).toInt ≤ x.toInt := IntOp.cmpi_sge.1 hge
  have h1 : x.toInt < (128#32 : BitVec 32).toInt := IntOp.cmpi_slt.1 hlt
  have e0 : (0#32 : BitVec 32).toInt = 0 := by decide
  have e1 : (128#32 : BitVec 32).toInt = 128 := by decide
  rw [e0] at h0
  rw [e1] at h1
  exact toNat_lt_of_toInt_range x h0 h1

/-- The last stretch of the precondition, a conjunction whose right operand is the all-reduction of the tokens' range
    test 0 ≤ x ∧ x < 128: when it holds, every token is below 128. The left operand (the finiteness conjuncts) is any bit. -/
theorem inRange_of_part5 [Cert.Pre_finite_inputs.Facts] (a0 : IVec S8192 32) (p : IVec S_ 1)
    (h : fn_part5 (F := Ideal) a0 p (broadcastInDim S8192 ![] Facts.bcast_S_S8192 (constantI S_ 32 0#32)) = fun _ => 1#1)
    (b : Fin 8192) : (a0 (ix1 b)).toNat < 128 := by
  haveI : Subsingleton S_.Idx := ⟨fun a b => funext fun d => d.elim0⟩
  have h0 := congrFun h ix0
  -- the outer conjunction at the one index of a scalar: both operands are 1
  have hall := (IntOp.andi_eq_one.1 h0).2
  -- the all-reduction is 1, so the range test is 1 at every token
  have hb := Host.reduce_andi_all _ _ _ _ _ hall (ix1 b)
  -- the range test at token b is the conjunction of the two compares, against the splats of 0 and of 128
  obtain ⟨hge, hlt⟩ := IntOp.andi_eq_one.1 hb
  exact toNat_lt_of_cmpi (a0 (ix1 b)) hge hlt

/-- Under the precondition every token is in [0, 128). -/
theorem inRange_of_pre [Cert.Pre_finite_inputs.Facts]
    (a0 : IVec S8192 32) (a1 : FVec Ideal S3x8192x512 .f32) (a2 : FVec Ideal S3x8192x512 .f32) (a3 : FVec Ideal S128x128 .f32)
    (a4 : FVec Ideal S2048x128 .f32) (a5 : FVec Ideal S2048x512 .f32) (a6 : FVec Ideal S2048 .f32) (a7 : FVec Ideal S2048 .f32)
    (a8 : FVec Ideal S2048x512 .f32) (a9 : FVec Ideal S2048x512 .f32) (a10 : FVec Ideal S2048 .f32) (a11 : FVec Ideal S2048 .f32)
    (a12 : FVec Ideal S2048x512 .f32) (a13 : FVec Ideal S2048x512 .f32) (a14 : FVec Ideal S2048 .f32) (a15 : FVec Ideal S2048 .f32)
    (a16 : FVec Ideal S128x512 .f32) (a17 : FVec Ideal S128 .f32)
    (h : Cert.Pre_finite_inputs.fn (F := Ideal) a0 a1 a2 a3 a4 a5 a6 a7 a8 a9 a10 a11 a12 a13 a14 a15 a16 a17 = fun _ => 1#1)
    (b : Fin 8192) : (a0 (ix1 b)).toNat < 128 :=
  -- the printed chain unfolds, part by part, to its last stretch applied to the conjunction of the finiteness conjuncts
  inRange_of_part5 a0 _ h b

end Cert.Pre_finite_inputs.Hand

end
-- ==== Proof.lean ====
/-
  Equivalence over the extended reals of a fused LSTM step — an embedding lookup, three LSTM layers and a linear
  read-out in ONE kernel gridded over blocks of 256 batch rows — with its plain reference, for tokens in [0, 128).

  The kernel differs from the reference in four spellings, none of which changes a value on the extended reals:
  the embedding row is a one-hot row times the table (the reference indexes the table: for a token in range both are
  the token's row; outside the range the one-hot row is zero while the lookup clamps, which is why the range is
  assumed); each layer's two matrix products are one product of the concatenated row [x, h] with the stacked
  matrix [Wihᵀ; Whhᵀ], and the two biases are added first (a sum split in two, regrouped: + is commutative and
  associative on the extended reals, no finiteness needed); the logistic gates are ½·(tanh(½g) + 1) instead of
  1/(1 + e^{-g}) (equal at every extended real, the infinities included); every change of float format is the
  identity. Each batch row is computed independently of the others, so the proof is row by row: Proof/Spec.lean
  states one row's results in both spellings and Proof/LstmMath.lean proves them equal; Proof/KernelRows.lean reads
  the kernel body's stores at an entry and Proof/KernelValue.lean tiles the 32 blocks into the result arrays;
  Proof/RefRows.lean reads the reference's terms at an entry; Proof/PreRange.lean reads the token range off the
  precondition. The frames are the generated ones; the idealization rewrote nothing, so preserves is trivial.
-/
import proofs.«409252_j3470333575609_2_alg».proof.Defs
import proofs.«409252_j3470333575609_2_alg».proof.Proof.Gen.Kernel
import proofs.«409252_j3470333575609_2_alg».proof.Proof.Gen.Kernel.Skeleton
import proofs.«409252_j3470333575609_2_alg».proof.Proof.Gen.Kernel.Launch
import proofs.«409252_j3470333575609_2_alg».proof.Proof.Gen.Kernel.Points
import proofs.«409252_j3470333575609_2_alg».proof.Proof.Gen.Kernel.Frame
import proofs.«409252_j3470333575609_2_alg».proof.Proof.Gen.KernelIdeal
import proofs.«409252_j3470333575609_2_alg».proof.Proof.Gen.KernelIdeal.Skeleton
import proofs.«409252_j3470333575609_2_alg».proof.Proof.Gen.KernelIdeal.Launch
import proofs.«409252_j3470333575609_2_alg».proof.Proof.Gen.KernelIdeal.Points
import proofs.«409252_j3470333575609_2_alg».proof.Proof.Gen.KernelIdeal.Frame
import proofs.«409252_j3470333575609_2_alg».proof.Proof.Gen.ReferenceIdeal
import proofs.«409252_j3470333575609_2_alg».proof.Proof.Gen.Pre_finite_inputs
import proofs.«409252_j3470333575609_2_alg».proof.Proof.Gen.KernelIdeal.Value
import proofs.«409252_j3470333575609_2_alg».proof.Proof.Gen.ReferenceIdeal.Run
import proofs.«409252_j3470333575609_2_alg».proof.Proof.ArrayLaws
import proofs.«409252_j3470333575609_2_alg».proof.Proof.KernelValue
import proofs.«409252_j3470333575609_2_alg».proof.Proof.RefRows
import proofs.«409252_j3470333575609_2_alg».proof.Proof.PreRange
import Idealize.ShloMosaic.Adequacy
import Idealize.ShloMosaic.Init

noncomputable section

namespace Cert.Proof

open Idealize.ShloMosaic Idealize.SL.Sem Cert.Lstm

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The idealized reference runs and leaves its arguments as they were: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the arguments, with every token in range, both programs end with the logits, the
    new hidden states and the new cell states of every batch row: the kernel's arrays are the rows' results in its own
    spelling, the reference's in the reference's, and the two spellings agree. -/
theorem algebraic : Cert.algebraic_KernelIdeal_ReferenceIdeal := by
  intro m ρ m' ρ' hpre hagree
  have hk : ∀ c, (Cert.KernelIdeal.Hand.kArgs m c).InRange := fun c b =>
    Cert.Pre_finite_inputs.Hand.inRange_of_pre _ _ _ _ _ _ _ _ _ _ _ _ _ _ _ _ _ _ (hpre c) b
  have hargs : ∀ c, Cert.ReferenceIdeal.Hand.rArgs (StableHlo.launchContents m' c) = Cert.KernelIdeal.Hand.kArgs m c :=
    fun c => by
      obtain ⟨h0, h1, h2, h3, h4, h5, h6, h7, h8, h9, h10, h11, h12, h13, h14, h15, h16, h17⟩ := hagree c
      exact Args.ext h0 h1 h2 h3 h4 h5 h6 h7 h8 h9 h10 h11 h12 h13 h14 h15 h16 h17
  refine ⟨fun c => (Cert.KernelIdeal.Hand.kArgs m c).logitsArr, fun c => (Cert.KernelIdeal.Hand.kArgs m c).hsArr,
    fun c => (Cert.KernelIdeal.Hand.kArgs m c).csArr, ?_, ?_⟩
  · refine (θ_run Cert.KernelIdeal.defs _ _).mono (fun r h c => ⟨?_, ?_, ?_, (h c).2.2.2⟩)
      (Cert.KernelIdeal.Value.run_blocks (F := Ideal) m ρ)
    · exact ((h c).1.trans (Cert.KernelIdeal.Hand.final12 m c)).trans (Args.klogitsArr_eq _ (hk c))
    · exact ((h c).2.1.trans (Cert.KernelIdeal.Hand.final13 m c)).trans (Args.khsArr_eq _ (hk c))
    · exact ((h c).2.2.1.trans (Cert.KernelIdeal.Hand.final14 m c)).trans (Args.kcsArr_eq _ (hk c))
  · refine (θ_run Cert.ReferenceIdeal.defs _ _).mono (fun r h c => ⟨?_, ?_, ?_, (h c).2.2.2⟩)
      (Cert.ReferenceIdeal.Value.run (F := Ideal) m' ρ')
    all_goals
      have hv := Cert.ReferenceIdeal.Hand.ref_values (StableHlo.launchContents m' c) (by rw [hargs c]; exact hk c)
      rw [hargs c] at hv
    · exact (h c).1.trans hv.1
    · exact (h c).2.1.trans hv.2.1
    · exact (h c).2.2.1.trans hv.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
